-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Pre_finite_inputs_ReferenceIdeal.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  main_v3
-- ==== Kernel.lean ====
abbrev S512x256 : Shape := ⟨2, ![512, 256]⟩
abbrev S1x256 : Shape := ⟨2, ![1, 256]⟩
abbrev S8x1x256 : Shape := ⟨3, ![8, 1, 256]⟩
abbrev S8 : Shape := ⟨1, ![8]⟩
abbrev S_ : Shape := ⟨0, ![]⟩
abbrev S256 : Shape := ⟨1, ![256]⟩
abbrev S1x1x256 : Shape := ⟨3, ![1, 1, 256]⟩
abbrev S1 : Shape := ⟨1, ![1]⟩
abbrev S8x256 : Shape := ⟨2, ![8, 256]⟩

abbrev nBuf : Space → Nat
  | .hbm => 2
  | .vmem => 3
  | .smem => 0
  | _ => 0

abbrev bufTy : (tb : Table) → Fin (tcTables nBuf tb) → BufTy
  | .hbm, ⟨0, _⟩ => ⟨S512x256, .f32⟩
  | .hbm, ⟨1, _⟩ => ⟨S1x256, .f32⟩
  | .local _ .vmem, ⟨0, _⟩ => ⟨S512x256, .f32⟩
  | .local _ .vmem, ⟨1, _⟩ => ⟨S1x256, .f32⟩
  | .local _ .vmem, ⟨2, _⟩ => ⟨S8x1x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_68 : BitVec 32 := 1#32
  let v102 : BitVec 32 := Scalar.addi v2 c1_i32_68
  let c8_i32_69 : BitVec 32 := 8#32
  let c0_i32_70 : BitVec 32 := 0#32
  let v103 : BitVec 1 := Scalar.cmpi .eq c8_i32_69 c0_i32_70
  let c1_i32_71 : BitVec 32 := 1#32
  let v104 : BitVec 32 := Scalar.select v103 c1_i32_71 c8_i32_69
  let v105 : BitVec 32 := Scalar.remsi v102 v104
  let c0_i32_73 : BitVec 32 := 0#32
  let v107 : BitVec 1 := Scalar.cmpi .slt v105 c0_i32_73
  let c0_i32_74 : BitVec 32 := 0#32
  let v108 : BitVec 1 := Scalar.cmpi .slt v104 c0_i32_74
  let v109 : BitVec 1 := Scalar.xori v107 v108
  let c0_i32_72 : BitVec 32 := 0#32
  let v106 : BitVec 1 := Scalar.cmpi .ne v105 c0_i32_72
  let v110 : BitVec 1 := Scalar.andi v109 v106
  let v111 : BitVec 32 := Scalar.addi v105 v104
  let v112 : BitVec 32 := Scalar.select v110 v111 v105
  let c1_i32_79 : BitVec 32 := 1#32
  let v113 : BitVec 32 := Scalar.muli v112 c1_i32_79
  let v114 : BitVec 32 := Scalar.addi c0_i32_80 v113
  v114.toNat
def k0_dev9 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_85 : BitVec 32 := 2#32
  let v123 : BitVec 32 := Scalar.addi v2 c2_i32_85
  let c8_i32_86 : BitVec 32 := 8#32
  let c0_i32_87 : BitVec 32 := 0#32
  let v124 : BitVec 1 := Scalar.cmpi .eq c8_i32_86 c0_i32_87
  let c1_i32_88 : BitVec 32 := 1#32
  let v125 : BitVec 32 := Scalar.select v124 c1_i32_88 c8_i32_86
  let v126 : BitVec 32 := Scalar.remsi v123 v125
  let c0_i32_90 : BitVec 32 := 0#32
  let v128 : BitVec 1 := Scalar.cmpi .slt v126 c0_i32_90
  let c0_i32_91 : BitVec 32 := 0#32
  let v129 : BitVec 1 := Scalar.cmpi .slt v125 c0_i32_91
  let v130 : BitVec 1 := Scalar.xori v128 v129
  let c0_i32_89 : BitVec 32 := 0#32
  let v127 : BitVec 1 := Scalar.cmpi .ne v126 c0_i32_89
  let v131 : BitVec 1 := Scalar.andi v130 v127
  let v132 : BitVec 32 := Scalar.addi v126 v125
  let v133 : BitVec 32 := Scalar.select v131 v132 v126
  let c1_i32_96 : BitVec 32 := 1#32
  let v134 : BitVec 32 := Scalar.muli v133 c1_i32_96
  let v135 : BitVec 32 := Scalar.addi c0_i32_97 v134
  v135.toNat
def k0_dev10 (d0 : Dev nD) : Nat :=
  let c0_i32_114 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_102 : BitVec 32 := 3#32
  let v144 : BitVec 32 := Scalar.addi v2 c3_i32_102
  let c8_i32_103 : BitVec 32 := 8#32
  let c0_i32_104 : BitVec 32 := 0#32
  let v145 : BitVec 1 := Scalar.cmpi .eq c8_i32_103 c0_i32_104
  let c1_i32_105 : BitVec 32 := 1#32
  let v146 : BitVec 32 := Scalar.select v145 c1_i32_105 c8_i32_103
  let v147 : BitVec 32 := Scalar.remsi v144 v146
  let c0_i32_107 : BitVec 32 := 0#32
  let v149 : BitVec 1 := Scalar.cmpi .slt v147 c0_i32_107
  let c0_i32_108 : BitVec 32 := 0#32
  let v150 : BitVec 1 := Scalar.cmpi .slt v146 c0_i32_108
  let v151 : BitVec 1 := Scalar.xori v149 v150
  let c0_i32_106 : BitVec 32 := 0#32
  let v148 : BitVec 1 := Scalar.cmpi .ne v147 c0_i32_106
  let v152 : BitVec 1 := Scalar.andi v151 v148
  let v153 : BitVec 32 := Scalar.addi v147 v146
  let v154 : BitVec 32 := Scalar.select v152 v153 v147
  let c1_i32_113 : BitVec 32 := 1#32
  let v155 : BitVec 32 := Scalar.muli v154 c1_i32_113
  let v156 : BitVec 32 := Scalar.addi c0_i32_114 v155
  v156.toNat
def k0_dev11 (d0 : Dev nD) : Nat :=
  let c0_i32_131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_119 : BitVec 32 := 4#32
  let v165 : BitVec 32 := Scalar.addi v2 c4_i32_119
  let c8_i32_120 : BitVec 32 := 8#32
  let c0_i32_121 : BitVec 32 := 0#32
  let v166 : BitVec 1 := Scalar.cmpi .eq c8_i32_120 c0_i32_121
  let c1_i32_122 : BitVec 32 := 1#32
  let v167 : BitVec 32 := Scalar.select v166 c1_i32_122 c8_i32_120
  let v168 : BitVec 32 := Scalar.remsi v165 v167
  let c0_i32_124 : BitVec 32 := 0#32
  let v170 : BitVec 1 := Scalar.cmpi .slt v168 c0_i32_124
  let c0_i32_125 : BitVec 32 := 0#32
  let v171 : BitVec 1 := Scalar.cmpi .slt v167 c0_i32_125
  let v172 : BitVec 1 := Scalar.xori v170 v171
  let c0_i32_123 : BitVec 32 := 0#32
  let v169 : BitVec 1 := Scalar.cmpi .ne v168 c0_i32_123
  let v173 : BitVec 1 := Scalar.andi v172 v169
  let v174 : BitVec 32 := Scalar.addi v168 v167
  let v175 : BitVec 32 := Scalar.select v173 v174 v168
  let c1_i32_130 : BitVec 32 := 1#32
  let v176 : BitVec 32 := Scalar.muli v175 c1_i32_130
  let v177 : BitVec 32 := Scalar.addi c0_i32_131 v176
  v177.toNat
def k0_dev12 (d0 : Dev nD) : Nat :=
  let c0_i32_148 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_136 : BitVec 32 := 5#32
  let v186 : BitVec 32 := Scalar.addi v2 c5_i32_136
  let c8_i32_137 : BitVec 32 := 8#32
  let c0_i32_138 : BitVec 32 := 0#32
  let v187 : BitVec 1 := Scalar.cmpi .eq c8_i32_137 c0_i32_138
  let c1_i32_139 : BitVec 32 := 1#32
  let v188 : BitVec 32 := Scalar.select v187 c1_i32_139 c8_i32_137
  let v189 : BitVec 32 := Scalar.remsi v186 v188
  let c0_i32_141 : BitVec 32 := 0#32
  let v191 : BitVec 1 := Scalar.cmpi .slt v189 c0_i32_141
  let c0_i32_142 : BitVec 32 := 0#32
  let v192 : BitVec 1 := Scalar.cmpi .slt v188 c0_i32_142
  let v193 : BitVec 1 := Scalar.xori v191 v192
  let c0_i32_140 : BitVec 32 := 0#32
  let v190 : BitVec 1 := Scalar.cmpi .ne v189 c0_i32_140
  let v194 : BitVec 1 := Scalar.andi v193 v190
  let v195 : BitVec 32 := Scalar.addi v189 v188
  let v196 : BitVec 32 := Scalar.select v194 v195 v189
  let c1_i32_147 : BitVec 32 := 1#32
  let v197 : BitVec 32 := Scalar.muli v196 c1_i32_147
  let v198 : BitVec 32 := Scalar.addi c0_i32_148 v197
  v198.toNat
def k0_dev13 (d0 : Dev nD) : Nat :=
  let c0_i32_165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_153 : BitVec 32 := 6#32
  let v207 : BitVec 32 := Scalar.addi v2 c6_i32_153
  let c8_i32_154 : BitVec 32 := 8#32
  let c0_i32_155 : BitVec 32 := 0#32
  let v208 : BitVec 1 := Scalar.cmpi .eq c8_i32_154 c0_i32_155
  let c1_i32_156 : BitVec 32 := 1#32
  let v209 : BitVec 32 := Scalar.select v208 c1_i32_156 c8_i32_154
  let v210 : BitVec 32 := Scalar.remsi v207 v209
  let c0_i32_158 : BitVec 32 := 0#32
  let v212 : BitVec 1 := Scalar.cmpi .slt v210 c0_i32_158
  let c0_i32_159 : BitVec 32 := 0#32
  let v213 : BitVec 1 := Scalar.cmpi .slt v209 c0_i32_159
  let v214 : BitVec 1 := Scalar.xori v212 v213
  let c0_i32_157 : BitVec 32 := 0#32
  let v211 : BitVec 1 := Scalar.cmpi .ne v210 c0_i32_157
  let v215 : BitVec 1 := Scalar.andi v214 v211
  let v216 : BitVec 32 := Scalar.addi v210 v209
  let v217 : BitVec 32 := Scalar.select v215 v216 v210
  let c1_i32_164 : BitVec 32 := 1#32
  let v218 : BitVec 32 := Scalar.muli v217 c1_i32_164
  let v219 : BitVec 32 := Scalar.addi c0_i32_165 v218
  v219.toNat
def k0_dev14 (d0 : Dev nD) : Nat :=
  let c0_i32_182 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_170 : BitVec 32 := 7#32
  let v228 : BitVec 32 := Scalar.addi v2 c7_i32_170
  let c8_i32_171 : BitVec 32 := 8#32
  let c0_i32_172 : BitVec 32 := 0#32
  let v229 : BitVec 1 := Scalar.cmpi .eq c8_i32_171 c0_i32_172
  let c1_i32_173 : BitVec 32 := 1#32
  let v230 : BitVec 32 := Scalar.select v229 c1_i32_173 c8_i32_171
  let v231 : BitVec 32 := Scalar.remsi v228 v230
  let c0_i32_175 : BitVec 32 := 0#32
  let v233 : BitVec 1 := Scalar.cmpi .slt v231 c0_i32_175
  let c0_i32_176 : BitVec 32 := 0#32
  let v234 : BitVec 1 := Scalar.cmpi .slt v230 c0_i32_176
  let v235 : BitVec 1 := Scalar.xori v233 v234
  let c0_i32_174 : BitVec 32 := 0#32
  let v232 : BitVec 1 := Scalar.cmpi .ne v231 c0_i32_174
  let v236 : BitVec 1 := Scalar.andi v235 v232
  let v237 : BitVec 32 := Scalar.addi v231 v230
  let v238 : BitVec 32 := Scalar.select v236 v237 v231
  let c1_i32_181 : BitVec 32 := 1#32
  let v239 : BitVec 32 := Scalar.muli v238 c1_i32_181
  let v240 : BitVec 32 := Scalar.addi c0_i32_182 v239
  v240.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S512x256_S256 : S512x256.Reduces [0] S256
  shapeCasts_S256_S1x256 : S256.ShapeCasts S1x256
  inb_S8x1x256_S1x1x256_0_0_0 : ∀ a, (![0, 0, 0] : Fin 3 → Nat) a + S1x1x256.size a ≤ S8x1x256.size a
  h_S1x1x256 : 0 < S1x1x256.numel
  shapeCasts_S1x1x256_S1x256 : S1x1x256.ShapeCasts S1x256
  shapeCasts_S1x256_S1x1x256 : S1x256.ShapeCasts S1x1x256
  hamt_7 : (7#32 : BitVec 32).msb = false
  inb_S8_S1_1 : ∀ a, (![1] : Fin 1 → Nat) a + S1.size a ≤ S8.size a
  squeezes_S1_S_ : S1.Squeezes S_
  inb_S8x1x256_S1x1x256_1_0_0 : ∀ a, (![1, 0, 0] : Fin 3 → Nat) a + S1x1x256.size a ≤ S8x1x256.size a
  squeezes_S1x1x256_S1x256 : S1x1x256.Squeezes S1x256
  inb_S8_S1_2 : ∀ a, (![2] : Fin 1 → Nat) a + S1.size a ≤ S8.size a
  inb_S8x1x256_S1x1x256_2_0_0 : ∀ a, (![2, 0, 0] : Fin 3 → Nat) a + S1x1x256.size a ≤ S8x1x256.size a
  inb_S8_S1_3 : ∀ a, (![3] : Fin 1 → Nat) a + S1.size a ≤ S8.size a
  inb_S8x1x256_S1x1x256_3_0_0 : ∀ a, (![3, 0, 0] : Fin 3 → Nat) a + S1x1x256.size a ≤ S8x1x256.size a
  inb_S8_S1_4 : ∀ a, (![4] : Fin 1 → Nat) a + S1.size a ≤ S8.size a
  inb_S8x1x256_S1x1x256_4_0_0 : ∀ a, (![4, 0, 0] : Fin 3 → Nat) a + S1x1x256.size a ≤ S8x1x256.size a
  inb_S8_S1_5 : ∀ a, (![5] : Fin 1 → Nat) a + S1.size a ≤ S8.size a
  inb_S8x1x256_S1x1x256_5_0_0 : ∀ a, (![5, 0, 0] : Fin 3 → Nat) a + S1x1x256.size a ≤ S8x1x256.size a
  inb_S8_S1_6 : ∀ a, (![6] : Fin 1 → Nat) a + S1.size a ≤ S8.size a
  inb_S8x1x256_S1x1x256_6_0_0 : ∀ a, (![6, 0, 0] : Fin 3 → Nat) a + S1x1x256.size a ≤ S8x1x256.size a
  inb_S8_S1_7 : ∀ a, (![7] : Fin 1 → Nat) a + S1.size a ≤ S8.size a
  inb_S8x1x256_S1x1x256_7_0_0 : ∀ a, (![7, 0, 0] : Fin 3 → Nat) a + S1x1x256.size a ≤ S8x1x256.size a
  inb_S8x1x256_S8x1x256_0_0_0 : ∀ a, (![0, 0, 0] : Fin 3 → Nat) a + S8x1x256.size a ≤ S8x1x256.size a
  h_S8x1x256 : 0 < S8x1x256.numel
  shapeCasts_S8x1x256_S8x256 : S8x1x256.ShapeCasts S8x256
  reduces_S8x256_S256 : S8x256.Reduces [0] S256
  inb_S1x256_S1x256_0_0 : ∀ a, (![0, 0] : Fin 2 → Nat) a + S1x256.size a ≤ S1x256.size a
  h_S1x256 : 0 < S1x256.numel
  hcc0_scratch1 : 2 + S8.numel ≤ 18
  hcc0_scratch2 : 10 + S8.numel ≤ 18
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  hstage0_0 : ∀ j, (stage0_0 j).IsWhole
  hstage0_1 : ∀ j, (stage0_1 j).IsWhole

variable [Facts₀]

abbrev cc0_scratch1 : DmaSems sig S8 := SemArray.consecutive 2 S8 hcc0_scratch1
abbrev cc0_scratch2 : DmaSems sig S8 := SemArray.consecutive 10 S8 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x256 : Shape := ⟨2, ![4096, 256]⟩
abbrev S_ : Shape := ⟨0, ![]⟩
abbrev S256 : Shape := ⟨1, ![256]⟩
abbrev S1x256 : Shape := ⟨2, ![1, 256]⟩

abbrev nBuf : Space → Nat
  | .hbm => 4
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S_, .f32⟩
  | .hbm, ⟨2, _⟩ => ⟨S256, .f32⟩
  | .hbm, ⟨3, _⟩ => ⟨S1x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S4096x256_S256_d0 : S4096x256.ReducesTo [0] S256
  h_S_ : 0 < S_.numel
  bcast_S256_S1x256_1 : S256.BroadcastsInDim S1x256 (![1] : Fin 1 → Fin S1x256.rank)

variable [Facts₀]

class Facts : Prop extends Facts₀ where

variable [Facts]
-- ==== Proof.KernelProto.lean ====
/-
  The protocol of the eight-device column sum, stated once for any float instance.

  Every device c sums the 512 rows of its block into slot 0 of its 8-slot scratch buffer, tells each of the seven other
  devices (one unit on their barrier semaphore) that it is inside the kernel, waits for the seven units the others send it,
  copies slot 0 into slot k of device c + k (mod 8) for k = 1 … 7, each copy on its own pair of DMA semaphores, waits for its
  seven sends and the seven landings in its own slots, and adds the eight slots up. Slot k of device c therefore ends holding
  the row sum of device c - k, and the eight slots together every device's row sum exactly once.

  Ownership: the unit device c + k sends to c's barrier carries device (c + k)'s slot k, which c's k-th copy then fills; the
  copy's landing hands the filled slot back to its owner on that owner's k-th receive semaphore, and the part of slot 0 the
  copy read comes back to c on its k-th send semaphore.
-/
import proofs.«901093_g7700000000001094_dist_sum_ax0_shard0_i_m512_n256_v7x_i8_f32_1_alg».proof.Proof.Gen.Kernel
import proofs.«901093_g7700000000001094_dist_sum_ax0_shard0_i_m512_n256_v7x_i8_f32_1_alg».proof.Proof.Gen.Kernel.Skeleton
import proofs.«901093_g7700000000001094_dist_sum_ax0_shard0_i_m512_n256_v7x_i8_f32_1_alg».proof.Proof.Gen.Kernel.Launch
import Idealize.ShloMosaic.Lib.Pipeline.Launch
import Idealize.ShloMosaic.Lib.Pipeline.Kit
import Idealize.ShloMosaic.Lib.Tactic
import Idealize.ShloMosaic.Lib.ValueIdx

noncomputable section

namespace Cert.KernelHand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's, whose duties are named by a slot number -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore at zero. -/
def s₀ : MemSt nD τ sig (Elt F) := ⟨m, fun _ => 0, ρ⟩

/-! ## The mesh as the integers mod 8 -/

/-- The device k places after c. -/
def peer (c : Dev nD) (k : Fin 8) : Dev nD := ⟨(c.val + k.val) % 8, Nat.mod_lt _ (by decide)⟩
/-- The device k places before c: the one whose k-th copy lands in c's slot k. -/
def src (c : Dev nD) (k : Fin 8) : Dev nD := ⟨(c.val + 8 - k.val) % 8, Nat.mod_lt _ (by decide)⟩

theorem src_peer (c : Dev nD) (k : Fin 8) : src (peer c k) k = c := by revert c k; decide
theorem peer_src (c : Dev nD) (k : Fin 8) : peer (src c k) k = c := by revert c k; decide
theorem peer_zero (c : Dev nD) : peer c 0 = c := by revert c; decide
theorem src_zero (c : Dev nD) : src c 0 = c := by revert c; decide

/-- The seven signals address c + 1 … c + 7, and so do the seven copies. -/
theorem dev1_eq (c : Dev nD) : (⟨k0_dev1 c, k0_dev1_lt c⟩ : Dev nD) = peer c 1 := by revert c; decide +kernel
theorem dev2_eq (c : Dev nD) : (⟨k0_dev2 c, k0_dev2_lt c⟩ : Dev nD) = peer c 2 := by revert c; decide +kernel
theorem dev3_eq (c : Dev nD) : (⟨k0_dev3 c, k0_dev3_lt c⟩ : Dev nD) = peer c 3 := by revert c; decide +kernel
theorem dev4_eq (c : Dev nD) : (⟨k0_dev4 c, k0_dev4_lt c⟩ : Dev nD) = peer c 4 := by revert c; decide +kernel
theorem dev5_eq (c : Dev nD) : (⟨k0_dev5 c, k0_dev5_lt c⟩ : Dev nD) = peer c 5 := by revert c; decide +kernel
theorem dev6_eq (c : Dev nD) : (⟨k0_dev6 c, k0_dev6_lt c⟩ : Dev nD) = peer c 6 := by revert c; decide +kernel
theorem dev7_eq (c : Dev nD) : (⟨k0_dev7 c, k0_dev7_lt c⟩ : Dev nD) = peer c 7 := by revert c; decide +kernel
theorem dev8_eq (c : Dev nD) : (⟨k0_dev8 c, k0_dev8_lt c⟩ : Dev nD) = peer c 1 := by revert c; decide +kernel
theorem dev9_eq (c : Dev nD) : (⟨k0_dev9 c, k0_dev9_lt c⟩ : Dev nD) = peer c 2 := by revert c; decide +kernel
theorem dev10_eq (c : Dev nD) : (⟨k0_dev10 c, k0_dev10_lt c⟩ : Dev nD) = peer c 3 := by revert c; decide +kernel
theorem dev11_eq (c : Dev nD) : (⟨k0_dev11 c, k0_dev11_lt c⟩ : Dev nD) = peer c 4 := by revert c; decide +kernel
theorem dev12_eq (c : Dev nD) : (⟨k0_dev12 c, k0_dev12_lt c⟩ : Dev nD) = peer c 5 := by revert c; decide +kernel
theorem dev13_eq (c : Dev nD) : (⟨k0_dev13 c, k0_dev13_lt c⟩ : Dev nD) = peer c 6 := by revert c; decide +kernel
theorem dev14_eq (c : Dev nD) : (⟨k0_dev14 c, k0_dev14_lt c⟩ : Dev nD) = peer c 7 := by revert c; decide +kernel

/-! ## The memrefs, the slots and the semaphores -/

abbrev xM : Memref sig .tc .vmem S512x256 .f32 := Memref.whole cc0_stg0_0
abbrev oM : Memref sig .tc .vmem S1x256 .f32 := Memref.whole cc0_stg1_0
abbrev rM : Memref sig .tc .vmem S8x1x256 .f32 := Memref.whole cc0_scratch0

/-- Row k of the scratch buffer lies inside it. -/
theorem slot_inb (k : Fin 8) : ∀ a, (![k.val, 0, 0] : Fin 3 → Nat) a + S1x1x256.size a ≤ S8x1x256.size a := by
  intro a; have := k.isLt; fin_cases a <;> simp <;> omega

/-- Slot k of the scratch buffer, as the kernel slices it for a copy: one row of 256. -/
abbrev slotM (k : Fin 8) : Memref sig .tc .vmem S1x256 .f32 :=
  (rM.slice (Rect.unit (s := S8x1x256) ![k.val, 0, 0] S1x1x256.size (slot_inb k)) (fun _ => rfl)).squeeze S1x256 Facts₀.squeezes_S1x1x256_S1x256

/-- The kernel's literal slices are these. -/
theorem slot0_eq : ((rM.slice (Rect.unit (s := S8x1x256) ![0, 0, 0] S1x1x256.size Facts₀.inb_S8x1x256_S1x1x256_0_0_0) (fun _ => rfl)).squeeze S1x256 Facts₀.squeezes_S1x1x256_S1x256) = slotM 0 := rfl
theorem slot1_eq : ((rM.slice (Rect.unit (s := S8x1x256) ![1, 0, 0] S1x1x256.size Facts₀.inb_S8x1x256_S1x1x256_1_0_0) (fun _ => rfl)).squeeze S1x256 Facts₀.squeezes_S1x1x256_S1x256) = slotM 1 := rfl
theorem slot7_eq : ((rM.slice (Rect.unit (s := S8x1x256) ![7, 0, 0] S1x1x256.size Facts₀.inb_S8x1x256_S1x1x256_7_0_0) (fun _ => rfl)).squeeze S1x256 Facts₀.squeezes_S1x1x256_S1x256) = slotM 7 := rfl

/-- The runtime's barrier semaphore (not scoped to the launch), and the k-th send and receive DMA semaphores. -/
abbrev barS : Sem sig := (SemArray.scalar (sig.barrier 0 rfl) : Sems sig S_).sem
def sendS (k : Fin 8) : DmaSem sig := ⟨2 + k.val, by have := k.isLt; show 2 + k.val < 18; omega⟩
def recvS (k : Fin 8) : DmaSem sig := ⟨10 + k.val, by have := k.isLt; show 10 + k.val < 18; omega⟩

abbrev barCell (c : Dev nD) : GSem nD τ sig := ((c : Thread nD τ), .reg barS)
abbrev sendCell (c : Dev nD) (k : Fin 8) : GSem nD τ sig := ((c : Thread nD τ), .dma (sendS k))
abbrev recvCell (c : Dev nD) (k : Fin 8) : GSem nD τ sig := ((c : Thread nD τ), .dma (recvS k))

/-- What one copy credits its two semaphores. -/
abbrev N : ℕ := (slotM 1).view.dmaCredit
theorem N_pos : 0 < N := View.dmaCredit_pos _ (by decide)

/-! ## Contents -/

/-- Device c's block of x, as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- Device c's row of column sums over its 512 rows. -/
def part (c : Dev nD) : FVec F S1x1x256 .f32 := k0_pay2 (k0_pay1 (xstg m ρ c))

/-- What device c's scratch buffer holds in the end: slot k is the row of device c - k. -/
def comm (c : Dev nD) : Buf (Elt F) ((c : Thread nD τ).loc cc0_scratch0) :=
  fun i => part m ρ (src c (i 0)) (ValueIdx.ix3 (0 : Fin 1) (0 : Fin 1) (i 2))

/-- Device c's result: the sum of its eight slots. -/
def outAt (c : Dev nD) : (cc0_stg1_0 : Ref sig .tc).ty.Contents (Elt F) := k0_pay3 (comm m ρ c)

/-- Elements of slot k of device c's scratch buffer, at share q and contents f. -/
def slotPts (c : Dev nD) (k : Fin 8) (q : PosShare TreeShare) (f : Buf (Elt F) ((slotM k).view.loc (c : Thread nD τ))) : sProp 𝕄 :=
  (slotM k).view.loc (c : Thread nD τ) ↦[(slotM k).view.set]{q} f

def xPts (c : Dev nD) : sProp 𝕄 :=
  (xM : Memref sig .tc .vmem S512x256 .f32).view.loc (c : Thread nD τ) ↦[(xM : Memref sig .tc .vmem S512x256 .f32).view.set]{fullShare} xstg m ρ c

def scrPts (c : Dev nD) (f : Buf (Elt F) ((rM : Memref sig .tc .vmem S8x1x256 .f32).view.loc (c : Thread nD τ))) : sProp 𝕄 :=
  (rM : Memref sig .tc .vmem S8x1x256 .f32).view.loc (c : Thread nD τ) ↦[(rM : Memref sig .tc .vmem S8x1x256 .f32).view.set]{fullShare} f

omit [FloatOps F] in
instance slotPts_storable (c : Dev nD) (k : Fin 8) (q) (f) : BI.Storable (upEmb : UEmb _ 𝕄) (slotPts (F := F) c k q f) := by unfold slotPts; infer_instance
omit [FloatOps F] in
instance scrPts_storable (c : Dev nD) (f) : BI.Storable (upEmb : UEmb _ 𝕄) (scrPts (F := F) c f) := by unfold scrPts; infer_instance
omit [FloatOps F] in
instance xPts_storable (c : Dev nD) : BI.Storable (upEmb : UEmb _ 𝕄) (xPts (F := F) m ρ c) := by unfold xPts; infer_instance

/-! ## The shares slot 0 is read at: seven copies read it at once, each at its own part of the full share -/

/-- What is left of the full share after the first n copies have taken theirs. -/
def rem : ℕ → PosShare TreeShare
  | 0 => fullShare
  | n + 1 => (rem n).right
/-- The share copy k reads slot 0 at: the left half of what the earlier copies left, and the seventh all that is left. -/
def shr (k : Fin 8) : PosShare TreeShare := if k.val = 7 then rem 6 else (rem (k.val - 1)).left

/-! ## The schedule -/

/-- Which copy a semaphore belongs to: whether it is a receive semaphore, and its slot. -/
def xferOf : SemLoc sig → Option (Bool × Fin 8)
  | .dma q => if h : 2 ≤ q.val ∧ q.val < 10 then some (false, ⟨q.val - 2, by omega⟩)
              else if h' : 10 ≤ q.val ∧ q.val < 18 then some (true, ⟨q.val - 10, by omega⟩) else none
  | .reg _ => none

theorem xferOf_send (k : Fin 8) : xferOf (.dma (sendS k)) = some (false, k) := by revert k; decide
theorem xferOf_recv (k : Fin 8) : xferOf (.dma (recvS k)) = some (true, k) := by revert k; decide
theorem xferOf_bar : xferOf (.reg barS) = none := rfl

/-- The negative of j mod 8. Device c's j-th unit goes to device c + j, from which c sits 8 - j places on: it pays that
    barrier's duty 8 - j and carries c's slot 8 - j. -/
def neg (j : Fin 8) : Fin 8 := ⟨(8 - j.val) % 8, Nat.mod_lt _ (by decide)⟩
theorem peer_peer_neg (c : Dev nD) (j : Fin 8) : peer (peer c j) (neg j) = c := by revert c j; decide
theorem neg_neg (j : Fin 8) : neg (neg j) = j := by revert j; decide
theorem neg_ne_zero {j : Fin 8} (h : j ≠ 0) : neg j ≠ 0 := by revert j; decide

/-- What device c + k's unit on c's barrier hands c: device (c + k)'s slot k, and that its k-th receive semaphore is at round 0. -/
def barPay (c : Dev nD) (k : Fin 8) : sProp 𝕄 :=
  iprop((∃ f, slotPts (peer c k) k fullShare f) ∗ reached ER (recvCell (peer c k) k) 0)
/-- The k-th send semaphore returns the part of slot 0 the copy read. -/
def sendPay (c : Dev nD) (k : Fin 8) : sProp 𝕄 := slotPts c 0 (shr k) (comm m ρ c)
/-- The k-th receive semaphore delivers slot k, holding device c - k's row. -/
def recvPay (c : Dev nD) (k : Fin 8) : sProp 𝕄 := slotPts c k fullShare (comm m ρ c)

abbrev IsBar (g : GSem nD τ sig) : Prop := g.1.2 = .tc ∧ g.2 = .reg barS

/-- One round. A barrier cell has the seven duties 1 … 7 of one unit each, duty k paid by the device k places on; the k-th
    send and receive cells (k ≠ 0) the one duty 0 of a copy's credit. -/
def Rd : Rounds.Schedule (GSem nD τ sig) (Fin 8) 𝕄 where
  duties g r := if r = 0 ∧ g.1.2 = .tc then
      (if g.2 = .reg barS then Finset.univ.erase 0 else
        match xferOf g.2 with
        | some (_, k) => if k = 0 then ∅ else {0}
        | none => ∅)
    else ∅
  unitless _ := False
  amount g _ _ := if g.2 = .reg barS then 1 else N
  payload g _ d :=
    if g.2 = .reg barS then barPay g.1.1 d
    else match xferOf g.2 with
      | some (false, k) => sendPay m ρ g.1.1 k
      | some (true, k) => recvPay m ρ g.1.1 k
      | none => iprop(emp)
  amount_pos g _ _ _ := by
    by_cases h : g.2 = .reg barS
    · rw [if_pos h]; exact Nat.one_pos
    · rw [if_neg h]; exact N_pos

instance Rd_payload_storable (g : GSem nD τ sig) (r : ℕ) (d : Fin 8) :
    BI.Storable (upEmb : UEmb _ 𝕄) ((Rd (F := F) m ρ).payload g r d) := by
  show BI.Storable upEmb (if g.2 = .reg barS then barPay g.1.1 d
    else match xferOf g.2 with
      | some (false, k) => sendPay m ρ g.1.1 k
      | some (true, k) => recvPay m ρ g.1.1 k
      | none => iprop(emp))
  unfold barPay sendPay recvPay
  (repeat' split) <;> infer_instance

/-! ## The schedule's tables -/

/-- The slots other than 0. -/
abbrev K7 : Finset (Fin 8) := Finset.univ.erase 0

section Sched
variable (c : Dev nD)

theorem send_ne_bar (k : Fin 8) : (SemLoc.dma (sendS k) : SemLoc sig) ≠ .reg barS := fun h => by cases h
theorem recv_ne_bar (k : Fin 8) : (SemLoc.dma (recvS k) : SemLoc sig) ≠ .reg barS := fun h => by cases h

theorem duties_bar : (Rd (F := F) m ρ).duties (barCell c) 0 = K7 := by
  dsimp only [Rd]; rw [if_pos ⟨rfl, rfl⟩, if_pos rfl]
theorem duties_send {k : Fin 8} (hk : k ≠ 0) : (Rd (F := F) m ρ).duties (sendCell c k) 0 = {0} := by
  dsimp only [Rd]; rw [if_pos ⟨rfl, rfl⟩, if_neg (send_ne_bar k), xferOf_send]; exact if_neg hk
theorem duties_recv {k : Fin 8} (hk : k ≠ 0) : (Rd (F := F) m ρ).duties (recvCell c k) 0 = {0} := by
  dsimp only [Rd]; rw [if_pos ⟨rfl, rfl⟩, if_neg (recv_ne_bar k), xferOf_recv]; exact if_neg hk
theorem duties_send0 (r : ℕ) : (Rd (F := F) m ρ).duties (sendCell c 0) r = ∅ := by
  dsimp only [Rd]; split
  · rw [if_neg (send_ne_bar 0), xferOf_send]; exact if_pos rfl
  · rfl
theorem duties_recv0 (r : ℕ) : (Rd (F := F) m ρ).duties (recvCell c 0) r = ∅ := by
  dsimp only [Rd]; split
  · rw [if_neg (recv_ne_bar 0), xferOf_recv]; exact if_pos rfl
  · rfl
theorem duties_later (g : GSem nD τ sig) : ∀ r, 1 ≤ r → (Rd (F := F) m ρ).duties g r = ∅ :=
  fun r hr => by dsimp only [Rd]; rw [if_neg fun h => by omega]

theorem amount_bar (d : Fin 8) : (Rd (F := F) m ρ).amount (barCell c) 0 d = 1 := by dsimp only [Rd]; exact if_pos rfl
theorem amount_send (k d : Fin 8) : (Rd (F := F) m ρ).amount (sendCell c k) 0 d = N := by dsimp only [Rd]; exact if_neg (send_ne_bar k)
theorem amount_recv (k d : Fin 8) : (Rd (F := F) m ρ).amount (recvCell c k) 0 d = N := by dsimp only [Rd]; exact if_neg (recv_ne_bar k)

theorem expect_bar : (Rd (F := F) m ρ).expect (barCell c) 0 = 7 := by
  unfold Schedule.expect Schedule.amountOf
  rw [duties_bar, Finset.sum_congr rfl fun d _ => amount_bar m ρ c d, Finset.sum_const, smul_eq_mul]; decide
theorem expect_send {k : Fin 8} (hk : k ≠ 0) : (Rd (F := F) m ρ).expect (sendCell c k) 0 = N := by
  unfold Schedule.expect Schedule.amountOf; rw [duties_send m ρ c hk, Finset.sum_singleton, amount_send]
theorem expect_recv {k : Fin 8} (hk : k ≠ 0) : (Rd (F := F) m ρ).expect (recvCell c k) 0 = N := by
  unfold Schedule.expect Schedule.amountOf; rw [duties_recv m ρ c hk, Finset.sum_singleton, amount_recv]

theorem payload_bar (d : Fin 8) : (Rd (F := F) m ρ).payload (barCell c) 0 d = barPay c d := by dsimp only [Rd]; rw [if_pos rfl]
theorem payload_send (k d : Fin 8) : (Rd (F := F) m ρ).payload (sendCell c k) 0 d = sendPay m ρ c k := by
  dsimp only [Rd]; rw [if_neg (send_ne_bar k), xferOf_send]
theorem payload_recv (k d : Fin 8) : (Rd (F := F) m ρ).payload (recvCell c k) 0 d = recvPay m ρ c k := by
  dsimp only [Rd]; rw [if_neg (recv_ne_bar k), xferOf_recv]

end Sched

/-! ## What each device owes at launch, in the order it pays; the levels -/

def tallyOf : List (GSem nD τ sig × ℕ) → CellTallies nD τ sig Unit
  | [] => 0
  | (g, a) :: rest => tallyOf rest + tallyAt g () a

/-- Seven barrier units, to c + 1 … c + 7, then seven copies' credits on those devices' receive cells. -/
def owedList (c : Dev nD) : List (GSem nD τ sig × ℕ) :=
  [(barCell (peer c 1), 1), (barCell (peer c 2), 1), (barCell (peer c 3), 1), (barCell (peer c 4), 1),
   (barCell (peer c 5), 1), (barCell (peer c 6), 1), (barCell (peer c 7), 1),
   (recvCell (peer c 1) 1, N), (recvCell (peer c 2) 2, N), (recvCell (peer c 3) 3, N), (recvCell (peer c 4) 4, N),
   (recvCell (peer c 5) 5, N), (recvCell (peer c 6) 6, N), (recvCell (peer c 7) 7, N)]

/-- What device c still owes after its first n payments. -/
def Oafter (c : Dev nD) (n : ℕ) : CellTallies nD τ sig Unit := tallyOf ((owedList c).drop n)
def O₀ (c : Dev nD) : CellTallies nD τ sig Unit := Oafter c 0

def L (g : GSem nD τ sig) : Finset Unit := if g.1.2 = .tc then {()} else ∅
/-- Barrier cells at 1, receive cells at 2, everything else (staging, send) at 0: a device waits on its barrier while it
    owes receive credits only, and on DMA semaphores owing nothing. -/
def lv (g : GSem nD τ sig) (_ : Unit) : ℕ :=
  if g.2 = .reg barS then 1 else match xferOf g.2 with | some (true, _) => 2 | _ => 0

theorem L_of_ne (g : GSem nD τ sig) (h : g.1.2 ≠ .tc) : L g = ∅ := if_neg h
theorem L_tc (c : Dev nD) (sm : SemLoc sig) : L ((c : Thread nD τ), sm) = {()} := if_pos rfl

/-! ## The cells, indexed -/

/-- A device's seventeen cells: its barrier, its eight send and its eight receive semaphores. -/
def csem (j : Fin 17) : SemLoc sig :=
  if h : j.val = 0 then .reg barS
  else if h' : j.val < 9 then .dma (sendS ⟨j.val - 1, by omega⟩)
  else .dma (recvS ⟨j.val - 9, by have := j.isLt; omega⟩)
abbrev kcell (ck : Dev nD × Fin 17) : GSem nD τ sig := ((ck.1 : Thread nD τ), csem ck.2)
def jBar : Fin 17 := 0
def jSend (k : Fin 8) : Fin 17 := ⟨1 + k.val, by have := k.isLt; omega⟩
def jRecv (k : Fin 8) : Fin 17 := ⟨9 + k.val, by have := k.isLt; omega⟩
theorem csem_bar : csem jBar = .reg barS := rfl
theorem csem_send (k : Fin 8) : csem (jSend k) = .dma (sendS k) := by revert k; decide
theorem csem_recv (k : Fin 8) : csem (jRecv k) = .dma (recvS k) := by revert k; decide
theorem kcell_bar (c : Dev nD) : kcell (c, jBar) = barCell c := rfl
theorem kcell_send (c : Dev nD) (k : Fin 8) : kcell (c, jSend k) = sendCell c k := by show (_, _) = (_, _); rw [csem_send]
theorem kcell_recv (c : Dev nD) (k : Fin 8) : kcell (c, jRecv k) = recvCell c k := by show (_, _) = (_, _); rw [csem_recv]

/-! ## The ghost state a device's body starts from -/

/-- Every cell's invariant under the name the launch gave it, and that every cell is at round 0 (both persistent). -/
def records (K : Dev nD × Fin 17 → ℕ) : sProp 𝕄 :=
  iprop((bigSep Finset.univ fun ck : Dev nD × Fin 17 => cellInv ER (Rd m ρ) (K ck) (kcell ck))
    ∗ bigSep Finset.univ fun ck : Dev nD × Fin 17 => reached ER (kcell ck) 0)

instance records_persistent (K : Dev nD × Fin 17 → ℕ) : BI.Persistent (records m ρ K) := by unfold records; infer_instance

/-- The tokens of the duties device c pays: on c + j's barrier the duty named by the slot of c it hands over, on c + k's
    k-th receive cell the copy's, on its own k-th send cell the copy's. -/
def payToks (c : Dev nD) : sProp 𝕄 :=
  iprop((bigSep K7 fun j => dutyTok ER (barCell (peer c j)) 0 (neg j))
    ∗ (bigSep K7 fun k => dutyTok ER (recvCell (peer c k) k) 0 0)
    ∗ (bigSep K7 fun k => dutyTok ER (sendCell c k) 0 0))

/-- Device c's position on each of its own cells: round 0, nothing taken. -/
def positions (c : Dev nD) : sProp 𝕄 :=
  iprop(atPos ER (barCell c) 0 ∅ 0
    ∗ (bigSep Finset.univ fun k : Fin 8 => atPos ER (sendCell c k) 0 ∅ 0)
    ∗ (bigSep Finset.univ fun k : Fin 8 => atPos ER (recvCell c k) 0 ∅ 0))

def ghost (K : Dev nD × Fin 17 → ℕ) (c : Dev nD) : sProp 𝕄 := iprop(records m ρ K ∗ positions c ∗ payToks c)

/-- The credit device c waits with: seven units on its barrier, one copy's credit on each receive cell. -/
def startCred (c : Dev nD) : sProp 𝕄 :=
  iprop(cred (tallyAt (barCell c) () 7) ∗ bigSep K7 fun k => cred (tallyAt (recvCell c k) () N))

def start (c : Dev nD) : sProp 𝕄 := iprop((∃ K, ghost m ρ K c) ∗ startCred c ∗ levAts L lv)

def Φ₀ (c : Dev nD) : sProp 𝕄 := iprop(start m ρ c ∗ ∃ f, scrPts c f)
/-- After the body: the scratch buffer whole at its final contents, the sixteen own semaphores back at zero. -/
def Φ₁ (c : Dev nD) : sProp 𝕄 :=
  iprop(scrPts c (comm m ρ c) ∗ bigSep Finset.univ fun k : Fin 8 => iprop(semVal (sendCell c k) 0 ∗ semVal (recvCell c k) 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body of device c starts from, at the names K the launch allocated the cells' invariants at. -/
def bodyPre (K : Dev nD × Fin 17 → ℕ) (c : Dev nD) : sProp 𝕄 :=
  iprop((ghost m ρ K c ∗ startCred c ∗ levAts L lv ∗ ∃ f, scrPts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- What it ends with: nothing owed, x's staging buffer as it was, the result's holding the sum of the eight slots. -/
def bodyPost (c : Dev nD) : sProp 𝕄 :=
  iprop(Φ₁ m ρ c ∗ (dats m ρ 0 c).owesAt () t₀.succ ∗ stg c cc0_stg0_0 (xstg m ρ c) ∗ stg c cc0_stg1_0 (outAt m ρ c))

/-! ## The kernel's own semaphores, as the launch theorem indexes them: the eight send, then the eight receive semaphores -/

abbrev osem : Fin 16 → SemLoc sig := fun j => .dma ⟨2 + j.val, by have := j.isLt; show 2 + j.val < 18; omega⟩
theorem ownSemFacts : Pipeline.OwnSemFacts cfg0.spec osem := by decide

end Cert.KernelHand
end
-- ==== Proof.KernelLevels.lean ====
/-
  Who may wait on what: a device waits on its barrier while all it still owes is receive credit, which sits above the
  barrier; the pipeline's staging semaphores sit below everything a device ever owes.
-/
import proofs.«901093_g7700000000001094_dist_sum_ax0_shard0_i_m512_n256_v7x_i8_f32_1_alg».proof.Proof.KernelProto

noncomputable section

namespace Cert.KernelHand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Where a list of dues is positive -/

omit [FloatOps F] in
/-- A cell at which a list of dues is positive is the cell of one of its entries: what holds of every entry's cell holds of it. -/
private theorem tallyOf_pos {P : GSem nD τ sig → Prop} {l : List (GSem nD τ sig × ℕ)} (hl : ∀ p ∈ l, P p.1)
    {g : GSem nD τ sig} {u : Unit} (h : 0 < tallyOf l g u) : P g := by
  induction l with
  | nil => exact absurd h (Nat.lt_irrefl 0)
  | cons p l ih =>
    obtain ⟨g', a⟩ := p
    have h' : 0 < tallyOf l g u + tallyAt g' () a g u := h
    rcases Nat.add_pos_iff_pos_or_pos.mp h' with h1 | h2
    · exact ih (fun p hp => hl p (List.mem_cons_of_mem _ hp)) h1
    · rw [tallyAt_apply] at h2
      by_cases hg : g = g' ∧ u = ()
      · rw [hg.1]; exact hl (g', a) List.mem_cons_self
      · rw [if_neg hg] at h2; exact absurd h2 (Nat.lt_irrefl 0)

/-! ## The levels of the cells a device owes -/

omit [FloatOps F] in
private theorem lv_bar (a : Dev nD) : lv (barCell a) () = 1 := by dsimp only [lv]; rw [if_pos rfl]
omit [FloatOps F] in
private theorem lv_recv (a : Dev nD) (k : Fin 8) : lv (recvCell a k) () = 2 := by dsimp only [lv]; rw [if_neg (recv_ne_bar k), xferOf_recv]

omit [FloatOps F] in
private theorem due_bar (a : Dev nD) : () ∈ L (barCell a) ∧ 1 ≤ lv (barCell a) () :=
  ⟨by rw [L_tc]; exact Finset.mem_singleton_self _, by rw [lv_bar]⟩
omit [FloatOps F] in
private theorem due_recv (a : Dev nD) (k : Fin 8) : () ∈ L (recvCell a k) ∧ 2 ≤ lv (recvCell a k) () :=
  ⟨by rw [L_tc]; exact Finset.mem_singleton_self _, by rw [lv_recv]⟩

omit [FloatOps F] in
/-- Everything a device owes at launch sits on a barrier or a receive cell of a TensorCore: at level 1 or above. -/
private theorem O₀_due {c : Dev nD} {g : GSem nD τ sig} {u : Unit} (h : 0 < O₀ c g u) : u ∈ L g ∧ 1 ≤ lv g u := by
  cases u
  refine tallyOf_pos (P := fun g => () ∈ L g ∧ 1 ≤ lv g ()) (l := owedList c) (fun p hp => ?_) h
  simp only [owedList, List.mem_cons, List.mem_nil_iff, or_false] at hp
  rcases hp with rfl | rfl | rfl | rfl | rfl | rfl | rfl | rfl | rfl | rfl | rfl | rfl | rfl | rfl
  all_goals first
    | exact due_bar _
    | exact ⟨(due_recv _ _).1, Nat.le_of_succ_le (due_recv _ _).2⟩

omit [FloatOps F] in
/-- After its seven signals a device owes receive cells only: at level 2. -/
private theorem O₇_due {c : Dev nD} {g : GSem nD τ sig} {u : Unit} (h : 0 < Oafter c 7 g u) : u ∈ L g ∧ 2 ≤ lv g u := by
  cases u
  refine tallyOf_pos (P := fun g => () ∈ L g ∧ 2 ≤ lv g ()) (l := (owedList c).drop 7) (fun p hp => ?_) h
  simp only [owedList, List.drop_succ_cons, List.drop_zero, List.mem_cons, List.mem_nil_iff, or_false] at hp
  rcases hp with rfl | rfl | rfl | rfl | rfl | rfl | rfl
  all_goals exact due_recv _ _

/-! ## The waits -/

/-- The pipeline's own staging semaphores (level 0) may be waited on whatever of its launch debt a device still owes, or none. -/
theorem mayWait_stage (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · exact MayOwe.of_cut (L := L) (lev := lv) 0 (fun p hp => by rw [Finset.mem_singleton.mp hp, L_tc]; exact Finset.mem_singleton_self _)
      (fun g u hg => (O₀_due hg).1)
      (fun p hp => by rw [Finset.mem_singleton.mp hp]; exact Nat.le_of_eq hq)
      (fun g u hg => (O₀_due hg).2)
  · rw [MayWait_zero]; iintro -; iempintro

/-- At its barrier wait a device owes the seven receive credits only: receive cells, above its barrier cell. -/
theorem mayWait_bar (c : Dev nD) :
    (levAts L lv : sProp 𝕄) ⊢ MayWait (c : Thread nD τ) (.reg barS) () (Oafter c 7) :=
  MayOwe.of_cut (L := L) (lev := lv) 1 (fun p hp => by rw [Finset.mem_singleton.mp hp, L_tc]; exact Finset.mem_singleton_self _)
    (fun g u hg => (O₇_due hg).1)
    (fun p hp => by rw [Finset.mem_singleton.mp hp]; exact Nat.le_of_eq (lv_bar c))
    (fun g u hg => (O₇_due hg).2)

/-- info: 'Cert.KernelHand.mayWait_stage' depends on axioms: [propext, Classical.choice, Quot.sound] -/
#guard_msgs in #print axioms mayWait_stage

/-- info: 'Cert.KernelHand.mayWait_bar' depends on axioms: [propext, Classical.choice, Quot.sound] -/
#guard_msgs in #print axioms mayWait_bar

end Cert.KernelHand
end
-- ==== Proof.KernelBodyLemmas.lean ====
/-
  The scratch buffer cut into its eight slots and put together again, slot 0 shared out among the seven copies that read
  it at once, and what a store into slot 0 and a copy's landing in slot k leave there.
-/
import proofs.«901093_g7700000000001094_dist_sum_ax0_shard0_i_m512_n256_v7x_i8_f32_1_alg».proof.Proof.KernelProto

noncomputable section

namespace Cert.KernelHand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The elements of a slot -/

/-- The elements of slot k are those of one row of the buffer. -/
theorem slot_set (k : Fin 8) :
    (slotM k).view.set = (Rect.unit (s := S8x1x256) ![k.val, 0, 0] S1x1x256.size (slot_inb k)).set := by
  simp only [Memref.view_squeeze, Memref.view_slice, Memref.view_whole, View.set_reshape, View.set_slice_whole]

/-- An element lies in slot k exactly when its first coordinate is k: the other two coordinates range over the whole row. -/
theorem mem_slot (k : Fin 8) (i : (slotM k).view.ty.Idx) : i ∈ (slotM k).view.set ↔ (i 0).val = k.val := by
  rw [slot_set, Rect.mem_set_unit]
  constructor
  · intro h; have := h 0; simp at this; omega
  · intro h a
    fin_cases a
    · simp; omega
    · have := (i 1).isLt; simp at this ⊢; omega
    · have := (i 2).isLt; simp at this ⊢; omega

theorem univ8 : (Finset.univ : Finset (Fin 8)) = {0, 1, 2, 3, 4, 5, 6, 7} := by decide

/-- The whole scratch buffer is its eight slots. -/
theorem scr_split (c : Dev nD) (f : Buf (Elt F) ((c : Thread nD τ).loc cc0_scratch0)) :
    (scrPts (F := F) c f : sProp 𝕄) ⊣⊢ iprop(slotPts c 0 fullShare f ∗ slotPts c 1 fullShare f ∗ slotPts c 2 fullShare f ∗ slotPts c 3 fullShare f
      ∗ slotPts c 4 fullShare f ∗ slotPts c 5 fullShare f ∗ slotPts c 6 fullShare f ∗ slotPts c 7 fullShare f) := by
  -- the slots are pairwise disjoint (different first coordinates) and every element lies in the slot its first coordinate names
  let K : Fin 8 → Finset (Idx ((rM : Memref sig .tc .vmem S8x1x256 .f32).view.loc (c : Thread nD τ))) := fun k => (slotM k).view.set
  have hu : (rM : Memref sig .tc .vmem S8x1x256 .f32).view.set = Finset.univ := View.set_whole _
  have hcov : (rM : Memref sig .tc .vmem S8x1x256 .f32).view.set = (Finset.univ : Finset (Fin 8)).biUnion K := by
    rw [hu]
    ext i
    simp only [Finset.mem_univ, Finset.mem_biUnion, true_and, true_iff]
    exact ⟨⟨(i 0).val, (i 0).isLt⟩, (mem_slot ⟨(i 0).val, (i 0).isLt⟩ i).mpr rfl⟩
  have hdisj : ∀ t ∈ (Finset.univ : Finset (Fin 8)), ∀ t' ∈ (Finset.univ : Finset (Fin 8)), t ≠ t' → Disjoint (K t) (K t') := by
    intro t _ t' _ htt
    rw [Finset.disjoint_left]; intro i h1 h2
    have e1 := (mem_slot t i).mp h1
    have e2 := (mem_slot t' i).mp h2
    exact htt (Fin.ext (e1.symm.trans e2))
  refine BIBase.BiEntails.of_eq ?_
  unfold scrPts
  rw [hcov, pointsTo_biUnion _ K hdisj, univ8]
  repeat rw [bigSep_insert (by decide)]
  rw [bigSep_singleton]
  rfl

/-- A points-to of slot 0 at a share is the same at the share's left and right halves. -/
theorem slot0_halve (c : Dev nD) (f : Buf (Elt F) ((c : Thread nD τ).loc cc0_scratch0)) (q : PosShare TreeShare) :
    (slotPts (F := F) c 0 q f : sProp 𝕄) = iprop(slotPts c 0 q.left f ∗ slotPts c 0 q.right f) := by
  unfold slotPts
  have h : ((slotM 0).view.loc (c : Thread nD τ) ↦[(slotM 0).view.set]{q} f : sProp 𝕄)
      ⊣⊢ iprop(((slotM 0).view.loc (c : Thread nD τ) ↦[(slotM 0).view.set]{q.left} f) ∗ (slotM 0).view.loc (c : Thread nD τ) ↦[(slotM 0).view.set]{q.right} f) :=
    pointsTo_share (PosShare.mem_left_op_right q)
  exact BI.equiv_iff.mp ⟨h.1, h.2⟩

/-- Slot 0 at the full share is its seven parts, one for each copy that reads it. -/
theorem share_split (c : Dev nD) (f : Buf (Elt F) ((c : Thread nD τ).loc cc0_scratch0)) :
    (slotPts (F := F) c 0 fullShare f : sProp 𝕄) ⊣⊢ iprop(slotPts c 0 (shr 1) f ∗ slotPts c 0 (shr 2) f ∗ slotPts c 0 (shr 3) f ∗ slotPts c 0 (shr 4) f
      ∗ slotPts c 0 (shr 5) f ∗ slotPts c 0 (shr 6) f ∗ slotPts c 0 (shr 7) f) := by
  -- the k-th share is the left half of what the first k - 1 halvings left, the seventh all that the first six left
  have e1 : shr 1 = fullShare.left := rfl
  have e2 : shr 2 = fullShare.right.left := rfl
  have e3 : shr 3 = fullShare.right.right.left := rfl
  have e4 : shr 4 = fullShare.right.right.right.left := rfl
  have e5 : shr 5 = fullShare.right.right.right.right.left := rfl
  have e6 : shr 6 = fullShare.right.right.right.right.right.left := rfl
  have e7 : shr 7 = fullShare.right.right.right.right.right.right := rfl
  refine BIBase.BiEntails.of_eq ?_
  rw [e1, e2, e3, e4, e5, e6, e7]
  rw [slot0_halve c f fullShare, slot0_halve c f fullShare.right, slot0_halve c f fullShare.right.right,
    slot0_halve c f fullShare.right.right.right, slot0_halve c f fullShare.right.right.right.right,
    slot0_halve c f fullShare.right.right.right.right.right]

/-- The rectangle of the kernel's store into slot 0 (and of the load before it). -/
abbrev r00 : Rect S8x1x256 := Rect.unit (s := S8x1x256) ![0, 0, 0] S1x1x256.size Facts₀.inb_S8x1x256_S1x1x256_0_0_0
/-- The rectangle of the final load: the whole buffer. -/
abbrev rAll : Rect S8x1x256 := Rect.unit (s := S8x1x256) ![0, 0, 0] S8x1x256.size Facts₀.inb_S8x1x256_S8x1x256_0_0_0

/-- The store's rectangle is slot 0. -/
theorem r00_set : ((rM : Memref sig .tc .vmem S8x1x256 .f32).access r00 : View sig .tc _ _ _).set = (slotM 0).view.set :=
  (View.set_reshape _ _).symm

/-! ## Where a slot's elements sit, and what the final contents hold there -/

/-- The final contents at an element whose first coordinate is k and whose column is that of the row index y:
    the row of the device k places before, at y. -/
theorem comm_at (c : Dev nD) (i : Idx ((c : Thread nD τ).loc cc0_scratch0)) (k : Fin 8) (y : S1x1x256.Idx)
    (h0 : (i 0).val = k.val) (h2 : (i 2).val = (y 2).val) : comm m ρ c i = part m ρ (src c k) y := by
  have hc : comm m ρ c i = part m ρ (src c (i 0)) (ValueIdx.ix3 (0 : Fin 1) (0 : Fin 1) (i 2)) := rfl
  have e0 : src c (i 0) = src c k := congrArg (src c) (Fin.ext h0)
  have ey : ValueIdx.ix3 (0 : Fin 1) (0 : Fin 1) (i 2) = y := by
    funext a; apply Fin.ext; fin_cases a
    · have := (y 0).isLt; simp at this ⊢; omega
    · have := (y 1).isLt; simp at this ⊢; omega
    · simpa using h2
  rw [hc, e0]
  exact congrArg (part m ρ (src c k)) ey

/-- The element of the buffer under the index z of row k: z moved k rows down. -/
theorem row_emb_val (k : Fin 8) (z : S1x1x256.Idx) (a : Fin 3) :
    ((((rM : Memref sig .tc .vmem S8x1x256 .f32).view.slice (Rect.unit (s := S8x1x256) ![k.val, 0, 0] S1x1x256.size (slot_inb k))).emb z) a).val
      = (![k.val, 0, 0] : Fin 3 → ℕ) a + (z a).val := by
  show (![k.val, 0, 0] : Fin 3 → ℕ) a + 1 * (z a).val = _
  rw [Nat.one_mul]

/-- An index of a slot names the same index of the row whichever slot it is read in: slot k puts it k rows down. -/
theorem slot_emb_val (x : S1x256.Idx) :
    ∃ z : S1x1x256.Idx, ∀ (k : Fin 8) (a : Fin 3), (((slotM k).view.emb x) a).val = (![k.val, 0, 0] : Fin 3 → ℕ) a + (z a).val :=
  ⟨Shape.reshapeEquiv (Shape.Squeezes.numel_eq Facts₀.squeezes_S1x1x256_S1x256) x, fun k a => row_emb_val k _ a⟩

/-- Storing device c's row into slot 0 leaves slot 0 at the final contents. -/
theorem store0_eq (c : Dev nD) (f : Buf (Elt F) ((c : Thread nD τ).loc cc0_scratch0)) :
    (slotPts (F := F) c 0 fullShare (((rM : Memref sig .tc .vmem S8x1x256 .f32).access r00 : View sig .tc _ _ _).write (Elt F) f (part m ρ c) Finset.univ) : sProp 𝕄)
      = slotPts c 0 fullShare (comm m ρ c) := by
  unfold slotPts
  refine pointsTo_congr fun i hi => ?_
  rw [← r00_set] at hi
  obtain ⟨y, -, rfl⟩ := Finset.mem_map.mp hi
  rw [View.write_emb_of_mem _ _ (Finset.mem_univ y)]
  -- the element under y has first coordinate 0 and y's column; the device 0 places before c is c
  have h0 : ((((rM : Memref sig .tc .vmem S8x1x256 .f32).access r00 : View sig .tc _ _ _).emb y) 0).val = (0 : Fin 8).val :=
    (row_emb_val 0 y 0).trans (by have := (y 0).isLt; simp at this ⊢; omega)
  have h2 : ((((rM : Memref sig .tc .vmem S8x1x256 .f32).access r00 : View sig .tc _ _ _).emb y) 2).val = (y 2).val :=
    (row_emb_val 0 y 2).trans (by simp)
  rw [comm_at m ρ c _ 0 y h0 h2, src_zero]
  exact cast_eq _ _

/-- Device c's slot 0 landing in slot k of device c + k leaves that slot at ITS final contents: it is the row of the device
    k places before c + k. -/
theorem landed_eq (c : Dev nD) (k : Fin 8) (fd : Buf (Elt F) ((slotM k).view.loc (peer c k : Thread nD τ))) :
    (slotPts (F := F) (peer c k) k fullShare ((slotM k).view.write (Elt F) fd ((slotM 0).view.read (Elt F) (comm m ρ c)) Finset.univ) : sProp 𝕄)
      = slotPts (peer c k) k fullShare (comm m ρ (peer c k)) := by
  unfold slotPts
  refine pointsTo_congr fun i hi => ?_
  obtain ⟨x, -, rfl⟩ := Finset.mem_map.mp hi
  rw [View.write_emb_of_mem _ _ (Finset.mem_univ x), View.read_apply]
  -- the index x names one column z; in slot 0 of c it holds c's row there, in slot k of c + k the row of the device k before c + k, which is c
  obtain ⟨z, hz⟩ := slot_emb_val x
  have h00 : (((slotM 0).view.emb x) 0).val = (0 : Fin 8).val := (hz 0 0).trans (by have := (z 0).isLt; simp at this ⊢; omega)
  have h02 : (((slotM 0).view.emb x) 2).val = (z 2).val := (hz 0 2).trans (by simp)
  have hk0 : (((slotM k).view.emb x) 0).val = k.val := (hz k 0).trans (by have := (z 0).isLt; simp at this ⊢; omega)
  have hk2 : (((slotM k).view.emb x) 2).val = (z 2).val := (hz k 2).trans (by simp)
  rw [comm_at m ρ c _ 0 z h00 h02, comm_at m ρ (peer c k) _ k z hk0 hk2, src_zero, src_peer, cast_cast]
  exact cast_eq _ _

/-- The final load reads the whole buffer. -/
theorem read_all (f : (cc0_scratch0 : Ref sig .tc).ty.Contents (Elt F)) :
    (rM : Memref sig .tc .vmem S8x1x256 .f32).view.readAt (Elt F) rAll.toLoadRect f = f :=
  Memref.readAt_unit_zero (Elt F) cc0_scratch0 (by funext a; fin_cases a <;> rfl) _ f

end Cert.KernelHand
end

/-- info: 'Cert.KernelHand.scr_split' depends on axioms: [propext, Classical.choice, Quot.sound] -/
#guard_msgs in #print axioms Cert.KernelHand.scr_split
/-- info: 'Cert.KernelHand.share_split' depends on axioms: [propext, Classical.choice, Quot.sound] -/
#guard_msgs in #print axioms Cert.KernelHand.share_split
/-- info: 'Cert.KernelHand.store0_eq' depends on axioms: [propext, Classical.choice, Quot.sound] -/
#guard_msgs in #print axioms Cert.KernelHand.store0_eq
/-- info: 'Cert.KernelHand.landed_eq' depends on axioms: [propext, Classical.choice, Quot.sound] -/
#guard_msgs in #print axioms Cert.KernelHand.landed_eq
/-- info: 'Cert.KernelHand.read_all' depends on axioms: [propext, Classical.choice, Quot.sound] -/
#guard_msgs in #print axioms Cert.KernelHand.read_all
-- ==== Proof.KernelSteps.lean ====
/-
  The protocol's steps, one lemma each and generic in the slot: a unit sent to a peer's barrier handing over a slot, the wait
  for the seven units, a copy into a peer's slot, the wait for a copy's source to be read and for a landing.
-/
import proofs.«901093_g7700000000001094_dist_sum_ax0_shard0_i_m512_n256_v7x_i8_f32_1_alg».proof.Proof.KernelProto
import proofs.«901093_g7700000000001094_dist_sum_ax0_shard0_i_m512_n256_v7x_i8_f32_1_alg».proof.Proof.KernelLevels
import proofs.«901093_g7700000000001094_dist_sum_ax0_shard0_i_m512_n256_v7x_i8_f32_1_alg».proof.Proof.KernelBodyLemmas

noncomputable section

namespace Cert.KernelHand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 17 → ℕ)

theorem inv_at (ck : Dev nD × Fin 17) : records m ρ K ⊢ cellInv ER (Rd m ρ) (K ck) (kcell ck) := by
  unfold records
  exact sep_elim_left.trans
    (bigSep_elim (Finset.mem_univ ck) (Φ := fun ck : Dev nD × Fin 17 => cellInv ER (Rd m ρ) (K ck) (kcell ck)))
theorem reached_at (ck : Dev nD × Fin 17) : records m ρ K ⊢ reached ER (kcell ck) 0 := by
  unfold records
  exact sep_elim_right.trans
    (bigSep_elim (Finset.mem_univ ck) (Φ := fun ck : Dev nD × Fin 17 => reached ER (kcell ck) 0))

/-! The records at the three kinds of cell. -/

private theorem inv_bar (c : Dev nD) : records m ρ K ⊢ cellInv ER (Rd m ρ) (K (c, jBar)) (barCell c) := by
  have h := inv_at m ρ K (c, jBar); rwa [kcell_bar] at h
private theorem inv_send (c : Dev nD) (k : Fin 8) : records m ρ K ⊢ cellInv ER (Rd m ρ) (K (c, jSend k)) (sendCell c k) := by
  have h := inv_at m ρ K (c, jSend k); rwa [kcell_send] at h
private theorem inv_recv (c : Dev nD) (k : Fin 8) : records m ρ K ⊢ cellInv ER (Rd m ρ) (K (c, jRecv k)) (recvCell c k) := by
  have h := inv_at m ρ K (c, jRecv k); rwa [kcell_recv] at h
private theorem reached_bar (c : Dev nD) : records m ρ K ⊢ reached ER (barCell c) 0 := by
  have h := reached_at m ρ K (c, jBar); rwa [kcell_bar] at h
private theorem reached_send (c : Dev nD) (k : Fin 8) : records m ρ K ⊢ reached ER (sendCell c k) 0 := by
  have h := reached_at m ρ K (c, jSend k); rwa [kcell_send] at h
private theorem reached_recv (c : Dev nD) (k : Fin 8) : records m ρ K ⊢ reached ER (recvCell c k) 0 := by
  have h := reached_at m ρ K (c, jRecv k); rwa [kcell_recv] at h

/-! The payloads a wait for a whole round returns, nothing of the round taken before. -/

/-- The barrier's round: the seven units' payloads, in the order of the slots. -/
private theorem rest_bar (c : Dev nD) :
    bigSep ((Rd (F := F) m ρ).duties (barCell c) 0 \ ∅) (fun d => (Rd (F := F) m ρ).payload (barCell c) 0 d)
      = iprop(barPay c 1 ∗ barPay c 2 ∗ barPay c 3 ∗ barPay c 4 ∗ barPay c 5 ∗ barPay c 6 ∗ barPay c 7) := by
  rw [Finset.sdiff_empty, duties_bar, bigSep_eq_bigSepL_of_eq [1, 2, 3, 4, 5, 6, 7] (by decide) (by decide)]
  simp only [bigSepL_cons_cons, bigSepL_singleton, payload_bar]
  rfl
private theorem rest_send (c : Dev nD) {k : Fin 8} (hk : k ≠ 0) :
    bigSep ((Rd (F := F) m ρ).duties (sendCell c k) 0 \ ∅) (fun d => (Rd (F := F) m ρ).payload (sendCell c k) 0 d) = sendPay m ρ c k := by
  rw [Finset.sdiff_empty, duties_send m ρ c hk, bigSep_singleton, payload_send]
private theorem rest_recv (c : Dev nD) {k : Fin 8} (hk : k ≠ 0) :
    bigSep ((Rd (F := F) m ρ).duties (recvCell c k) 0 \ ∅) (fun d => (Rd (F := F) m ρ).payload (recvCell c k) 0 d) = recvPay m ρ c k := by
  rw [Finset.sdiff_empty, duties_recv m ρ c hk, bigSep_singleton, payload_recv]

/-- Once its fourteen payments are made a device owes nothing. -/
private theorem Oafter_14 (c : Dev nD) : Oafter c 14 = 0 := rfl

/-- The n-th payment is the j-th signal: one unit on device c + j's barrier, its duty the one named by the slot of c that goes
    with it, slot 8 - j, which c hands over together with the fact that its receive cell of that slot is at round 0. -/
theorem step_signal (c : Dev nD) (j : Fin 8) (hj : j ≠ 0) (n : ℕ) (k' : ℕ) (hk' : k' = 1)
    (hO : Oafter c n = Oafter c (n + 1) + tallyAt (barCell (peer c j)) () 1)
    {α : Type} {Q : α → sProp 𝕄} {k : PUnit → Prog (TpuEff nD τ sig (Elt F) Λ₀ .tc) α}
    (f : Buf (Elt F) ((c : Thread nD τ).loc cc0_scratch0)) (W : Waits sig Unit) :
    iprop(records m ρ K ∗ owes (c : Thread nD τ) (Oafter c n) W ∗ dutyTok ER (barCell (peer c j)) 0 (neg j) ∗ slotPts c (neg j) fullShare f)
      ⊢ iprop((owes (c : Thread nD τ) (Oafter c (n + 1)) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (peer c j : Thread nD τ) barS k') k) Q) := by
  subst hk'
  iintro ⟨#Hrec, HO, Htok, Hslot⟩
  iapply (Rounds.wp_signal 𝒱₀ ER (Rd m ρ) (c : Thread nD τ) none (dst := (peer c j : Thread nD τ)) (sem := barS) (κ := K (peer c j, jBar))
      (r := 0) (d := neg j) (by rw [duties_bar]; exact Finset.mem_erase.mpr ⟨neg_ne_zero hj, Finset.mem_univ _⟩)
      (amount_bar m ρ (peer c j) (neg j)) () (Oafter c (n + 1)) hO (W := W))
  isplitr; · iapply (inv_bar m ρ K (peer c j)); iexact Hrec
  isplitl [HO]; · iexact HO
  isplitl [Htok]; · iexact Htok
  isplitl [Hslot]
  · rw [payload_bar]; unfold barPay; rw [peer_peer_neg]
    isplitl [Hslot]; · iexists f; iexact Hslot
    iapply (reached_recv m ρ K c (neg j)); iexact Hrec
  · iapply (reached_bar m ρ K (peer c j)); iexact Hrec

/-- The wait for the seven units: owing only receive credit, device c comes back with slot k of device c + k for every k. -/
theorem step_wait_bar (c : Dev nD) (k' : ℕ) (hk' : k' = 7)
    {α : Type} {Q : α → sProp 𝕄} {k : PUnit → Prog (TpuEff nD τ sig (Elt F) Λ₀ .tc) α} (W : Waits sig Unit) :
    iprop(records m ρ K ∗ cred (tallyAt (barCell c) () 7) ∗ owes (c : Thread nD τ) (Oafter c 7) W ∗ levAts L lv ∗ atPos ER (barCell c) 0 ∅ 0)
      ⊢ iprop(((owes (c : Thread nD τ) (Oafter c 7) (insert (SemLoc.reg barS, ()) W)
              ∗ (∃ f, slotPts (peer c 1) 1 fullShare f) ∗ (∃ f, slotPts (peer c 2) 2 fullShare f) ∗ (∃ f, slotPts (peer c 3) 3 fullShare f)
              ∗ (∃ f, slotPts (peer c 4) 4 fullShare f) ∗ (∃ f, slotPts (peer c 5) 5 fullShare f) ∗ (∃ f, slotPts (peer c 6) 6 fullShare f)
              ∗ (∃ f, slotPts (peer c 7) 7 fullShare f))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk'
  iintro ⟨#Hrec, Hc, HO, #Hlev, Hat⟩ Hk
  iapply (Rounds.wp_wait_rest_token 𝒱₀ ER (Rd m ρ) (c : Thread nD τ) none (κ := K (c, jBar))
      (wpE_semWait_eq 𝒱₀ (c : Thread nD τ) none Set.univ) (Set.mem_univ _) () (O := Oafter c 7) (W := W) (R := 0) (m := 0) (T := ∅)
      (by rw [expect_bar])) $$ [Hc HO Hat]
  · isplitr; · iapply (inv_bar m ρ K c); iexact Hrec
    isplitl [Hc]; · iexact Hc
    isplitl [HO]; · iexact HO
    isplitr; · iapply (mayWait_bar c); iexact Hlev
    iexact Hat
  iintro ⟨HO, -, -, Hpay⟩
  ihave Hp := (Entails.of_eq (rest_bar m ρ c)) $$ Hpay
  unfold barPay
  icases Hp with ⟨⟨H1, -⟩, ⟨H2, -⟩, ⟨H3, -⟩, ⟨H4, -⟩, ⟨H5, -⟩, ⟨H6, -⟩, ⟨H7, -⟩⟩
  iapply Hk
  isplitl [HO]; · iexact HO
  isplitl [H1]; · iexact H1
  isplitl [H2]; · iexact H2
  isplitl [H3]; · iexact H3
  isplitl [H4]; · iexact H4
  isplitl [H5]; · iexact H5
  isplitl [H6]; · iexact H6
  iexact H7

/-- The n-th payment is the j-th copy: slot 0, read at its j-th share, into slot j of device c + j, which c holds. The copy's
    landing hands that slot, at its final contents, to its owner; c gets the credit to wait for the source to be read. -/
theorem step_send (c : Dev nD) (j : Fin 8) (hj : j ≠ 0) (n : ℕ)
    (hO : Oafter c n = Oafter c (n + 1) + tallyAt (recvCell (peer c j) j) () N)
    {sS sR : DmaSem sig} (hsS : sS = sendS j) (hsR : sR = recvS j)
    {srcM : Memref sig .tc .vmem S1x256 .f32} {dstM : Memref sig (Dev.tc (peer c j) : Thread nD τ).2.kind .vmem S1x256 .f32} (hsrcM : srcM = slotM 0) (hdstM : dstM = slotM j)
    {hsc : dstM.view.ref.isScScratch = false} {hsrc : srcM.view.WordExact} {hdst : dstM.view.WordExact}
    {hsem : DmaTarget.Typed .vmem (.dma sR) (.remote (Dev.tc (peer c j) : Thread nD τ) dstM (.dma sS) hsc)}
    {α : Type} {Q : α → sProp 𝕄} {k : PUnit → Prog (TpuEff nD τ sig (Elt F) Λ₀ .tc) α}
    (fd : Buf (Elt F) ((slotM j).view.loc (peer c j : Thread nD τ))) (W : Waits sig Unit) :
    iprop(records m ρ K ∗ slotPts c 0 (shr j) (comm m ρ c) ∗ slotPts (peer c j) j fullShare fd
        ∗ owes (c : Thread nD τ) (Oafter c n) W
        ∗ dutyTok ER (sendCell c j) 0 0 ∗ dutyTok ER (recvCell (peer c j) j) 0 0)
      ⊢ iprop(((cred (tallyAt (sendCell c j) () N) ∗ owes (c : Thread nD τ) (Oafter c (n + 1)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma srcM (.remote (Dev.tc (peer c j) : Thread nD τ) dstM (.dma sS) hsc) (.dma sR) hsrc hdst hsem) k) Q) := by
  subst hsS hsR hsrcM hdstM
  unfold slotPts
  iintro ⟨#Hrec, Hs, Hd, HO, Ht1, Ht2⟩
  iapply (Rounds.wp_send_pointsTo 𝒱₀ ER (Rd m ρ) (c : Thread nD τ) none (c' := (Dev.tc (peer c j) : Thread nD τ))
      (src := slotM 0) (dst := slotM j) (q := shr j) (fs := comm m ρ c) (fd := fd)
      (κ₁ := K (c, jSend j)) (κ₂ := K (peer c j, jRecv j)) (r₁ := 0) (r₂ := 0) (d₁ := 0) (d₂ := 0)
      (by rw [duties_send m ρ c hj]; exact Finset.mem_singleton_self _)
      (by rw [duties_recv m ρ (peer c j) hj]; exact Finset.mem_singleton_self _)
      () () N rfl (amount_send m ρ c j 0) (amount_recv m ρ (peer c j) j 0) (Oafter c (n + 1)) hO (W := W)
      (by rw [payload_send]; exact BI.Entails.refl _)
      (by rw [payload_recv]; unfold recvPay; rw [← landed_eq m ρ c j fd]; exact BI.Entails.refl _))
  isplitr; · iapply (inv_send m ρ K c j); iexact Hrec
  isplitr; · iapply (inv_recv m ρ K (peer c j) j); iexact Hrec
  isplitl [Hs]; · iexact Hs
  isplitl [Hd]; · iexact Hd
  isplitl [HO]; · iexact HO
  isplitl [Ht1]; · iexact Ht1
  isplitr; · iapply (reached_send m ρ K c j); iexact Hrec
  isplitl [Ht2]; · iexact Ht2
  iapply (reached_recv m ρ K (peer c j) j); iexact Hrec

/-- The wait on the j-th send semaphore, nothing owed any more: the share of slot 0 the copy read comes back, and the
    semaphore, never used again, is the core's own at zero. -/
theorem step_wait_send (c : Dev nD) (j : Fin 8) (hj : j ≠ 0) {sem : DmaSem sig} (hsem : sem = sendS j)
    {sp' : Space} {s' : Shape} {e' : EltTy} {srcM : Memref sig .tc sp' s' e'} {dstM : Memref sig .tc .vmem S1x256 .f32} (hcr : dstM.view.dmaCredit = N)
    {hsrc : srcM.view.WordExact} {hdst : dstM.view.WordExact}
    {α : Type} {Q : α → sProp 𝕄} {k : PUnit → Prog (TpuEff nD τ sig (Elt F) Λ₀ .tc) α} (W : Waits sig Unit) :
    iprop(records m ρ K ∗ cred (tallyAt (sendCell c j) () N) ∗ owes (c : Thread nD τ) (Oafter c 14) W ∗ atPos ER (sendCell c j) 0 ∅ 0)
      ⊢ iprop(((owes (c : Thread nD τ) (Oafter c 14) (insert (SemLoc.dma (sendS j), ()) W) ∗ semVal (sendCell c j) 0 ∗ slotPts c 0 (shr j) (comm m ρ c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem srcM dstM hsrc hdst) k) Q) := by
  subst hsem
  rw [← hcr]
  iintro ⟨#Hrec, Hc, HO, Hat⟩ Hk
  iapply (Rounds.wp_wait_rest_token 𝒱₀ ER (Rd m ρ) (c : Thread nD τ) none (κ := K (c, jSend j))
      (wpE_waitDma2_eq 𝒱₀ (c : Thread nD τ) none Set.univ) (Set.mem_univ _) () (O := Oafter c 14) (W := W) (R := 0) (m := 0) (T := ∅)
      (by rw [Nat.zero_add, expect_send m ρ c hj, hcr])) $$ [Hc HO Hat]
  · isplitr; · iapply (inv_send m ρ K c j); iexact Hrec
    isplitl [Hc]; · iexact Hc
    isplitl [HO]; · iexact HO
    isplitr; · rw [Oafter_14, MayWait_zero]; iempintro
    iexact Hat
  iintro ⟨HO, Hat, -, Hpay⟩
  ihave Hp := (Entails.of_eq (rest_send m ρ c hj)) $$ Hpay
  imod (Rounds.cell_close ER (Rd m ρ) (Set.mem_univ (K (c, jSend j))) (fun h => h) (R := 0 + 1) (duties_later m ρ (sendCell c j))) $$ [Hat] with Hz
  · isplitr; · iapply (inv_send m ρ K c j); iexact Hrec
    iexact Hat
  iapply Hk
  isplitl [HO]; · iexact HO
  isplitl [Hz]; · iexact Hz
  unfold sendPay
  iexact Hp

/-- The wait on the j-th receive semaphore: slot j comes back holding the row of the device j places before, and the
    semaphore is the core's own at zero. -/
theorem step_wait_recv (c : Dev nD) (j : Fin 8) (hj : j ≠ 0) {sem : DmaSem sig} (hsem : sem = recvS j)
    {sp' : Space} {s' : Shape} {e' : EltTy} {srcM : Memref sig .tc sp' s' e'} {dstM : Memref sig .tc .vmem S1x256 .f32} (hcr : dstM.view.dmaCredit = N)
    {hsrc : srcM.view.WordExact} {hdst : dstM.view.WordExact}
    {α : Type} {Q : α → sProp 𝕄} {k : PUnit → Prog (TpuEff nD τ sig (Elt F) Λ₀ .tc) α} (W : Waits sig Unit) :
    iprop(records m ρ K ∗ cred (tallyAt (recvCell c j) () N) ∗ owes (c : Thread nD τ) (Oafter c 14) W ∗ atPos ER (recvCell c j) 0 ∅ 0)
      ⊢ iprop(((owes (c : Thread nD τ) (Oafter c 14) (insert (SemLoc.dma (recvS j), ()) W) ∗ semVal (recvCell c j) 0 ∗ slotPts c j fullShare (comm m ρ c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem srcM dstM hsrc hdst) k) Q) := by
  subst hsem
  rw [← hcr]
  iintro ⟨#Hrec, Hc, HO, Hat⟩ Hk
  iapply (Rounds.wp_wait_rest_token 𝒱₀ ER (Rd m ρ) (c : Thread nD τ) none (κ := K (c, jRecv j))
      (wpE_waitDma2_eq 𝒱₀ (c : Thread nD τ) none Set.univ) (Set.mem_univ _) () (O := Oafter c 14) (W := W) (R := 0) (m := 0) (T := ∅)
      (by rw [Nat.zero_add, expect_recv m ρ c hj, hcr])) $$ [Hc HO Hat]
  · isplitr; · iapply (inv_recv m ρ K c j); iexact Hrec
    isplitl [Hc]; · iexact Hc
    isplitl [HO]; · iexact HO
    isplitr; · rw [Oafter_14, MayWait_zero]; iempintro
    iexact Hat
  iintro ⟨HO, Hat, -, Hpay⟩
  ihave Hp := (Entails.of_eq (rest_recv m ρ c hj)) $$ Hpay
  imod (Rounds.cell_close ER (Rd m ρ) (Set.mem_univ (K (c, jRecv j))) (fun h => h) (R := 0 + 1) (duties_later m ρ (recvCell c j))) $$ [Hat] with Hz
  · isplitr; · iapply (inv_recv m ρ K c j); iexact Hrec
    iexact Hat
  iapply Hk
  isplitl [HO]; · iexact HO
  isplitl [Hz]; · iexact Hz
  unfold recvPay
  iexact Hp

/-- The two semaphores of slot 0 take no part: their cells close at round 0 and the counters are the core's own at zero. -/
theorem close_zero (c : Dev nD) :
    iprop(records m ρ K ∗ atPos ER (sendCell c 0) 0 ∅ 0 ∗ atPos ER (recvCell c 0) 0 ∅ 0)
      ⊢ |={Set.univ}=> iprop(semVal (sendCell c 0) 0 ∗ semVal (recvCell c 0) 0) := by
  iintro ⟨#Hrec, HatS, HatR⟩
  imod (Rounds.cell_close ER (Rd m ρ) (Set.mem_univ (K (c, jSend 0))) (fun h => h) (R := 0) (fun r _ => duties_send0 m ρ c r)) $$ [HatS] with HzS
  · isplitr; · iapply (inv_send m ρ K c 0); iexact Hrec
    iexact HatS
  imod (Rounds.cell_close ER (Rd m ρ) (Set.mem_univ (K (c, jRecv 0))) (fun h => h) (R := 0) (fun r _ => duties_recv0 m ρ c r)) $$ [HatR] with HzR
  · isplitr; · iapply (inv_recv m ρ K c 0); iexact Hrec
    iexact HatR
  imodintro
  isplitl [HzS]; · iexact HzS
  iexact HzR

end Cert.KernelHand
end
-- ==== Proof.KernelBody.lean ====
/-
  One device's kernel body, stepped from the protocol's ghost state to its end.
-/
import proofs.«901093_g7700000000001094_dist_sum_ax0_shard0_i_m512_n256_v7x_i8_f32_1_alg».proof.Proof.KernelProto
import proofs.«901093_g7700000000001094_dist_sum_ax0_shard0_i_m512_n256_v7x_i8_f32_1_alg».proof.Proof.KernelLevels
import proofs.«901093_g7700000000001094_dist_sum_ax0_shard0_i_m512_n256_v7x_i8_f32_1_alg».proof.Proof.KernelBodyLemmas
import proofs.«901093_g7700000000001094_dist_sum_ax0_shard0_i_m512_n256_v7x_i8_f32_1_alg».proof.Proof.KernelSteps

noncomputable section

namespace Cert.KernelHand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 17 → ℕ)

/-- The slots other than 0, one by one. -/
private theorem bigSep_K7 {M : Type} [URA M] (Φ : Fin 8 → sProp M) :
    bigSep K7 Φ = iprop(Φ 1 ∗ Φ 2 ∗ Φ 3 ∗ Φ 4 ∗ Φ 5 ∗ Φ 6 ∗ Φ 7) :=
  bigSep_eq_bigSepL_of_eq [(1 : Fin 8), 2, 3, 4, 5, 6, 7] (by decide) (by decide) Φ

/-- All eight slots, one by one. -/
private theorem bigSep_F8 {M : Type} [URA M] (Φ : Fin 8 → sProp M) :
    bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

private theorem hz2 : (![0, 0] : Fin 2 → Nat) = fun _ => 0 := funext fun a => by fin_cases a <;> rfl

/-- The rectangle of the store into the result: the whole row. -/
private abbrev rOut : Rect S1x256 := Rect.unit (s := S1x256) ![0, 0] S1x256.size inb_S1x256_S1x256_0_0

omit [FloatOps F] in
/-- The load of x's staging buffer reads all of it. -/
private theorem read_x (f : (cc0_stg0_0 : Ref sig .tc).ty.Contents (Elt F)) :
    (xM : Memref sig .tc .vmem S512x256 .f32).view.readAt (Elt F)
      (Rect.unit (s := S512x256) ![0, 0] S512x256.size inb_S512x256_S512x256_0_0).toLoadRect f = f :=
  Memref.readAt_unit_zero (Elt F) cc0_stg0_0 hz2 _ f

omit [FloatOps F] in
/-- The store into the result's staging buffer overwrites all of it. -/
private theorem write_out (f w : (cc0_stg1_0 : Ref sig .tc).ty.Contents (Elt F)) :
    ((oM : Memref sig .tc .vmem S1x256 .f32).access rOut : View sig .tc _ _ _).write (Elt F) f w Finset.univ = w :=
  Memref.write_access_unit_zero_univ (Elt F) cc0_stg1_0 hz2 _ f w

/-- A copy addressed to a device named otherwise than c + j: the device is replaced by what it equals. -/
private theorem step_send_at (c : Dev nD) (j : Fin 8) (hj : j ≠ 0) (n : ℕ)
    (hO : Oafter c n = Oafter c (n + 1) + tallyAt (recvCell (peer c j) j) () N)
    (d : Dev nD) (hd : d = peer c j)
    {sS sR : DmaSem sig} (hsS : sS = sendS j) (hsR : sR = recvS j)
    {srcM : Memref sig .tc .vmem S1x256 .f32} {dstM : Memref sig (Dev.tc d : Thread nD τ).2.kind .vmem S1x256 .f32} (hsrcM : srcM = slotM 0) (hdstM : dstM = slotM j)
    {hsc : dstM.view.ref.isScScratch = false} {hsrc : srcM.view.WordExact} {hdst : dstM.view.WordExact}
    {hsem : DmaTarget.Typed .vmem (.dma sR) (.remote (Dev.tc d : Thread nD τ) dstM (.dma sS) hsc)}
    {α : Type} {Q : α → sProp 𝕄} {k : PUnit → Prog (TpuEff nD τ sig (Elt F) Λ₀ .tc) α}
    (fd : Buf (Elt F) ((slotM j).view.loc (peer c j : Thread nD τ))) (W : Waits sig Unit) :
    iprop(records m ρ K ∗ slotPts c 0 (shr j) (comm m ρ c) ∗ slotPts (peer c j) j fullShare fd
        ∗ owes (c : Thread nD τ) (Oafter c n) W
        ∗ dutyTok ER (sendCell c j) 0 0 ∗ dutyTok ER (recvCell (peer c j) j) 0 0)
      ⊢ iprop(((cred (tallyAt (sendCell c j) () N) ∗ owes (c : Thread nD τ) (Oafter c (n + 1)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma srcM (.remote (Dev.tc d : Thread nD τ) dstM (.dma sS) hsc) (.dma sR) hsrc hdst hsem) k) Q) := by
  subst hd
  exact step_send m ρ K c j hj n hO hsS hsR hsrcM hdstM fd W

omit [FloatOps F] in
/-- The same store, stated as a list of one write. -/
private theorem writes_out (f w : (cc0_stg1_0 : Ref sig .tc).ty.Contents (Elt F)) :
    (oM : Memref sig .tc .vmem S1x256 .f32).view.writes (Elt F) f [⟨rOut, w⟩] = w := write_out f w

/-- The body on device c: seven signals, the row sum into slot 0, the wait for seven, seven copies, fourteen waits, the sum
    of the eight slots into the result. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton]
  unfold k0_part1_skel k0_part2_skel k0_part3_skel k0_part4_skel k0_part5_skel k0_part6_skel k0_part7_skel k0_part8_skel
    k0_part9_skel k0_part10_skel k0_part11_skel k0_part12_skel
  simp only [semSignalWord, semWaitWord, Prog.lift, Prog.bind_op, Prog.bind_ret, Prog.pure_eq_ret, wp_deviceId]
  -- the seven signals address c + 1 … c + 7
  simp only [dev1_eq c, dev2_eq c, dev3_eq c, dev4_eq c, dev5_eq c, dev6_eq c, dev7_eq c]
  unfold bodyPre ghost positions payToks startCred
  simp only [bigSep_K7, bigSep_F8]
  iintro ⟨⟨⟨⟨#Hrec, ⟨HatB, ⟨HaS0, HaS1, HaS2, HaS3, HaS4, HaS5, HaS6, HaS7⟩, HaR0, HaR1, HaR2, HaR3, HaR4, HaR5, HaR6, HaR7⟩,
        ⟨HtB1, HtB2, HtB3, HtB4, HtB5, HtB6, HtB7⟩, ⟨HtR1, HtR2, HtR3, HtR4, HtR5, HtR6, HtR7⟩, HtS1, HtS2, HtS3, HtS4, HtS5, HtS6, HtS7⟩,
      ⟨HcB, HcR1, HcR2, HcR3, HcR4, HcR5, HcR6, HcR7⟩, #Hlev, ⟨%f0, Hscr⟩⟩,
    Ho, ⟨%d0, %g0, %hg0, Hx⟩, ⟨%d1, %g1, %hg1, Hout⟩⟩, Hk⟩
  have hx : g0 = xstg m ρ c := by rw [hg0]; unfold Dat.before; rw [if_pos (by decide +kernel : (cfg0.win 0).fetch t₀ = true)]; rfl
  subst hx
  unfold Dat.owesAt Pipeline.owesWithin
  icases Ho with ⟨%W, %hW, HO⟩
  rw [show (dats m ρ 0 c).owed t₀.castSucc = Oafter c 0 from rfl]
  -- the scratch buffer by slots
  icases (scr_split c f0).1 $$ Hscr with ⟨Hs0, Hs1, Hs2, Hs3, Hs4, Hs5, Hs6, Hs7⟩
  -- signal 1: slot 7 goes to device c + 1
  iapply (step_signal m ρ K c 1 (by decide) 0 ((1#32).toNat) rfl rfl f0 W) $$ [HO HtB1 Hs7]
  · isplitr; · iexact Hrec
    isplitl [HO]; · iexact HO
    isplitl [HtB1]; · iexact HtB1
    iexact Hs7
  iintro HO
  -- signal 2: slot 6 goes to device c + 2
  iapply (step_signal m ρ K c 2 (by decide) 1 ((1#32).toNat) rfl rfl f0 W) $$ [HO HtB2 Hs6]
  · isplitr; · iexact Hrec
    isplitl [HO]; · iexact HO
    isplitl [HtB2]; · iexact HtB2
    iexact Hs6
  iintro HO
  -- signal 3: slot 5 goes to device c + 3
  iapply (step_signal m ρ K c 3 (by decide) 2 ((1#32).toNat) rfl rfl f0 W) $$ [HO HtB3 Hs5]
  · isplitr; · iexact Hrec
    isplitl [HO]; · iexact HO
    isplitl [HtB3]; · iexact HtB3
    iexact Hs5
  iintro HO
  -- signal 4: slot 4 goes to device c + 4
  iapply (step_signal m ρ K c 4 (by decide) 3 ((1#32).toNat) rfl rfl f0 W) $$ [HO HtB4 Hs4]
  · isplitr; · iexact Hrec
    isplitl [HO]; · iexact HO
    isplitl [HtB4]; · iexact HtB4
    iexact Hs4
  iintro HO
  -- signal 5: slot 3 goes to device c + 5
  iapply (step_signal m ρ K c 5 (by decide) 4 ((1#32).toNat) rfl rfl f0 W) $$ [HO HtB5 Hs3]
  · isplitr; · iexact Hrec
    isplitl [HO]; · iexact HO
    isplitl [HtB5]; · iexact HtB5
    iexact Hs3
  iintro HO
  -- signal 6: slot 2 goes to device c + 6
  iapply (step_signal m ρ K c 6 (by decide) 5 ((1#32).toNat) rfl rfl f0 W) $$ [HO HtB6 Hs2]
  · isplitr; · iexact Hrec
    isplitl [HO]; · iexact HO
    isplitl [HtB6]; · iexact HtB6
    iexact Hs2
  iintro HO
  -- signal 7: slot 1 goes to device c + 7
  iapply (step_signal m ρ K c 7 (by decide) 6 ((1#32).toNat) rfl rfl f0 W) $$ [HO HtB7 Hs1]
  · isplitr; · iexact Hrec
    isplitl [HO]; · iexact HO
    isplitl [HtB7]; · iexact HtB7
    iexact Hs1
  iintro HO
  -- the block of x is read whole, and its row of column sums stored into slot 0: x's staging buffer and slot 0 are
  -- stated through their memrefs, and the three local steps are run
  ihave Hx : ((xM : Memref sig .tc .vmem S512x256 .f32).view.loc (c : Thread nD τ) ↦[Finset.univ]{fullShare} xstg m ρ c) $$ [Hx]
  · iexact Hx
  unfold slotPts
  set_option sl_exec.maxSteps 3 in sl_exec
  unfold sound_body.sl.Hs0_w1
  rw [read_x]
  ihave Hs0' : slotPts c 0 fullShare (comm m ρ c) $$ [Hs0]
  · rw [← store0_eq m ρ c f0]; unfold slotPts part; iexact Hs0
  -- the wait for the seven units: slot k of device c + k comes with the unit of device c + k
  iapply (step_wait_bar m ρ K c ((7#32).toNat) rfl W) $$ [HcB HO HatB]
  · isplitr; · iexact Hrec
    isplitl [HcB]; · iexact HcB
    isplitl [HO]; · iexact HO
    isplitr; · iexact Hlev
    iexact HatB
  iintro ⟨HO, ⟨%p1, Hp1⟩, ⟨%p2, Hp2⟩, ⟨%p3, Hp3⟩, ⟨%p4, Hp4⟩, ⟨%p5, Hp5⟩, ⟨%p6, Hp6⟩, ⟨%p7, Hp7⟩⟩
  -- slot 0 by the seven shares the copies read it at
  icases (share_split c (comm m ρ c)).1 $$ Hs0' with ⟨Hq1, Hq2, Hq3, Hq4, Hq5, Hq6, Hq7⟩
  -- copy 1: slot 0 into slot 1 of device c + 1
  iapply (step_send_at m ρ K c 1 (by decide) 7 rfl ⟨k0_dev8 c, k0_dev8_lt c⟩ (dev8_eq c) rfl rfl rfl rfl p1 (insert (SemLoc.reg barS, ()) W)) $$ [Hq1 Hp1 HO HtS1 HtR1]
  · isplitr; · iexact Hrec
    isplitl [Hq1]; · iexact Hq1
    isplitl [Hp1]; · iexact Hp1
    isplitl [HO]; · iexact HO
    isplitl [HtS1]; · iexact HtS1
    iexact HtR1
  iintro ⟨HcS1, HO⟩
  -- copy 2: slot 0 into slot 2 of device c + 2
  iapply (step_send_at m ρ K c 2 (by decide) 8 rfl ⟨k0_dev9 c, k0_dev9_lt c⟩ (dev9_eq c) rfl rfl rfl rfl p2 (insert (SemLoc.reg barS, ()) W)) $$ [Hq2 Hp2 HO HtS2 HtR2]
  · isplitr; · iexact Hrec
    isplitl [Hq2]; · iexact Hq2
    isplitl [Hp2]; · iexact Hp2
    isplitl [HO]; · iexact HO
    isplitl [HtS2]; · iexact HtS2
    iexact HtR2
  iintro ⟨HcS2, HO⟩
  -- copy 3: slot 0 into slot 3 of device c + 3
  iapply (step_send_at m ρ K c 3 (by decide) 9 rfl ⟨k0_dev10 c, k0_dev10_lt c⟩ (dev10_eq c) rfl rfl rfl rfl p3 (insert (SemLoc.reg barS, ()) W)) $$ [Hq3 Hp3 HO HtS3 HtR3]
  · isplitr; · iexact Hrec
    isplitl [Hq3]; · iexact Hq3
    isplitl [Hp3]; · iexact Hp3
    isplitl [HO]; · iexact HO
    isplitl [HtS3]; · iexact HtS3
    iexact HtR3
  iintro ⟨HcS3, HO⟩
  -- copy 4: slot 0 into slot 4 of device c + 4
  iapply (step_send_at m ρ K c 4 (by decide) 10 rfl ⟨k0_dev11 c, k0_dev11_lt c⟩ (dev11_eq c) rfl rfl rfl rfl p4 (insert (SemLoc.reg barS, ()) W)) $$ [Hq4 Hp4 HO HtS4 HtR4]
  · isplitr; · iexact Hrec
    isplitl [Hq4]; · iexact Hq4
    isplitl [Hp4]; · iexact Hp4
    isplitl [HO]; · iexact HO
    isplitl [HtS4]; · iexact HtS4
    iexact HtR4
  iintro ⟨HcS4, HO⟩
  -- copy 5: slot 0 into slot 5 of device c + 5
  iapply (step_send_at m ρ K c 5 (by decide) 11 rfl ⟨k0_dev12 c, k0_dev12_lt c⟩ (dev12_eq c) rfl rfl rfl rfl p5 (insert (SemLoc.reg barS, ()) W)) $$ [Hq5 Hp5 HO HtS5 HtR5]
  · isplitr; · iexact Hrec
    isplitl [Hq5]; · iexact Hq5
    isplitl [Hp5]; · iexact Hp5
    isplitl [HO]; · iexact HO
    isplitl [HtS5]; · iexact HtS5
    iexact HtR5
  iintro ⟨HcS5, HO⟩
  -- copy 6: slot 0 into slot 6 of device c + 6
  iapply (step_send_at m ρ K c 6 (by decide) 12 rfl ⟨k0_dev13 c, k0_dev13_lt c⟩ (dev13_eq c) rfl rfl rfl rfl p6 (insert (SemLoc.reg barS, ()) W)) $$ [Hq6 Hp6 HO HtS6 HtR6]
  · isplitr; · iexact Hrec
    isplitl [Hq6]; · iexact Hq6
    isplitl [Hp6]; · iexact Hp6
    isplitl [HO]; · iexact HO
    isplitl [HtS6]; · iexact HtS6
    iexact HtR6
  iintro ⟨HcS6, HO⟩
  -- copy 7: slot 0 into slot 7 of device c + 7
  iapply (step_send_at m ρ K c 7 (by decide) 13 rfl ⟨k0_dev14 c, k0_dev14_lt c⟩ (dev14_eq c) rfl rfl rfl rfl p7 (insert (SemLoc.reg barS, ()) W)) $$ [Hq7 Hp7 HO HtS7 HtR7]
  · isplitr; · iexact Hrec
    isplitl [Hq7]; · iexact Hq7
    isplitl [Hp7]; · iexact Hp7
    isplitl [HO]; · iexact HO
    isplitl [HtS7]; · iexact HtS7
    iexact HtR7
  iintro ⟨HcS7, HO⟩
  -- the wait for copy 1's source: its share of slot 0 is back
  iapply (step_wait_send m ρ K c 1 (by decide) rfl (srcM := slotM 1) (dstM := slotM 0) rfl (insert (SemLoc.reg barS, ()) W)) $$ [HcS1 HO HaS1]
  · isplitr; · iexact Hrec
    isplitl [HcS1]; · iexact HcS1
    isplitl [HO]; · iexact HO
    iexact HaS1
  iintro ⟨HO, HzS1, Hq1⟩
  -- the wait for the landing in slot 1: the row of the device 1 places before
  iapply (step_wait_recv m ρ K c 1 (by decide) rfl (srcM := slotM 0) (dstM := slotM 1) rfl (insert (SemLoc.dma (sendS 1), ()) (insert (SemLoc.reg barS, ()) W))) $$ [HcR1 HO HaR1]
  · isplitr; · iexact Hrec
    isplitl [HcR1]; · iexact HcR1
    isplitl [HO]; · iexact HO
    iexact HaR1
  iintro ⟨HO, HzR1, Hr1⟩
  -- the wait for copy 2's source: its share of slot 0 is back
  iapply (step_wait_send m ρ K c 2 (by decide) rfl (srcM := slotM 2) (dstM := slotM 0) rfl (insert (SemLoc.dma (recvS 1), ()) (insert (SemLoc.dma (sendS 1), ()) (insert (SemLoc.reg barS, ()) W)))) $$ [HcS2 HO HaS2]
  · isplitr; · iexact Hrec
    isplitl [HcS2]; · iexact HcS2
    isplitl [HO]; · iexact HO
    iexact HaS2
  iintro ⟨HO, HzS2, Hq2⟩
  -- the wait for the landing in slot 2: the row of the device 2 places before
  iapply (step_wait_recv m ρ K c 2 (by decide) rfl (srcM := slotM 0) (dstM := slotM 2) rfl (insert (SemLoc.dma (sendS 2), ()) (insert (SemLoc.dma (recvS 1), ()) (insert (SemLoc.dma (sendS 1), ()) (insert (SemLoc.reg barS, ()) W))))) $$ [HcR2 HO HaR2]
  · isplitr; · iexact Hrec
    isplitl [HcR2]; · iexact HcR2
    isplitl [HO]; · iexact HO
    iexact HaR2
  iintro ⟨HO, HzR2, Hr2⟩
  -- the wait for copy 3's source: its share of slot 0 is back
  iapply (step_wait_send m ρ K c 3 (by decide) rfl (srcM := slotM 3) (dstM := slotM 0) rfl (insert (SemLoc.dma (recvS 2), ()) (insert (SemLoc.dma (sendS 2), ()) (insert (SemLoc.dma (recvS 1), ()) (insert (SemLoc.dma (sendS 1), ()) (insert (SemLoc.reg barS, ()) W)))))) $$ [HcS3 HO HaS3]
  · isplitr; · iexact Hrec
    isplitl [HcS3]; · iexact HcS3
    isplitl [HO]; · iexact HO
    iexact HaS3
  iintro ⟨HO, HzS3, Hq3⟩
  -- the wait for the landing in slot 3: the row of the device 3 places before
  iapply (step_wait_recv m ρ K c 3 (by decide) rfl (srcM := slotM 0) (dstM := slotM 3) rfl (insert (SemLoc.dma (sendS 3), ()) (insert (SemLoc.dma (recvS 2), ()) (insert (SemLoc.dma (sendS 2), ()) (insert (SemLoc.dma (recvS 1), ()) (insert (SemLoc.dma (sendS 1), ()) (insert (SemLoc.reg barS, ()) W))))))) $$ [HcR3 HO HaR3]
  · isplitr; · iexact Hrec
    isplitl [HcR3]; · iexact HcR3
    isplitl [HO]; · iexact HO
    iexact HaR3
  iintro ⟨HO, HzR3, Hr3⟩
  -- the wait for copy 4's source: its share of slot 0 is back
  iapply (step_wait_send m ρ K c 4 (by decide) rfl (srcM := slotM 4) (dstM := slotM 0) rfl (insert (SemLoc.dma (recvS 3), ()) (insert (SemLoc.dma (sendS 3), ()) (insert (SemLoc.dma (recvS 2), ()) (insert (SemLoc.dma (sendS 2), ()) (insert (SemLoc.dma (recvS 1), ()) (insert (SemLoc.dma (sendS 1), ()) (insert (SemLoc.reg barS, ()) W)))))))) $$ [HcS4 HO HaS4]
  · isplitr; · iexact Hrec
    isplitl [HcS4]; · iexact HcS4
    isplitl [HO]; · iexact HO
    iexact HaS4
  iintro ⟨HO, HzS4, Hq4⟩
  -- the wait for the landing in slot 4: the row of the device 4 places before
  iapply (step_wait_recv m ρ K c 4 (by decide) rfl (srcM := slotM 0) (dstM := slotM 4) rfl (insert (SemLoc.dma (sendS 4), ()) (insert (SemLoc.dma (recvS 3), ()) (insert (SemLoc.dma (sendS 3), ()) (insert (SemLoc.dma (recvS 2), ()) (insert (SemLoc.dma (sendS 2), ()) (insert (SemLoc.dma (recvS 1), ()) (insert (SemLoc.dma (sendS 1), ()) (insert (SemLoc.reg barS, ()) W))))))))) $$ [HcR4 HO HaR4]
  · isplitr; · iexact Hrec
    isplitl [HcR4]; · iexact HcR4
    isplitl [HO]; · iexact HO
    iexact HaR4
  iintro ⟨HO, HzR4, Hr4⟩
  -- the wait for copy 5's source: its share of slot 0 is back
  iapply (step_wait_send m ρ K c 5 (by decide) rfl (srcM := slotM 5) (dstM := slotM 0) rfl (insert (SemLoc.dma (recvS 4), ()) (insert (SemLoc.dma (sendS 4), ()) (insert (SemLoc.dma (recvS 3), ()) (insert (SemLoc.dma (sendS 3), ()) (insert (SemLoc.dma (recvS 2), ()) (insert (SemLoc.dma (sendS 2), ()) (insert (SemLoc.dma (recvS 1), ()) (insert (SemLoc.dma (sendS 1), ()) (insert (SemLoc.reg barS, ()) W)))))))))) $$ [HcS5 HO HaS5]
  · isplitr; · iexact Hrec
    isplitl [HcS5]; · iexact HcS5
    isplitl [HO]; · iexact HO
    iexact HaS5
  iintro ⟨HO, HzS5, Hq5⟩
  -- the wait for the landing in slot 5: the row of the device 5 places before
  iapply (step_wait_recv m ρ K c 5 (by decide) rfl (srcM := slotM 0) (dstM := slotM 5) rfl (insert (SemLoc.dma (sendS 5), ()) (insert (SemLoc.dma (recvS 4), ()) (insert (SemLoc.dma (sendS 4), ()) (insert (SemLoc.dma (recvS 3), ()) (insert (SemLoc.dma (sendS 3), ()) (insert (SemLoc.dma (recvS 2), ()) (insert (SemLoc.dma (sendS 2), ()) (insert (SemLoc.dma (recvS 1), ()) (insert (SemLoc.dma (sendS 1), ()) (insert (SemLoc.reg barS, ()) W))))))))))) $$ [HcR5 HO HaR5]
  · isplitr; · iexact Hrec
    isplitl [HcR5]; · iexact HcR5
    isplitl [HO]; · iexact HO
    iexact HaR5
  iintro ⟨HO, HzR5, Hr5⟩
  -- the wait for copy 6's source: its share of slot 0 is back
  iapply (step_wait_send m ρ K c 6 (by decide) rfl (srcM := slotM 6) (dstM := slotM 0) rfl (insert (SemLoc.dma (recvS 5), ()) (insert (SemLoc.dma (sendS 5), ()) (insert (SemLoc.dma (recvS 4), ()) (insert (SemLoc.dma (sendS 4), ()) (insert (SemLoc.dma (recvS 3), ()) (insert (SemLoc.dma (sendS 3), ()) (insert (SemLoc.dma (recvS 2), ()) (insert (SemLoc.dma (sendS 2), ()) (insert (SemLoc.dma (recvS 1), ()) (insert (SemLoc.dma (sendS 1), ()) (insert (SemLoc.reg barS, ()) W)))))))))))) $$ [HcS6 HO HaS6]
  · isplitr; · iexact Hrec
    isplitl [HcS6]; · iexact HcS6
    isplitl [HO]; · iexact HO
    iexact HaS6
  iintro ⟨HO, HzS6, Hq6⟩
  -- the wait for the landing in slot 6: the row of the device 6 places before
  iapply (step_wait_recv m ρ K c 6 (by decide) rfl (srcM := slotM 0) (dstM := slotM 6) rfl (insert (SemLoc.dma (sendS 6), ()) (insert (SemLoc.dma (recvS 5), ()) (insert (SemLoc.dma (sendS 5), ()) (insert (SemLoc.dma (recvS 4), ()) (insert (SemLoc.dma (sendS 4), ()) (insert (SemLoc.dma (recvS 3), ()) (insert (SemLoc.dma (sendS 3), ()) (insert (SemLoc.dma (recvS 2), ()) (insert (SemLoc.dma (sendS 2), ()) (insert (SemLoc.dma (recvS 1), ()) (insert (SemLoc.dma (sendS 1), ()) (insert (SemLoc.reg barS, ()) W))))))))))))) $$ [HcR6 HO HaR6]
  · isplitr; · iexact Hrec
    isplitl [HcR6]; · iexact HcR6
    isplitl [HO]; · iexact HO
    iexact HaR6
  iintro ⟨HO, HzR6, Hr6⟩
  -- the wait for copy 7's source: its share of slot 0 is back
  iapply (step_wait_send m ρ K c 7 (by decide) rfl (srcM := slotM 7) (dstM := slotM 0) rfl (insert (SemLoc.dma (recvS 6), ()) (insert (SemLoc.dma (sendS 6), ()) (insert (SemLoc.dma (recvS 5), ()) (insert (SemLoc.dma (sendS 5), ()) (insert (SemLoc.dma (recvS 4), ()) (insert (SemLoc.dma (sendS 4), ()) (insert (SemLoc.dma (recvS 3), ()) (insert (SemLoc.dma (sendS 3), ()) (insert (SemLoc.dma (recvS 2), ()) (insert (SemLoc.dma (sendS 2), ()) (insert (SemLoc.dma (recvS 1), ()) (insert (SemLoc.dma (sendS 1), ()) (insert (SemLoc.reg barS, ()) W)))))))))))))) $$ [HcS7 HO HaS7]
  · isplitr; · iexact Hrec
    isplitl [HcS7]; · iexact HcS7
    isplitl [HO]; · iexact HO
    iexact HaS7
  iintro ⟨HO, HzS7, Hq7⟩
  -- the wait for the landing in slot 7: the row of the device 7 places before
  iapply (step_wait_recv m ρ K c 7 (by decide) rfl (srcM := slotM 0) (dstM := slotM 7) rfl (insert (SemLoc.dma (sendS 7), ()) (insert (SemLoc.dma (recvS 6), ()) (insert (SemLoc.dma (sendS 6), ()) (insert (SemLoc.dma (recvS 5), ()) (insert (SemLoc.dma (sendS 5), ()) (insert (SemLoc.dma (recvS 4), ()) (insert (SemLoc.dma (sendS 4), ()) (insert (SemLoc.dma (recvS 3), ()) (insert (SemLoc.dma (sendS 3), ()) (insert (SemLoc.dma (recvS 2), ()) (insert (SemLoc.dma (sendS 2), ()) (insert (SemLoc.dma (recvS 1), ()) (insert (SemLoc.dma (sendS 1), ()) (insert (SemLoc.reg barS, ()) W))))))))))))))) $$ [HcR7 HO HaR7]
  · isplitr; · iexact Hrec
    isplitl [HcR7]; · iexact HcR7
    isplitl [HO]; · iexact HO
    iexact HaR7
  iintro ⟨HO, HzR7, Hr7⟩
  -- the shares of slot 0 together again, then the eight slots
  ihave Hs0 : slotPts c 0 fullShare (comm m ρ c) $$ [Hq1 Hq2 Hq3 Hq4 Hq5 Hq6 Hq7]
  · iapply (share_split c (comm m ρ c)).2
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    iexact Hq7
  ihave Hscr : scrPts c (comm m ρ c) $$ [Hs0 Hr1 Hr2 Hr3 Hr4 Hr5 Hr6 Hr7]
  · iapply (scr_split c (comm m ρ c)).2
    isplitl [Hs0]; · iexact Hs0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    iexact Hr7
  -- the two semaphores of slot 0 were never used
  imod (close_zero m ρ K c) $$ [HaS0 HaR0] with ⟨HzS0, HzR0⟩
  · isplitr; · iexact Hrec
    isplitl [HaS0]; · iexact HaS0
    iexact HaR0
  -- the eight slots are read whole and their sum stored into the result: again three local steps
  unfold scrPts
  ihave Hout : ((oM : Memref sig .tc .vmem S1x256 .f32).view.loc (c : Thread nD τ) ↦[Finset.univ]{fullShare} g1) $$ [Hout]
  · iexact Hout
  set_option sl_exec.maxSteps 3 in sl_exec
  rw [read_all, writes_out, wp_ret]; imodintro
  iapply Hk
  unfold bodyPost Φ₁ Dat.owesAt Pipeline.owesWithin
  rw [show (dats m ρ 0 c).owed t₀.succ = 0 from rfl]
  simp only [bigSep_F8]
  isplitl [Hscr HzS0 HzR0 HzS1 HzR1 HzS2 HzR2 HzS3 HzR3 HzS4 HzR4 HzS5 HzR5 HzS6 HzR6 HzS7 HzR7]
  · isplitl [Hscr]; · unfold scrPts; iexact Hscr
    isplitl [HzS0 HzR0]
    · isplitl [HzS0]; · iexact HzS0
      iexact HzR0
    isplitl [HzS1 HzR1]
    · isplitl [HzS1]; · iexact HzS1
      iexact HzR1
    isplitl [HzS2 HzR2]
    · isplitl [HzS2]; · iexact HzS2
      iexact HzR2
    isplitl [HzS3 HzR3]
    · isplitl [HzS3]; · iexact HzS3
      iexact HzR3
    isplitl [HzS4 HzR4]
    · isplitl [HzS4]; · iexact HzS4
      iexact HzR4
    isplitl [HzS5 HzR5]
    · isplitl [HzS5]; · iexact HzS5
      iexact HzR5
    isplitl [HzS6 HzR6]
    · isplitl [HzS6]; · iexact HzS6
      iexact HzR6
    isplitl [HzS7]; · iexact HzS7
    iexact HzR7
  isplitl [HO]
  · iexists (insert (SemLoc.dma (recvS 7), ()) (insert (SemLoc.dma (sendS 7), ()) (insert (SemLoc.dma (recvS 6), ()) (insert (SemLoc.dma (sendS 6), ()) (insert (SemLoc.dma (recvS 5), ()) (insert (SemLoc.dma (sendS 5), ()) (insert (SemLoc.dma (recvS 4), ()) (insert (SemLoc.dma (sendS 4), ()) (insert (SemLoc.dma (recvS 3), ()) (insert (SemLoc.dma (sendS 3), ()) (insert (SemLoc.dma (recvS 2), ()) (insert (SemLoc.dma (sendS 2), ()) (insert (SemLoc.dma (recvS 1), ()) (insert (SemLoc.dma (sendS 1), ()) (insert (SemLoc.reg barS, ()) W)))))))))))))))
    isplitr; · ipureintro; exact Set.subset_union_of_subset_left (Set.subset_univ _) _
    iexact HO
  isplitl [Hx]
  · iexists _; isplitr; · (ipureintro; rfl)
    iexact Hx
  iexists _; isplitr; · (ipureintro; rfl)
  iexact Hout

/-- info: 'Cert.KernelHand.sound_body' depends on axioms: [propext, Classical.choice, Quot.sound] -/
#guard_msgs in #print axioms sound_body

end Cert.KernelHand
end
-- ==== Proof.KernelLaunchGhost.lean ====
/-
  The protocol's ghost state at launch: minted for every cell of every device at once, the cells' invariants allocated, and
  each duty's token dealt to the device that pays it.
-/
import proofs.«901093_g7700000000001094_dist_sum_ax0_shard0_i_m512_n256_v7x_i8_f32_1_alg».proof.Proof.KernelProto

noncomputable section

namespace Cert.KernelHand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the minted tokens, indexed -/

theorem csem_injective : Function.Injective (csem : Fin 17 → SemLoc sig) := by decide

theorem kcell_injective : Function.Injective (kcell : Dev nD × Fin 17 → GSem nD τ sig) := by
  rintro ⟨c, j⟩ ⟨c', j'⟩ h
  have h1 : c = c' := by have := congrArg (fun g : GSem nD τ sig => g.1.1) h; exact this
  subst h1
  have h2 : csem j = csem j' := congrArg Prod.snd h
  rw [csem_injective h2]
def ringCells : Finset (GSem nD τ sig) := Finset.univ.map ⟨kcell, kcell_injective⟩

/-- The semaphore and the duty of a minted token: kind 0 is a barrier's duty k, kind 1 the k-th send cell's one duty,
    kind 2 the k-th receive cell's. -/
def tokKey (tk : Fin 3 × Fin 8) : SemLoc sig × Fin 8 :=
  match tk.1 with
  | 0 => (.reg barS, tk.2)
  | 1 => (.dma (sendS tk.2), 0)
  | 2 => (.dma (recvS tk.2), 0)

theorem tokKey_injective : Function.Injective tokKey := by decide

/-- A device's own cells' duty tokens as minted: its barrier's seven, its seven send cells' and its seven receive cells',
    named by the kind and a slot other than 0. -/
def tokOf (cj : Dev nD × Fin 3 × {k : Fin 8 // k ≠ 0}) : GSem nD τ sig × ℕ × Fin 8 :=
  (((cj.1 : Thread nD τ), (tokKey (cj.2.1, cj.2.2.1)).1), 0, (tokKey (cj.2.1, cj.2.2.1)).2)
theorem tokOf_injective : Function.Injective (tokOf : Dev nD × Fin 3 × {k : Fin 8 // k ≠ 0} → GSem nD τ sig × ℕ × Fin 8) := by
  rintro ⟨c, t, k⟩ ⟨c', t', k'⟩ h
  have h1 : c = c' := congrArg (fun x : GSem nD τ sig × ℕ × Fin 8 => x.1.1.1) h
  subst h1
  have h2 : tokKey (t, k.1) = tokKey (t', k'.1) :=
    Prod.ext (congrArg (fun x : GSem nD τ sig × ℕ × Fin 8 => x.1.2) h) (congrArg (fun x : GSem nD τ sig × ℕ × Fin 8 => x.2.2) h)
  have h3 := tokKey_injective h2
  have ht : t = t' := congrArg Prod.fst h3
  have hk : k = k' := Subtype.ext (congrArg Prod.snd h3)
  subst ht; subst hk; rfl
def ringToks : Finset (GSem nD τ sig × ℕ × Fin 8) := Finset.univ.map ⟨tokOf, tokOf_injective⟩

def u₀ : UU :=
  (initOf (Pipeline.cells cfgs cellOf_inj) (Pipeline.launchToks cfgs cellOf_inj), initOf ringCells ringToks)

/-- The duty tokens of device c's own cells. -/
def toks (c : Dev nD) : sProp 𝕄 :=
  iprop((bigSep K7 fun k => dutyTok ER (barCell c) 0 k) ∗ (bigSep K7 fun k => dutyTok ER (sendCell c k) 0 0)
    ∗ (bigSep K7 fun k => dutyTok ER (recvCell c k) 0 0))

/-- What the launch element deals device c. -/
def G (c : Dev nD) : sProp 𝕄 :=
  iprop((bigSep Finset.univ fun j : Fin 17 => roundState ER (Rd m ρ) (kcell (c, j)) 0)
    ∗ (bigSep Finset.univ fun j : Fin 17 => iprop(atPos ER (kcell (c, j)) 0 ∅ 0 ∗ reached ER (kcell (c, j)) 0)) ∗ toks c)

/-- What the global step makes of it. -/
def G' (c : Dev nD) : sProp 𝕄 := iprop(∃ K, ghost m ρ K c)

/-! ## Minting -/

theorem bigSep_fin3 (Φ : Fin 3 → sProp 𝕄) : bigSep Finset.univ Φ = iprop(Φ 0 ∗ Φ 1 ∗ Φ 2) :=
  bigSep_univ_eq_bigSepL [0, 1, 2] (by decide) (by decide) Φ

/-- One update mints every cell's round state, position and reached-mark and every duty's token, grouped by device. -/
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun j : Fin 17 => Φ (kcell (c, j)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks
    rw [← bigSep_subtype_ne 0 (fun k : Fin 8 => (dutyTok ER (barCell c) 0 k : sProp 𝕄)),
      ← bigSep_subtype_ne 0 (fun k : Fin 8 => (dutyTok ER (sendCell c k) 0 0 : sProp 𝕄)),
      ← bigSep_subtype_ne 0 (fun k : Fin 8 => (dutyTok ER (recvCell c k) 0 0 : sProp 𝕄)),
      bigSep_univ_prod, bigSep_fin3]
    rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The launch element funds the pipeline's cells and deals every device its part. -/
theorem hu₀ : (ownU (u₀ : UU) : sProp 𝕄)
    ⊢ |={Set.univ}=> iprop(BI.own (EP (initOf (Pipeline.cells cfgs cellOf_inj) (Pipeline.launchToks cfgs cellOf_inj))) ∗ bigSep Finset.univ (G m ρ)) := by
  unfold u₀
  iintro Hu
  ihave H := (ownU_pair _ _) $$ Hu
  icases H with ⟨HP, HX⟩
  imod (fund_ring m ρ) $$ HX with HG
  imodintro
  isplitl [HP] <;> iassumption

/-! ## The global step -/

/-- The mesh turned by j places. -/
def turn (j : Fin 8) : Dev nD ≃ Dev nD := ⟨fun c => peer c j, fun c => src c j, fun c => src_peer c j, fun c => peer_src c j⟩

/-- A device's seventeen cells are its barrier cell, its eight send cells and its eight receive cells. -/
theorem bigSep_cells (c : Dev nD) (Φ : GSem nD τ sig → sProp 𝕄) :
    (bigSep Finset.univ fun j : Fin 17 => Φ (kcell (c, j)))
      = iprop(Φ (barCell c) ∗ (bigSep Finset.univ fun k : Fin 8 => Φ (sendCell c k)) ∗ bigSep Finset.univ fun k : Fin 8 => Φ (recvCell c k)) := by
  rw [show (Finset.univ : Finset (Fin 17)) = insert jBar (Finset.univ.image jSend ∪ Finset.univ.image jRecv) from by decide,
    bigSep_insert (by decide), bigSep_union (by decide),
    bigSep_image_of_injOn (fun a _ b _ h => by revert a b; decide),
    bigSep_image_of_injOn (fun a _ b _ h => by revert a b; decide),
    bigSep_congr (s := Finset.univ) (fun (k : Fin 8) _ => congrArg Φ (kcell_send c k)),
    bigSep_congr (s := Finset.univ) (fun (k : Fin 8) _ => congrArg Φ (kcell_recv c k))]
  rfl

/-- The cells after the barrier's are the kernel's own sixteen semaphores, in the launch's order. -/
theorem csem_succ (k : Fin 16) : csem k.succ = osem k := by revert k; decide

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : Fin 17 => semVal (kcell (c, j)) 0 : sProp 𝕄) := by
  have e : (bigSep Finset.univ fun j : Fin 17 => semVal (kcell (c, j)) 0 : sProp 𝕄)
      = iprop(semVal (barCell c) 0 ∗ Pipeline.ownSems0 (Ix := Unit) (Name := ℕ) (U := UU) (Lvl := ℕ) (Val := Elt F) (τ := τ) osem c) := by
    rw [bigSep_univ_at _ (0 : Fin 17), show (Finset.univ.erase (0 : Fin 17)) = Finset.univ.map (Fin.succEmb 16) from by decide, bigSep_map]
    unfold Pipeline.ownSems0
    rw [bigSep_congr (s := Finset.univ) (fun (k : Fin 16) _ =>
      show (semVal (kcell (c, (Fin.succEmb 16) k)) 0 : sProp 𝕄) = semVal ((c : Thread nD τ), osem k) 0 from by
        show semVal ((c : Thread nD τ), csem k.succ) 0 = _; rw [csem_succ])]
    rfl
  rw [e, unscopedSems0_eq]
  iintro ⟨HS, HB⟩
  isplitl [HB] <;> iassumption

/-- On one device: every cell's counter at zero beside its round state becomes the cell's invariant at some name. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun j => iprop(∃ κ : ℕ, cellInv ER (Rd m ρ) κ (kcell (c, j))))
          ∗ (bigSep Finset.univ fun j => iprop(atPos ER (kcell (c, j)) 0 ∅ 0 ∗ reached ER (kcell (c, j)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun j : Fin 17 => semVal (kcell (c, j)) 0) ∗ bigSep Finset.univ fun j : Fin 17 => roundState ER (Rd m ρ) (kcell (c, j)) 0)
      ⊢ (|={Set.univ}=> bigSep Finset.univ fun j => iprop(∃ κ : ℕ, cellInv ER (Rd m ρ) κ (kcell (c, j))) : sProp 𝕄) from by
        rw [← bigSep_sep']
        exact (bigSep_mono fun j _ => (Rounds.body_intro ER (Rd m ρ) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

/-- Iterated sums over two finite sets commute. -/
theorem bigSep_finset_comm {I J : Type} [DecidableEq I] (s : Finset I) (t : Finset J) (Φ : I → J → sProp 𝕄) :
    (bigSep s fun i => bigSep t fun j => Φ i j) = bigSep t fun j => bigSep s fun i => Φ i j := by
  induction s using Finset.induction_on with
  | empty => simp only [bigSep_empty, bigSep_emp_const]
  | insert a s ha ih =>
    rw [bigSep_insert ha, ih, ← bigSep_sep]
    exact bigSep_congr fun j _ => (bigSep_insert (Φ := fun i => Φ i j) ha).symm

/-- A family over the devices and the slots other than 0, read at the device k places on instead: the same family. -/
theorem bigSep_turn (Φ : Dev nD → Fin 8 → sProp 𝕄) :
    (bigSep Finset.univ fun c : Dev nD => bigSep K7 fun k => Φ c k) = bigSep Finset.univ fun c : Dev nD => bigSep K7 fun k => Φ (peer c k) k := by
  rw [bigSep_finset_comm, bigSep_finset_comm Finset.univ K7 (fun c k => Φ (peer c k) k)]
  exact bigSep_congr fun k _ => bigSep_univ_equiv (turn k) (fun c => Φ c k)

/-- A family over the slots other than 0, read at the opposite slot: the same family. -/
theorem bigSep_neg (Ψ : Fin 8 → sProp 𝕄) : bigSep K7 Ψ = bigSep K7 fun j => Ψ (neg j) := by
  rw [← bigSep_image_of_injOn (f := neg) (s := K7) (fun a _ b _ h => by revert a b; decide) Ψ]
  exact congrArg (fun s => bigSep s Ψ) (by decide)

/-- The tokens dealt round the mesh: a barrier's token of duty k to the device k places on, which pays it as its opposite
    slot's; a receive cell's token to the device whose copy lands there; a send cell's stays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_turn (fun c k => (dutyTok ER (recvCell c k) 0 0 : sProp 𝕄)),
    bigSep_congr (s := Finset.univ) (fun (c : Dev nD) _ => bigSep_neg (fun k => (dutyTok ER (barCell c) 0 k : sProp 𝕄))),
    bigSep_turn (fun c j => (dutyTok ER (barCell c) 0 (neg j) : sProp 𝕄))]
  iintro ⟨H1, H2, H3⟩
  isplitl [H1]; · iexact H1
  isplitl [H3] <;> iassumption

theorem positions_intro (c : Dev nD) : (bigSep Finset.univ fun j : Fin 17 => (atPos ER (kcell (c, j)) 0 ∅ 0 : sProp 𝕄)) ⊢ positions c :=
  Entails.of_eq (by unfold positions; exact bigSep_cells c (fun g => (atPos ER g 0 ∅ 0 : sProp 𝕄)))

theorem ghost_intro (K : Dev nD × Fin 17 → ℕ) (c : Dev nD) : iprop(records m ρ K ∗ positions c ∗ payToks c) ⊢ G' m ρ c := by
  unfold G' ghost
  iintro H
  iexists K
  iexact H

/-- Every device's invariants, positions and own cells' tokens together: the names gathered into one function, the
    invariants and reached-marks (persistent) given to every device, the tokens dealt round. -/
theorem regroup :
    (bigSep Finset.univ fun c : Dev nD => iprop((bigSep Finset.univ fun j => iprop(∃ κ : ℕ, cellInv ER (Rd m ρ) κ (kcell (c, j))))
          ∗ (bigSep Finset.univ fun j => iprop(atPos ER (kcell (c, j)) 0 ∅ 0 ∗ reached ER (kcell (c, j)) 0)) ∗ toks c) : sProp 𝕄)
      ⊢ bigSep Finset.univ (G' m ρ) := by
  rw [bigSep_sep', bigSep_sep', ← bigSep_univ_prod (fun ck : Dev nD × Fin 17 => iprop(∃ κ : ℕ, cellInv ER (Rd m ρ) κ (kcell ck))),
    bigSep_congr (s := Finset.univ) (fun (c : Dev nD) _ => bigSep_sep' Finset.univ (fun j : Fin 17 => (atPos ER (kcell (c, j)) 0 ∅ 0 : sProp 𝕄)) (fun j => reached ER (kcell (c, j)) 0)),
    bigSep_sep', ← bigSep_univ_prod (fun ck : Dev nD × Fin 17 => (reached ER (kcell ck) 0 : sProp 𝕄))]
  iintro ⟨HI, ⟨Hat, #HR⟩, Htok⟩
  ihave HK := (BI.bigSep_exists_pi Finset.univ (fun (ck : Dev nD × Fin 17) (κ : ℕ) => (cellInv ER (Rd m ρ) κ (kcell ck) : sProp 𝕄))) $$ HI
  icases HK with ⟨%K, #HI⟩
  ihave Htk := (toks_around (F := F)) $$ Htok
  iapply (BI.bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun j : Fin 17 => (atPos ER (kcell (c, j)) 0 ∅ 0 : sProp 𝕄)) payToks).symm).trans
      (bigSep_mono fun c _ => sep_mono_left (positions_intro (F := F) c)))
    isplitl [Hat]; · iexact Hat
    iexact Htk

/-- The global step: the own and the unscoped semaphores of every device at once become the cells' invariants, and the
    tokens go to their payers. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-- info: 'Cert.KernelHand.hu₀' depends on axioms: [propext, Classical.choice, Quot.sound] -/
#guard_msgs in #print axioms hu₀

/-- info: 'Cert.KernelHand.glob' depends on axioms: [propext, Classical.choice, Quot.sound] -/
#guard_msgs in #print axioms glob

end Cert.KernelHand
end
-- ==== Proof.KernelLaunchCred.lean ====
/-
  The credit a device is launched with: what all devices together owe its cells — seven units on its barrier, one copy's
  credit on each of its seven receive cells.
-/
import proofs.«901093_g7700000000001094_dist_sum_ax0_shard0_i_m512_n256_v7x_i8_f32_1_alg».proof.Proof.KernelProto

noncomputable section

namespace Cert.KernelHand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a list of dues is at one cell -/

omit [FloatOps F] in
/-- The tally of a list of dues, read at a cell: the amounts of the entries on that cell, added up. -/
private theorem tallyOf_apply (l : List (GSem nD τ sig × ℕ)) (g : GSem nD τ sig) :
    tallyOf l g () = (l.map fun p => if g = p.1 then p.2 else 0).sum := by
  induction l with
  | nil => rfl
  | cons p l ih =>
    obtain ⟨g', a⟩ := p
    show (tallyOf l + tallyAt g' () a) g () = _
    rw [Pi.add_apply, Finsupp.add_apply, tallyAt_apply, ih, List.map_cons, List.sum_cons, Nat.add_comm]
    congr 1
    by_cases h : g = g'
    · rw [if_pos ⟨h, rfl⟩, if_pos h]
    · rw [if_neg (fun h' => h h'.1), if_neg h]

/-! ## When two of the mesh's cells are the same cell -/

omit [FloatOps F] in
private theorem bar_eq_iff {a b : Dev nD} : Iff (barCell a = barCell b) (a = b) :=
  ⟨fun h => Fin.ext (congrArg (fun g : GSem nD τ sig => g.1.1.val) h), fun h => h ▸ rfl⟩

omit [FloatOps F] in
private theorem recvS_inj {k j : Fin 8} : Iff (recvS k = recvS j) (k = j) := by revert k j; decide

omit [FloatOps F] in
private theorem recv_eq_iff {a b : Dev nD} {k j : Fin 8} : Iff (recvCell a k = recvCell b j) (a = b ∧ k = j) :=
  ⟨fun h => ⟨Fin.ext (congrArg (fun g : GSem nD τ sig => g.1.1.val) h),
      recvS_inj.mp (SemLoc.dma.inj (congrArg Prod.snd h))⟩, fun h => by rw [h.1, h.2]⟩

omit [FloatOps F] in
private theorem bar_ne_recv (a b : Dev nD) (k : Fin 8) : barCell a ≠ recvCell b k := fun h => recv_ne_bar k (congrArg Prod.snd h).symm
omit [FloatOps F] in
private theorem recv_ne_bar' (a b : Dev nD) (k : Fin 8) : recvCell a k ≠ barCell b := fun h => recv_ne_bar k (congrArg Prod.snd h)

/-! ## What one device owes another's cells -/

omit [FloatOps F] in
/-- What device d owes device c's barrier cell: one unit for each of its seven signals that addresses c. -/
private theorem owed_bar (d c : Dev nD) :
    O₀ d (barCell c) () = (if c = peer d 1 then 1 else 0) + ((if c = peer d 2 then 1 else 0) + ((if c = peer d 3 then 1 else 0)
      + ((if c = peer d 4 then 1 else 0) + ((if c = peer d 5 then 1 else 0) + ((if c = peer d 6 then 1 else 0) + (if c = peer d 7 then 1 else 0)))))) := by
  unfold O₀ Oafter owedList
  rw [List.drop_zero, tallyOf_apply]
  simp only [List.map_cons, List.map_nil, List.sum_cons, List.sum_nil, bar_eq_iff, bar_ne_recv, if_false, Nat.add_zero]

/-- An amount under a condition is the condition's unit, that many times. -/
private theorem ite_amount (p : Prop) [Decidable p] (n : ℕ) : (if p then n else 0) = (if p then 1 else 0) * n := by
  split
  · rw [Nat.one_mul]
  · rw [Nat.zero_mul]

omit [FloatOps F] in
/-- What device d owes device c's k-th receive cell: one copy's credit for each of its seven copies that lands in slot k of c. -/
private theorem owed_recv (d c : Dev nD) (k : Fin 8) :
    O₀ d (recvCell c k) () = ((if c = peer d 1 ∧ k = 1 then 1 else 0) + ((if c = peer d 2 ∧ k = 2 then 1 else 0) + ((if c = peer d 3 ∧ k = 3 then 1 else 0)
      + ((if c = peer d 4 ∧ k = 4 then 1 else 0) + ((if c = peer d 5 ∧ k = 5 then 1 else 0) + ((if c = peer d 6 ∧ k = 6 then 1 else 0) + (if c = peer d 7 ∧ k = 7 then 1 else 0))))))) * N := by
  unfold O₀ Oafter owedList
  rw [List.drop_zero, tallyOf_apply]
  simp only [List.map_cons, List.map_nil, List.sum_cons, List.sum_nil, recv_eq_iff, recv_ne_bar', if_false, Nat.add_zero, Nat.zero_add]
  simp only [ite_amount _ N, ← Nat.add_mul]

/-! ## What the whole mesh owes one device's cells -/

omit [FloatOps F] in
/-- Each of the seven other devices signals c's barrier once. -/
private theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

omit [FloatOps F] in
/-- Exactly one device, the one k places before c, copies into slot k of c. -/
private theorem launch_recv (c : Dev nD) {k : Fin 8} (hk : k ≠ 0) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k, ← Finset.sum_mul]
  refine (congrArg (· * N) ?_).trans (Nat.one_mul N)
  revert c k; decide

/-! ## The credit tokens -/

/-- The receive semaphores among a device's semaphore locations. -/
private def recvLoc : Fin 8 ↪ SemLoc sig := ⟨fun k => .dma (recvS k), fun k j h => recvS_inj.mp (SemLoc.dma.inj h)⟩

theorem creds (c : Dev nD) : (Pipeline.launchCred O₀ c : sProp 𝕄) ⊢ startCred c := by
  unfold Pipeline.launchCred startCred
  rw [bigSep_univ_at _ (SemLoc.reg barS), launch_bar]
  refine sep_mono_right ?_
  have hsub : K7.map recvLoc ⊆ Finset.univ.erase (SemLoc.reg barS) := fun sm h => by
    obtain ⟨k, _, rfl⟩ := Finset.mem_map.mp h
    exact Finset.mem_erase.mpr ⟨recv_ne_bar k, Finset.mem_univ _⟩
  refine (bigSep_subset hsub).trans ?_
  rw [bigSep_map]
  refine Entails.of_eq (bigSep_congr fun k hk => ?_)
  show cred (tallyOn (recvCell c k) (launchCredit (Pipeline.owing O₀) 0 (recvCell c k))) = _
  rw [launch_recv c (Finset.mem_erase.mp hk).1]

/-- info: 'Cert.KernelHand.creds' depends on axioms: [propext, Classical.choice, Quot.sound] -/
#guard_msgs in #print axioms creds

end Cert.KernelHand
end
-- ==== Proof.KernelLaunchRun.lean ====
/-
  The launch: every device's body proved, the eight kernels run to the end, and what the arrays hold then.
-/
import proofs.«901093_g7700000000001094_dist_sum_ax0_shard0_i_m512_n256_v7x_i8_f32_1_alg».proof.Proof.KernelBody
import proofs.«901093_g7700000000001094_dist_sum_ax0_shard0_i_m512_n256_v7x_i8_f32_1_alg».proof.Proof.KernelLaunchGhost
import proofs.«901093_g7700000000001094_dist_sum_ax0_shard0_i_m512_n256_v7x_i8_f32_1_alg».proof.Proof.KernelLaunchCred

noncomputable section

namespace Cert.KernelHand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem bigSep_W (Φ : Fin cfg0.W → sProp 𝕄) : bigSep Finset.univ Φ = iprop(Φ (0 : Fin 2) ∗ Φ (1 : Fin 2)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body obligation -/

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device c: the body's precondition under the names the launch chose. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hc, Hlev⟩, Hscr⟩, Ho, Hx, Hout⟩
  iapply (sound_body m ρ K c fun _ => bodyPost m ρ c)
  unfold bodyPre
  isplitr []
  · isplitl [Hg Hc Hlev Hscr]
    · isplitl [Hg]; · iexact Hg
      isplitl [Hc]; · iexact Hc
      isplitl [Hlev]; · iexact Hlev
      iexact Hscr
    isplitl [Ho]; · iexact Ho
    isplitl [Hx] <;> iassumption
  · iintro H; iexact H

/-! ## The launch theorem's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

omit [FloatOps F] in
theorem scr_set : (rM : Memref sig .tc .vmem S8x1x256 .f32).view.set = Finset.univ := View.set_whole _
omit [FloatOps F] in
theorem scrPts_eq (c : Dev nD) (f : Buf (Elt F) ((c : Thread nD τ).loc cc0_scratch0)) :
    scrPts c f = (((c : Thread nD τ).loc cc0_scratch0) ↦{fullShare} f : sProp 𝕄) := by unfold scrPts; rw [scr_set]

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; rw [scrPts_eq]; iexact Hr

omit [FloatOps F] in
/-- The sixteen own semaphores, in the launch theorem's order, are the eight send and the eight receive semaphores. -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0 ∗ semVal (sendCell c 3) 0
        ∗ semVal (sendCell c 4) 0 ∗ semVal (sendCell c 5) 0 ∗ semVal (sendCell c 6) 0 ∗ semVal (sendCell c 7) 0
        ∗ semVal (recvCell c 0) 0 ∗ semVal (recvCell c 1) 0 ∗ semVal (recvCell c 2) 0 ∗ semVal (recvCell c 3) 0
        ∗ semVal (recvCell c 4) 0 ∗ semVal (recvCell c 5) 0 ∗ semVal (recvCell c 6) 0 ∗ semVal (recvCell c 7) 0) := by
  rw [Pipeline.ownSems0_eq_of_list c osem [0, 1, 2, 3, 4, 5, 6, 7, 8, 9, 10, 11, 12, 13, 14, 15] (by decide) (by decide)]; rfl

omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁
  rw [bigSep_fin8]
  iintro ⟨Hr, ⟨S0, R0⟩, ⟨S1, R1⟩, ⟨S2, R2⟩, ⟨S3, R3⟩, ⟨S4, R4⟩, ⟨S5, R5⟩, ⟨S6, R6⟩, ⟨S7, R7⟩⟩
  isplitr; · iempintro
  isplitr [Hr]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [R0]; · iexact R0
    isplitl [R1]; · iexact R1
    isplitl [R2]; · iexact R2
    isplitl [R3]; · iexact R3
    isplitl [R4]; · iexact R4
    isplitl [R5]; · iexact R5
    isplitl [R6]; · iexact R6
    iexact R7
  iexists (comm m ρ c); rw [← scrPts_eq]; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, for any float values, from any memory with zero counters: every weakly fair
    execution of the eight kernels terminates, and every final state has each device's two arrays at the computed contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := hu₀ m ρ)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-! ## What the arrays hold in the end -/

/-- x is an input: it holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array's one block, the whole array, read back is what the body left in its staging buffer. -/
theorem finalA_o (c : Dev nD) :
    (win0_1.blk (0 : Fin 1)).view.read (Elt F) (finalA m ρ c (1 : Fin 2)) = outAt m ρ c := by
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  exact View.read_write_univ _ _

/-- From any memory with zero counters every weakly fair execution of the eight kernels terminates, each device's result
    holding the sum of its eight slots and its block of x unchanged. -/
theorem run : θ_run defs (onTc (τ := τ) (main (F := F))) ⟨m, fun _ => 0, ρ⟩ (fun r => ∀ c : Dev nD,
    r.2.mem ((c.tc : Thread nD τ).loc main_v1) = outAt m ρ c
    ∧ r.2.mem ((c.tc : Thread nD τ).loc main_arg0) = m ((c.tc : Thread nD τ).loc main_arg0)) := by
  refine (θ_run defs _ _).mono (fun _ h c => ⟨(h c (1 : Fin 2)).trans ?_, (h c (0 : Fin 2)).trans (finalA_x m ρ c)⟩) (run_main m ρ)
  -- the result window's one block is the whole buffer at block index 0: reading it reads the buffer
  have hz : (fun a => (win0_1.index (0 : Fin 1)) a * main_v1.ty.shape.size a) = fun _ => 0 :=
    funext fun a => by fin_cases a <;> decide
  have hr := fun f => Memref.read_access_unit_zero (Elt F) main_v1 hz (fun a => by fin_cases a <;> decide) f
  have ho := finalA_o m ρ c
  rw [hr] at ho
  exact ho

end Cert.KernelHand
end
-- ==== Proof.KernelIdealProto.lean ====
/-
  The protocol of the eight-device column sum, stated once for any float instance.

  Every device c sums the 512 rows of its block into slot 0 of its 8-slot scratch buffer, tells each of the seven other
  devices (one unit on their barrier semaphore) that it is inside the kernel, waits for the seven units the others send it,
  copies slot 0 into slot k of device c + k (mod 8) for k = 1 … 7, each copy on its own pair of DMA semaphores, waits for its
  seven sends and the seven landings in its own slots, and adds the eight slots up. Slot k of device c therefore ends holding
  the row sum of device c - k, and the eight slots together every device's row sum exactly once.

  Ownership: the unit device c + k sends to c's barrier carries device (c + k)'s slot k, which c's k-th copy then fills; the
  copy's landing hands the filled slot back to its owner on that owner's k-th receive semaphore, and the part of slot 0 the
  copy read comes back to c on its k-th send semaphore.
-/
import proofs.«901093_g7700000000001094_dist_sum_ax0_shard0_i_m512_n256_v7x_i8_f32_1_alg».proof.Proof.Gen.KernelIdeal
import proofs.«901093_g7700000000001094_dist_sum_ax0_shard0_i_m512_n256_v7x_i8_f32_1_alg».proof.Proof.Gen.KernelIdeal.Skeleton
import proofs.«901093_g7700000000001094_dist_sum_ax0_shard0_i_m512_n256_v7x_i8_f32_1_alg».proof.Proof.Gen.KernelIdeal.Launch
import Idealize.ShloMosaic.Lib.Pipeline.Launch
import Idealize.ShloMosaic.Lib.Pipeline.Kit
import Idealize.ShloMosaic.Lib.Tactic
import Idealize.ShloMosaic.Lib.ValueIdx

noncomputable section

namespace Cert.KernelIdealHand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's, whose duties are named by a slot number -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore at zero. -/
def s₀ : MemSt nD τ sig (Elt F) := ⟨m, fun _ => 0, ρ⟩

/-! ## The mesh as the integers mod 8 -/

/-- The device k places after c. -/
def peer (c : Dev nD) (k : Fin 8) : Dev nD := ⟨(c.val + k.val) % 8, Nat.mod_lt _ (by decide)⟩
/-- The device k places before c: the one whose k-th copy lands in c's slot k. -/
def src (c : Dev nD) (k : Fin 8) : Dev nD := ⟨(c.val + 8 - k.val) % 8, Nat.mod_lt _ (by decide)⟩

theorem src_peer (c : Dev nD) (k : Fin 8) : src (peer c k) k = c := by revert c k; decide
theorem peer_src (c : Dev nD) (k : Fin 8) : peer (src c k) k = c := by revert c k; decide
theorem peer_zero (c : Dev nD) : peer c 0 = c := by revert c; decide
theorem src_zero (c : Dev nD) : src c 0 = c := by revert c; decide

/-- The seven signals address c + 1 … c + 7, and so do the seven copies. -/
theorem dev1_eq (c : Dev nD) : (⟨k0_dev1 c, k0_dev1_lt c⟩ : Dev nD) = peer c 1 := by revert c; decide +kernel
theorem dev2_eq (c : Dev nD) : (⟨k0_dev2 c, k0_dev2_lt c⟩ : Dev nD) = peer c 2 := by revert c; decide +kernel
theorem dev3_eq (c : Dev nD) : (⟨k0_dev3 c, k0_dev3_lt c⟩ : Dev nD) = peer c 3 := by revert c; decide +kernel
theorem dev4_eq (c : Dev nD) : (⟨k0_dev4 c, k0_dev4_lt c⟩ : Dev nD) = peer c 4 := by revert c; decide +kernel
theorem dev5_eq (c : Dev nD) : (⟨k0_dev5 c, k0_dev5_lt c⟩ : Dev nD) = peer c 5 := by revert c; decide +kernel
theorem dev6_eq (c : Dev nD) : (⟨k0_dev6 c, k0_dev6_lt c⟩ : Dev nD) = peer c 6 := by revert c; decide +kernel
theorem dev7_eq (c : Dev nD) : (⟨k0_dev7 c, k0_dev7_lt c⟩ : Dev nD) = peer c 7 := by revert c; decide +kernel
theorem dev8_eq (c : Dev nD) : (⟨k0_dev8 c, k0_dev8_lt c⟩ : Dev nD) = peer c 1 := by revert c; decide +kernel
theorem dev9_eq (c : Dev nD) : (⟨k0_dev9 c, k0_dev9_lt c⟩ : Dev nD) = peer c 2 := by revert c; decide +kernel
theorem dev10_eq (c : Dev nD) : (⟨k0_dev10 c, k0_dev10_lt c⟩ : Dev nD) = peer c 3 := by revert c; decide +kernel
theorem dev11_eq (c : Dev nD) : (⟨k0_dev11 c, k0_dev11_lt c⟩ : Dev nD) = peer c 4 := by revert c; decide +kernel
theorem dev12_eq (c : Dev nD) : (⟨k0_dev12 c, k0_dev12_lt c⟩ : Dev nD) = peer c 5 := by revert c; decide +kernel
theorem dev13_eq (c : Dev nD) : (⟨k0_dev13 c, k0_dev13_lt c⟩ : Dev nD) = peer c 6 := by revert c; decide +kernel
theorem dev14_eq (c : Dev nD) : (⟨k0_dev14 c, k0_dev14_lt c⟩ : Dev nD) = peer c 7 := by revert c; decide +kernel

/-! ## The memrefs, the slots and the semaphores -/

abbrev xM : Memref sig .tc .vmem S512x256 .f32 := Memref.whole cc0_stg0_0
abbrev oM : Memref sig .tc .vmem S1x256 .f32 := Memref.whole cc0_stg1_0
abbrev rM : Memref sig .tc .vmem S8x1x256 .f32 := Memref.whole cc0_scratch0

/-- Row k of the scratch buffer lies inside it. -/
theorem slot_inb (k : Fin 8) : ∀ a, (![k.val, 0, 0] : Fin 3 → Nat) a + S1x1x256.size a ≤ S8x1x256.size a := by
  intro a; have := k.isLt; fin_cases a <;> simp <;> omega

/-- Slot k of the scratch buffer, as the kernel slices it for a copy: one row of 256. -/
abbrev slotM (k : Fin 8) : Memref sig .tc .vmem S1x256 .f32 :=
  (rM.slice (Rect.unit (s := S8x1x256) ![k.val, 0, 0] S1x1x256.size (slot_inb k)) (fun _ => rfl)).squeeze S1x256 Facts₀.squeezes_S1x1x256_S1x256

/-- The kernel's literal slices are these. -/
theorem slot0_eq : ((rM.slice (Rect.unit (s := S8x1x256) ![0, 0, 0] S1x1x256.size Facts₀.inb_S8x1x256_S1x1x256_0_0_0) (fun _ => rfl)).squeeze S1x256 Facts₀.squeezes_S1x1x256_S1x256) = slotM 0 := rfl
theorem slot1_eq : ((rM.slice (Rect.unit (s := S8x1x256) ![1, 0, 0] S1x1x256.size Facts₀.inb_S8x1x256_S1x1x256_1_0_0) (fun _ => rfl)).squeeze S1x256 Facts₀.squeezes_S1x1x256_S1x256) = slotM 1 := rfl
theorem slot7_eq : ((rM.slice (Rect.unit (s := S8x1x256) ![7, 0, 0] S1x1x256.size Facts₀.inb_S8x1x256_S1x1x256_7_0_0) (fun _ => rfl)).squeeze S1x256 Facts₀.squeezes_S1x1x256_S1x256) = slotM 7 := rfl

/-- The runtime's barrier semaphore (not scoped to the launch), and the k-th send and receive DMA semaphores. -/
abbrev barS : Sem sig := (SemArray.scalar (sig.barrier 0 rfl) : Sems sig S_).sem
def sendS (k : Fin 8) : DmaSem sig := ⟨2 + k.val, by have := k.isLt; show 2 + k.val < 18; omega⟩
def recvS (k : Fin 8) : DmaSem sig := ⟨10 + k.val, by have := k.isLt; show 10 + k.val < 18; omega⟩

abbrev barCell (c : Dev nD) : GSem nD τ sig := ((c : Thread nD τ), .reg barS)
abbrev sendCell (c : Dev nD) (k : Fin 8) : GSem nD τ sig := ((c : Thread nD τ), .dma (sendS k))
abbrev recvCell (c : Dev nD) (k : Fin 8) : GSem nD τ sig := ((c : Thread nD τ), .dma (recvS k))

/-- What one copy credits its two semaphores. -/
abbrev N : ℕ := (slotM 1).view.dmaCredit
theorem N_pos : 0 < N := View.dmaCredit_pos _ (by decide)

/-! ## Contents -/

/-- Device c's block of x, as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- Device c's row of column sums over its 512 rows. -/
def part (c : Dev nD) : FVec F S1x1x256 .f32 := k0_pay2 (k0_pay1 (xstg m ρ c))

/-- What device c's scratch buffer holds in the end: slot k is the row of device c - k. -/
def comm (c : Dev nD) : Buf (Elt F) ((c : Thread nD τ).loc cc0_scratch0) :=
  fun i => part m ρ (src c (i 0)) (ValueIdx.ix3 (0 : Fin 1) (0 : Fin 1) (i 2))

/-- Device c's result: the sum of its eight slots. -/
def outAt (c : Dev nD) : (cc0_stg1_0 : Ref sig .tc).ty.Contents (Elt F) := k0_pay3 (comm m ρ c)

/-- Elements of slot k of device c's scratch buffer, at share q and contents f. -/
def slotPts (c : Dev nD) (k : Fin 8) (q : PosShare TreeShare) (f : Buf (Elt F) ((slotM k).view.loc (c : Thread nD τ))) : sProp 𝕄 :=
  (slotM k).view.loc (c : Thread nD τ) ↦[(slotM k).view.set]{q} f

def xPts (c : Dev nD) : sProp 𝕄 :=
  (xM : Memref sig .tc .vmem S512x256 .f32).view.loc (c : Thread nD τ) ↦[(xM : Memref sig .tc .vmem S512x256 .f32).view.set]{fullShare} xstg m ρ c

def scrPts (c : Dev nD) (f : Buf (Elt F) ((rM : Memref sig .tc .vmem S8x1x256 .f32).view.loc (c : Thread nD τ))) : sProp 𝕄 :=
  (rM : Memref sig .tc .vmem S8x1x256 .f32).view.loc (c : Thread nD τ) ↦[(rM : Memref sig .tc .vmem S8x1x256 .f32).view.set]{fullShare} f

omit [FloatOps F] in
instance slotPts_storable (c : Dev nD) (k : Fin 8) (q) (f) : BI.Storable (upEmb : UEmb _ 𝕄) (slotPts (F := F) c k q f) := by unfold slotPts; infer_instance
omit [FloatOps F] in
instance scrPts_storable (c : Dev nD) (f) : BI.Storable (upEmb : UEmb _ 𝕄) (scrPts (F := F) c f) := by unfold scrPts; infer_instance
omit [FloatOps F] in
instance xPts_storable (c : Dev nD) : BI.Storable (upEmb : UEmb _ 𝕄) (xPts (F := F) m ρ c) := by unfold xPts; infer_instance

/-! ## The shares slot 0 is read at: seven copies read it at once, each at its own part of the full share -/

/-- What is left of the full share after the first n copies have taken theirs. -/
def rem : ℕ → PosShare TreeShare
  | 0 => fullShare
  | n + 1 => (rem n).right
/-- The share copy k reads slot 0 at: the left half of what the earlier copies left, and the seventh all that is left. -/
def shr (k : Fin 8) : PosShare TreeShare := if k.val = 7 then rem 6 else (rem (k.val - 1)).left

/-! ## The schedule -/

/-- Which copy a semaphore belongs to: whether it is a receive semaphore, and its slot. -/
def xferOf : SemLoc sig → Option (Bool × Fin 8)
  | .dma q => if h : 2 ≤ q.val ∧ q.val < 10 then some (false, ⟨q.val - 2, by omega⟩)
              else if h' : 10 ≤ q.val ∧ q.val < 18 then some (true, ⟨q.val - 10, by omega⟩) else none
  | .reg _ => none

theorem xferOf_send (k : Fin 8) : xferOf (.dma (sendS k)) = some (false, k) := by revert k; decide
theorem xferOf_recv (k : Fin 8) : xferOf (.dma (recvS k)) = some (true, k) := by revert k; decide
theorem xferOf_bar : xferOf (.reg barS) = none := rfl

/-- The negative of j mod 8. Device c's j-th unit goes to device c + j, from which c sits 8 - j places on: it pays that
    barrier's duty 8 - j and carries c's slot 8 - j. -/
def neg (j : Fin 8) : Fin 8 := ⟨(8 - j.val) % 8, Nat.mod_lt _ (by decide)⟩
theorem peer_peer_neg (c : Dev nD) (j : Fin 8) : peer (peer c j) (neg j) = c := by revert c j; decide
theorem neg_neg (j : Fin 8) : neg (neg j) = j := by revert j; decide
theorem neg_ne_zero {j : Fin 8} (h : j ≠ 0) : neg j ≠ 0 := by revert j; decide

/-- What device c + k's unit on c's barrier hands c: device (c + k)'s slot k, and that its k-th receive semaphore is at round 0. -/
def barPay (c : Dev nD) (k : Fin 8) : sProp 𝕄 :=
  iprop((∃ f, slotPts (peer c k) k fullShare f) ∗ reached ER (recvCell (peer c k) k) 0)
/-- The k-th send semaphore returns the part of slot 0 the copy read. -/
def sendPay (c : Dev nD) (k : Fin 8) : sProp 𝕄 := slotPts c 0 (shr k) (comm m ρ c)
/-- The k-th receive semaphore delivers slot k, holding device c - k's row. -/
def recvPay (c : Dev nD) (k : Fin 8) : sProp 𝕄 := slotPts c k fullShare (comm m ρ c)

abbrev IsBar (g : GSem nD τ sig) : Prop := g.1.2 = .tc ∧ g.2 = .reg barS

/-- One round. A barrier cell has the seven duties 1 … 7 of one unit each, duty k paid by the device k places on; the k-th
    send and receive cells (k ≠ 0) the one duty 0 of a copy's credit. -/
def Rd : Rounds.Schedule (GSem nD τ sig) (Fin 8) 𝕄 where
  duties g r := if r = 0 ∧ g.1.2 = .tc then
      (if g.2 = .reg barS then Finset.univ.erase 0 else
        match xferOf g.2 with
        | some (_, k) => if k = 0 then ∅ else {0}
        | none => ∅)
    else ∅
  unitless _ := False
  amount g _ _ := if g.2 = .reg barS then 1 else N
  payload g _ d :=
    if g.2 = .reg barS then barPay g.1.1 d
    else match xferOf g.2 with
      | some (false, k) => sendPay m ρ g.1.1 k
      | some (true, k) => recvPay m ρ g.1.1 k
      | none => iprop(emp)
  amount_pos g _ _ _ := by
    by_cases h : g.2 = .reg barS
    · rw [if_pos h]; exact Nat.one_pos
    · rw [if_neg h]; exact N_pos

instance Rd_payload_storable (g : GSem nD τ sig) (r : ℕ) (d : Fin 8) :
    BI.Storable (upEmb : UEmb _ 𝕄) ((Rd (F := F) m ρ).payload g r d) := by
  show BI.Storable upEmb (if g.2 = .reg barS then barPay g.1.1 d
    else match xferOf g.2 with
      | some (false, k) => sendPay m ρ g.1.1 k
      | some (true, k) => recvPay m ρ g.1.1 k
      | none => iprop(emp))
  unfold barPay sendPay recvPay
  (repeat' split) <;> infer_instance

/-! ## The schedule's tables -/

/-- The slots other than 0. -/
abbrev K7 : Finset (Fin 8) := Finset.univ.erase 0

section Sched
variable (c : Dev nD)

theorem send_ne_bar (k : Fin 8) : (SemLoc.dma (sendS k) : SemLoc sig) ≠ .reg barS := fun h => by cases h
theorem recv_ne_bar (k : Fin 8) : (SemLoc.dma (recvS k) : SemLoc sig) ≠ .reg barS := fun h => by cases h

theorem duties_bar : (Rd (F := F) m ρ).duties (barCell c) 0 = K7 := by
  dsimp only [Rd]; rw [if_pos ⟨rfl, rfl⟩, if_pos rfl]
theorem duties_send {k : Fin 8} (hk : k ≠ 0) : (Rd (F := F) m ρ).duties (sendCell c k) 0 = {0} := by
  dsimp only [Rd]; rw [if_pos ⟨rfl, rfl⟩, if_neg (send_ne_bar k), xferOf_send]; exact if_neg hk
theorem duties_recv {k : Fin 8} (hk : k ≠ 0) : (Rd (F := F) m ρ).duties (recvCell c k) 0 = {0} := by
  dsimp only [Rd]; rw [if_pos ⟨rfl, rfl⟩, if_neg (recv_ne_bar k), xferOf_recv]; exact if_neg hk
theorem duties_send0 (r : ℕ) : (Rd (F := F) m ρ).duties (sendCell c 0) r = ∅ := by
  dsimp only [Rd]; split
  · rw [if_neg (send_ne_bar 0), xferOf_send]; exact if_pos rfl
  · rfl
theorem duties_recv0 (r : ℕ) : (Rd (F := F) m ρ).duties (recvCell c 0) r = ∅ := by
  dsimp only [Rd]; split
  · rw [if_neg (recv_ne_bar 0), xferOf_recv]; exact if_pos rfl
  · rfl
theorem duties_later (g : GSem nD τ sig) : ∀ r, 1 ≤ r → (Rd (F := F) m ρ).duties g r = ∅ :=
  fun r hr => by dsimp only [Rd]; rw [if_neg fun h => by omega]

theorem amount_bar (d : Fin 8) : (Rd (F := F) m ρ).amount (barCell c) 0 d = 1 := by dsimp only [Rd]; exact if_pos rfl
theorem amount_send (k d : Fin 8) : (Rd (F := F) m ρ).amount (sendCell c k) 0 d = N := by dsimp only [Rd]; exact if_neg (send_ne_bar k)
theorem amount_recv (k d : Fin 8) : (Rd (F := F) m ρ).amount (recvCell c k) 0 d = N := by dsimp only [Rd]; exact if_neg (recv_ne_bar k)

theorem expect_bar : (Rd (F := F) m ρ).expect (barCell c) 0 = 7 := by
  unfold Schedule.expect Schedule.amountOf
  rw [duties_bar, Finset.sum_congr rfl fun d _ => amount_bar m ρ c d, Finset.sum_const, smul_eq_mul]; decide
theorem expect_send {k : Fin 8} (hk : k ≠ 0) : (Rd (F := F) m ρ).expect (sendCell c k) 0 = N := by
  unfold Schedule.expect Schedule.amountOf; rw [duties_send m ρ c hk, Finset.sum_singleton, amount_send]
theorem expect_recv {k : Fin 8} (hk : k ≠ 0) : (Rd (F := F) m ρ).expect (recvCell c k) 0 = N := by
  unfold Schedule.expect Schedule.amountOf; rw [duties_recv m ρ c hk, Finset.sum_singleton, amount_recv]

theorem payload_bar (d : Fin 8) : (Rd (F := F) m ρ).payload (barCell c) 0 d = barPay c d := by dsimp only [Rd]; rw [if_pos rfl]
theorem payload_send (k d : Fin 8) : (Rd (F := F) m ρ).payload (sendCell c k) 0 d = sendPay m ρ c k := by
  dsimp only [Rd]; rw [if_neg (send_ne_bar k), xferOf_send]
theorem payload_recv (k d : Fin 8) : (Rd (F := F) m ρ).payload (recvCell c k) 0 d = recvPay m ρ c k := by
  dsimp only [Rd]; rw [if_neg (recv_ne_bar k), xferOf_recv]

end Sched

/-! ## What each device owes at launch, in the order it pays; the levels -/

def tallyOf : List (GSem nD τ sig × ℕ) → CellTallies nD τ sig Unit
  | [] => 0
  | (g, a) :: rest => tallyOf rest + tallyAt g () a

/-- Seven barrier units, to c + 1 … c + 7, then seven copies' credits on those devices' receive cells. -/
def owedList (c : Dev nD) : List (GSem nD τ sig × ℕ) :=
  [(barCell (peer c 1), 1), (barCell (peer c 2), 1), (barCell (peer c 3), 1), (barCell (peer c 4), 1),
   (barCell (peer c 5), 1), (barCell (peer c 6), 1), (barCell (peer c 7), 1),
   (recvCell (peer c 1) 1, N), (recvCell (peer c 2) 2, N), (recvCell (peer c 3) 3, N), (recvCell (peer c 4) 4, N),
   (recvCell (peer c 5) 5, N), (recvCell (peer c 6) 6, N), (recvCell (peer c 7) 7, N)]

/-- What device c still owes after its first n payments. -/
def Oafter (c : Dev nD) (n : ℕ) : CellTallies nD τ sig Unit := tallyOf ((owedList c).drop n)
def O₀ (c : Dev nD) : CellTallies nD τ sig Unit := Oafter c 0

def L (g : GSem nD τ sig) : Finset Unit := if g.1.2 = .tc then {()} else ∅
/-- Barrier cells at 1, receive cells at 2, everything else (staging, send) at 0: a device waits on its barrier while it
    owes receive credits only, and on DMA semaphores owing nothing. -/
def lv (g : GSem nD τ sig) (_ : Unit) : ℕ :=
  if g.2 = .reg barS then 1 else match xferOf g.2 with | some (true, _) => 2 | _ => 0

theorem L_of_ne (g : GSem nD τ sig) (h : g.1.2 ≠ .tc) : L g = ∅ := if_neg h
theorem L_tc (c : Dev nD) (sm : SemLoc sig) : L ((c : Thread nD τ), sm) = {()} := if_pos rfl

/-! ## The cells, indexed -/

/-- A device's seventeen cells: its barrier, its eight send and its eight receive semaphores. -/
def csem (j : Fin 17) : SemLoc sig :=
  if h : j.val = 0 then .reg barS
  else if h' : j.val < 9 then .dma (sendS ⟨j.val - 1, by omega⟩)
  else .dma (recvS ⟨j.val - 9, by have := j.isLt; omega⟩)
abbrev kcell (ck : Dev nD × Fin 17) : GSem nD τ sig := ((ck.1 : Thread nD τ), csem ck.2)
def jBar : Fin 17 := 0
def jSend (k : Fin 8) : Fin 17 := ⟨1 + k.val, by have := k.isLt; omega⟩
def jRecv (k : Fin 8) : Fin 17 := ⟨9 + k.val, by have := k.isLt; omega⟩
theorem csem_bar : csem jBar = .reg barS := rfl
theorem csem_send (k : Fin 8) : csem (jSend k) = .dma (sendS k) := by revert k; decide
theorem csem_recv (k : Fin 8) : csem (jRecv k) = .dma (recvS k) := by revert k; decide
theorem kcell_bar (c : Dev nD) : kcell (c, jBar) = barCell c := rfl
theorem kcell_send (c : Dev nD) (k : Fin 8) : kcell (c, jSend k) = sendCell c k := by show (_, _) = (_, _); rw [csem_send]
theorem kcell_recv (c : Dev nD) (k : Fin 8) : kcell (c, jRecv k) = recvCell c k := by show (_, _) = (_, _); rw [csem_recv]

/-! ## The ghost state a device's body starts from -/

/-- Every cell's invariant under the name the launch gave it, and that every cell is at round 0 (both persistent). -/
def records (K : Dev nD × Fin 17 → ℕ) : sProp 𝕄 :=
  iprop((bigSep Finset.univ fun ck : Dev nD × Fin 17 => cellInv ER (Rd m ρ) (K ck) (kcell ck))
    ∗ bigSep Finset.univ fun ck : Dev nD × Fin 17 => reached ER (kcell ck) 0)

instance records_persistent (K : Dev nD × Fin 17 → ℕ) : BI.Persistent (records m ρ K) := by unfold records; infer_instance

/-- The tokens of the duties device c pays: on c + j's barrier the duty named by the slot of c it hands over, on c + k's
    k-th receive cell the copy's, on its own k-th send cell the copy's. -/
def payToks (c : Dev nD) : sProp 𝕄 :=
  iprop((bigSep K7 fun j => dutyTok ER (barCell (peer c j)) 0 (neg j))
    ∗ (bigSep K7 fun k => dutyTok ER (recvCell (peer c k) k) 0 0)
    ∗ (bigSep K7 fun k => dutyTok ER (sendCell c k) 0 0))

/-- Device c's position on each of its own cells: round 0, nothing taken. -/
def positions (c : Dev nD) : sProp 𝕄 :=
  iprop(atPos ER (barCell c) 0 ∅ 0
    ∗ (bigSep Finset.univ fun k : Fin 8 => atPos ER (sendCell c k) 0 ∅ 0)
    ∗ (bigSep Finset.univ fun k : Fin 8 => atPos ER (recvCell c k) 0 ∅ 0))

def ghost (K : Dev nD × Fin 17 → ℕ) (c : Dev nD) : sProp 𝕄 := iprop(records m ρ K ∗ positions c ∗ payToks c)

/-- The credit device c waits with: seven units on its barrier, one copy's credit on each receive cell. -/
def startCred (c : Dev nD) : sProp 𝕄 :=
  iprop(cred (tallyAt (barCell c) () 7) ∗ bigSep K7 fun k => cred (tallyAt (recvCell c k) () N))

def start (c : Dev nD) : sProp 𝕄 := iprop((∃ K, ghost m ρ K c) ∗ startCred c ∗ levAts L lv)

def Φ₀ (c : Dev nD) : sProp 𝕄 := iprop(start m ρ c ∗ ∃ f, scrPts c f)
/-- After the body: the scratch buffer whole at its final contents, the sixteen own semaphores back at zero. -/
def Φ₁ (c : Dev nD) : sProp 𝕄 :=
  iprop(scrPts c (comm m ρ c) ∗ bigSep Finset.univ fun k : Fin 8 => iprop(semVal (sendCell c k) 0 ∗ semVal (recvCell c k) 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body of device c starts from, at the names K the launch allocated the cells' invariants at. -/
def bodyPre (K : Dev nD × Fin 17 → ℕ) (c : Dev nD) : sProp 𝕄 :=
  iprop((ghost m ρ K c ∗ startCred c ∗ levAts L lv ∗ ∃ f, scrPts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- What it ends with: nothing owed, x's staging buffer as it was, the result's holding the sum of the eight slots. -/
def bodyPost (c : Dev nD) : sProp 𝕄 :=
  iprop(Φ₁ m ρ c ∗ (dats m ρ 0 c).owesAt () t₀.succ ∗ stg c cc0_stg0_0 (xstg m ρ c) ∗ stg c cc0_stg1_0 (outAt m ρ c))

/-! ## The kernel's own semaphores, as the launch theorem indexes them: the eight send, then the eight receive semaphores -/

abbrev osem : Fin 16 → SemLoc sig := fun j => .dma ⟨2 + j.val, by have := j.isLt; show 2 + j.val < 18; omega⟩
theorem ownSemFacts : Pipeline.OwnSemFacts cfg0.spec osem := by decide

end Cert.KernelIdealHand
end
-- ==== Proof.KernelIdealLevels.lean ====
/-
  Who may wait on what: a device waits on its barrier while all it still owes is receive credit, which sits above the
  barrier; the pipeline's staging semaphores sit below everything a device ever owes.
-/
import proofs.«901093_g7700000000001094_dist_sum_ax0_shard0_i_m512_n256_v7x_i8_f32_1_alg».proof.Proof.KernelIdealProto

noncomputable section

namespace Cert.KernelIdealHand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Where a list of dues is positive -/

omit [FloatOps F] in
/-- A cell at which a list of dues is positive is the cell of one of its entries: what holds of every entry's cell holds of it. -/
private theorem tallyOf_pos {P : GSem nD τ sig → Prop} {l : List (GSem nD τ sig × ℕ)} (hl : ∀ p ∈ l, P p.1)
    {g : GSem nD τ sig} {u : Unit} (h : 0 < tallyOf l g u) : P g := by
  induction l with
  | nil => exact absurd h (Nat.lt_irrefl 0)
  | cons p l ih =>
    obtain ⟨g', a⟩ := p
    have h' : 0 < tallyOf l g u + tallyAt g' () a g u := h
    rcases Nat.add_pos_iff_pos_or_pos.mp h' with h1 | h2
    · exact ih (fun p hp => hl p (List.mem_cons_of_mem _ hp)) h1
    · rw [tallyAt_apply] at h2
      by_cases hg : g = g' ∧ u = ()
      · rw [hg.1]; exact hl (g', a) List.mem_cons_self
      · rw [if_neg hg] at h2; exact absurd h2 (Nat.lt_irrefl 0)

/-! ## The levels of the cells a device owes -/

omit [FloatOps F] in
private theorem lv_bar (a : Dev nD) : lv (barCell a) () = 1 := by dsimp only [lv]; rw [if_pos rfl]
omit [FloatOps F] in
private theorem lv_recv (a : Dev nD) (k : Fin 8) : lv (recvCell a k) () = 2 := by dsimp only [lv]; rw [if_neg (recv_ne_bar k), xferOf_recv]

omit [FloatOps F] in
private theorem due_bar (a : Dev nD) : () ∈ L (barCell a) ∧ 1 ≤ lv (barCell a) () :=
  ⟨by rw [L_tc]; exact Finset.mem_singleton_self _, by rw [lv_bar]⟩
omit [FloatOps F] in
private theorem due_recv (a : Dev nD) (k : Fin 8) : () ∈ L (recvCell a k) ∧ 2 ≤ lv (recvCell a k) () :=
  ⟨by rw [L_tc]; exact Finset.mem_singleton_self _, by rw [lv_recv]⟩

omit [FloatOps F] in
/-- Everything a device owes at launch sits on a barrier or a receive cell of a TensorCore: at level 1 or above. -/
private theorem O₀_due {c : Dev nD} {g : GSem nD τ sig} {u : Unit} (h : 0 < O₀ c g u) : u ∈ L g ∧ 1 ≤ lv g u := by
  cases u
  refine tallyOf_pos (P := fun g => () ∈ L g ∧ 1 ≤ lv g ()) (l := owedList c) (fun p hp => ?_) h
  simp only [owedList, List.mem_cons, List.mem_nil_iff, or_false] at hp
  rcases hp with rfl | rfl | rfl | rfl | rfl | rfl | rfl | rfl | rfl | rfl | rfl | rfl | rfl | rfl
  all_goals first
    | exact due_bar _
    | exact ⟨(due_recv _ _).1, Nat.le_of_succ_le (due_recv _ _).2⟩

omit [FloatOps F] in
/-- After its seven signals a device owes receive cells only: at level 2. -/
private theorem O₇_due {c : Dev nD} {g : GSem nD τ sig} {u : Unit} (h : 0 < Oafter c 7 g u) : u ∈ L g ∧ 2 ≤ lv g u := by
  cases u
  refine tallyOf_pos (P := fun g => () ∈ L g ∧ 2 ≤ lv g ()) (l := (owedList c).drop 7) (fun p hp => ?_) h
  simp only [owedList, List.drop_succ_cons, List.drop_zero, List.mem_cons, List.mem_nil_iff, or_false] at hp
  rcases hp with rfl | rfl | rfl | rfl | rfl | rfl | rfl
  all_goals exact due_recv _ _

/-! ## The waits -/

/-- The pipeline's own staging semaphores (level 0) may be waited on whatever of its launch debt a device still owes, or none. -/
theorem mayWait_stage (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · exact MayOwe.of_cut (L := L) (lev := lv) 0 (fun p hp => by rw [Finset.mem_singleton.mp hp, L_tc]; exact Finset.mem_singleton_self _)
      (fun g u hg => (O₀_due hg).1)
      (fun p hp => by rw [Finset.mem_singleton.mp hp]; exact Nat.le_of_eq hq)
      (fun g u hg => (O₀_due hg).2)
  · rw [MayWait_zero]; iintro -; iempintro

/-- At its barrier wait a device owes the seven receive credits only: receive cells, above its barrier cell. -/
theorem mayWait_bar (c : Dev nD) :
    (levAts L lv : sProp 𝕄) ⊢ MayWait (c : Thread nD τ) (.reg barS) () (Oafter c 7) :=
  MayOwe.of_cut (L := L) (lev := lv) 1 (fun p hp => by rw [Finset.mem_singleton.mp hp, L_tc]; exact Finset.mem_singleton_self _)
    (fun g u hg => (O₇_due hg).1)
    (fun p hp => by rw [Finset.mem_singleton.mp hp]; exact Nat.le_of_eq (lv_bar c))
    (fun g u hg => (O₇_due hg).2)

/-- info: 'Cert.KernelIdealHand.mayWait_stage' depends on axioms: [propext, Classical.choice, Quot.sound] -/
#guard_msgs in #print axioms mayWait_stage

/-- info: 'Cert.KernelIdealHand.mayWait_bar' depends on axioms: [propext, Classical.choice, Quot.sound] -/
#guard_msgs in #print axioms mayWait_bar

end Cert.KernelIdealHand
end
-- ==== Proof.KernelIdealBodyLemmas.lean ====
/-
  The scratch buffer cut into its eight slots and put together again, slot 0 shared out among the seven copies that read
  it at once, and what a store into slot 0 and a copy's landing in slot k leave there.
-/
import proofs.«901093_g7700000000001094_dist_sum_ax0_shard0_i_m512_n256_v7x_i8_f32_1_alg».proof.Proof.KernelIdealProto

noncomputable section

namespace Cert.KernelIdealHand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The elements of a slot -/

/-- The elements of slot k are those of one row of the buffer. -/
theorem slot_set (k : Fin 8) :
    (slotM k).view.set = (Rect.unit (s := S8x1x256) ![k.val, 0, 0] S1x1x256.size (slot_inb k)).set := by
  simp only [Memref.view_squeeze, Memref.view_slice, Memref.view_whole, View.set_reshape, View.set_slice_whole]

/-- An element lies in slot k exactly when its first coordinate is k: the other two coordinates range over the whole row. -/
theorem mem_slot (k : Fin 8) (i : (slotM k).view.ty.Idx) : i ∈ (slotM k).view.set ↔ (i 0).val = k.val := by
  rw [slot_set, Rect.mem_set_unit]
  constructor
  · intro h; have := h 0; simp at this; omega
  · intro h a
    fin_cases a
    · simp; omega
    · have := (i 1).isLt; simp at this ⊢; omega
    · have := (i 2).isLt; simp at this ⊢; omega

theorem univ8 : (Finset.univ : Finset (Fin 8)) = {0, 1, 2, 3, 4, 5, 6, 7} := by decide

/-- The whole scratch buffer is its eight slots. -/
theorem scr_split (c : Dev nD) (f : Buf (Elt F) ((c : Thread nD τ).loc cc0_scratch0)) :
    (scrPts (F := F) c f : sProp 𝕄) ⊣⊢ iprop(slotPts c 0 fullShare f ∗ slotPts c 1 fullShare f ∗ slotPts c 2 fullShare f ∗ slotPts c 3 fullShare f
      ∗ slotPts c 4 fullShare f ∗ slotPts c 5 fullShare f ∗ slotPts c 6 fullShare f ∗ slotPts c 7 fullShare f) := by
  -- the slots are pairwise disjoint (different first coordinates) and every element lies in the slot its first coordinate names
  let K : Fin 8 → Finset (Idx ((rM : Memref sig .tc .vmem S8x1x256 .f32).view.loc (c : Thread nD τ))) := fun k => (slotM k).view.set
  have hu : (rM : Memref sig .tc .vmem S8x1x256 .f32).view.set = Finset.univ := View.set_whole _
  have hcov : (rM : Memref sig .tc .vmem S8x1x256 .f32).view.set = (Finset.univ : Finset (Fin 8)).biUnion K := by
    rw [hu]
    ext i
    simp only [Finset.mem_univ, Finset.mem_biUnion, true_and, true_iff]
    exact ⟨⟨(i 0).val, (i 0).isLt⟩, (mem_slot ⟨(i 0).val, (i 0).isLt⟩ i).mpr rfl⟩
  have hdisj : ∀ t ∈ (Finset.univ : Finset (Fin 8)), ∀ t' ∈ (Finset.univ : Finset (Fin 8)), t ≠ t' → Disjoint (K t) (K t') := by
    intro t _ t' _ htt
    rw [Finset.disjoint_left]; intro i h1 h2
    have e1 := (mem_slot t i).mp h1
    have e2 := (mem_slot t' i).mp h2
    exact htt (Fin.ext (e1.symm.trans e2))
  refine BIBase.BiEntails.of_eq ?_
  unfold scrPts
  rw [hcov, pointsTo_biUnion _ K hdisj, univ8]
  repeat rw [bigSep_insert (by decide)]
  rw [bigSep_singleton]
  rfl

/-- A points-to of slot 0 at a share is the same at the share's left and right halves. -/
theorem slot0_halve (c : Dev nD) (f : Buf (Elt F) ((c : Thread nD τ).loc cc0_scratch0)) (q : PosShare TreeShare) :
    (slotPts (F := F) c 0 q f : sProp 𝕄) = iprop(slotPts c 0 q.left f ∗ slotPts c 0 q.right f) := by
  unfold slotPts
  have h : ((slotM 0).view.loc (c : Thread nD τ) ↦[(slotM 0).view.set]{q} f : sProp 𝕄)
      ⊣⊢ iprop(((slotM 0).view.loc (c : Thread nD τ) ↦[(slotM 0).view.set]{q.left} f) ∗ (slotM 0).view.loc (c : Thread nD τ) ↦[(slotM 0).view.set]{q.right} f) :=
    pointsTo_share (PosShare.mem_left_op_right q)
  exact BI.equiv_iff.mp ⟨h.1, h.2⟩

/-- Slot 0 at the full share is its seven parts, one for each copy that reads it. -/
theorem share_split (c : Dev nD) (f : Buf (Elt F) ((c : Thread nD τ).loc cc0_scratch0)) :
    (slotPts (F := F) c 0 fullShare f : sProp 𝕄) ⊣⊢ iprop(slotPts c 0 (shr 1) f ∗ slotPts c 0 (shr 2) f ∗ slotPts c 0 (shr 3) f ∗ slotPts c 0 (shr 4) f
      ∗ slotPts c 0 (shr 5) f ∗ slotPts c 0 (shr 6) f ∗ slotPts c 0 (shr 7) f) := by
  -- the k-th share is the left half of what the first k - 1 halvings left, the seventh all that the first six left
  have e1 : shr 1 = fullShare.left := rfl
  have e2 : shr 2 = fullShare.right.left := rfl
  have e3 : shr 3 = fullShare.right.right.left := rfl
  have e4 : shr 4 = fullShare.right.right.right.left := rfl
  have e5 : shr 5 = fullShare.right.right.right.right.left := rfl
  have e6 : shr 6 = fullShare.right.right.right.right.right.left := rfl
  have e7 : shr 7 = fullShare.right.right.right.right.right.right := rfl
  refine BIBase.BiEntails.of_eq ?_
  rw [e1, e2, e3, e4, e5, e6, e7]
  rw [slot0_halve c f fullShare, slot0_halve c f fullShare.right, slot0_halve c f fullShare.right.right,
    slot0_halve c f fullShare.right.right.right, slot0_halve c f fullShare.right.right.right.right,
    slot0_halve c f fullShare.right.right.right.right.right]

/-- The rectangle of the kernel's store into slot 0 (and of the load before it). -/
abbrev r00 : Rect S8x1x256 := Rect.unit (s := S8x1x256) ![0, 0, 0] S1x1x256.size Facts₀.inb_S8x1x256_S1x1x256_0_0_0
/-- The rectangle of the final load: the whole buffer. -/
abbrev rAll : Rect S8x1x256 := Rect.unit (s := S8x1x256) ![0, 0, 0] S8x1x256.size Facts₀.inb_S8x1x256_S8x1x256_0_0_0

/-- The store's rectangle is slot 0. -/
theorem r00_set : ((rM : Memref sig .tc .vmem S8x1x256 .f32).access r00 : View sig .tc _ _ _).set = (slotM 0).view.set :=
  (View.set_reshape _ _).symm

/-! ## Where a slot's elements sit, and what the final contents hold there -/

/-- The final contents at an element whose first coordinate is k and whose column is that of the row index y:
    the row of the device k places before, at y. -/
theorem comm_at (c : Dev nD) (i : Idx ((c : Thread nD τ).loc cc0_scratch0)) (k : Fin 8) (y : S1x1x256.Idx)
    (h0 : (i 0).val = k.val) (h2 : (i 2).val = (y 2).val) : comm m ρ c i = part m ρ (src c k) y := by
  have hc : comm m ρ c i = part m ρ (src c (i 0)) (ValueIdx.ix3 (0 : Fin 1) (0 : Fin 1) (i 2)) := rfl
  have e0 : src c (i 0) = src c k := congrArg (src c) (Fin.ext h0)
  have ey : ValueIdx.ix3 (0 : Fin 1) (0 : Fin 1) (i 2) = y := by
    funext a; apply Fin.ext; fin_cases a
    · have := (y 0).isLt; simp at this ⊢; omega
    · have := (y 1).isLt; simp at this ⊢; omega
    · simpa using h2
  rw [hc, e0]
  exact congrArg (part m ρ (src c k)) ey

/-- The element of the buffer under the index z of row k: z moved k rows down. -/
theorem row_emb_val (k : Fin 8) (z : S1x1x256.Idx) (a : Fin 3) :
    ((((rM : Memref sig .tc .vmem S8x1x256 .f32).view.slice (Rect.unit (s := S8x1x256) ![k.val, 0, 0] S1x1x256.size (slot_inb k))).emb z) a).val
      = (![k.val, 0, 0] : Fin 3 → ℕ) a + (z a).val := by
  show (![k.val, 0, 0] : Fin 3 → ℕ) a + 1 * (z a).val = _
  rw [Nat.one_mul]

/-- An index of a slot names the same index of the row whichever slot it is read in: slot k puts it k rows down. -/
theorem slot_emb_val (x : S1x256.Idx) :
    ∃ z : S1x1x256.Idx, ∀ (k : Fin 8) (a : Fin 3), (((slotM k).view.emb x) a).val = (![k.val, 0, 0] : Fin 3 → ℕ) a + (z a).val :=
  ⟨Shape.reshapeEquiv (Shape.Squeezes.numel_eq Facts₀.squeezes_S1x1x256_S1x256) x, fun k a => row_emb_val k _ a⟩

/-- Storing device c's row into slot 0 leaves slot 0 at the final contents. -/
theorem store0_eq (c : Dev nD) (f : Buf (Elt F) ((c : Thread nD τ).loc cc0_scratch0)) :
    (slotPts (F := F) c 0 fullShare (((rM : Memref sig .tc .vmem S8x1x256 .f32).access r00 : View sig .tc _ _ _).write (Elt F) f (part m ρ c) Finset.univ) : sProp 𝕄)
      = slotPts c 0 fullShare (comm m ρ c) := by
  unfold slotPts
  refine pointsTo_congr fun i hi => ?_
  rw [← r00_set] at hi
  obtain ⟨y, -, rfl⟩ := Finset.mem_map.mp hi
  rw [View.write_emb_of_mem _ _ (Finset.mem_univ y)]
  -- the element under y has first coordinate 0 and y's column; the device 0 places before c is c
  have h0 : ((((rM : Memref sig .tc .vmem S8x1x256 .f32).access r00 : View sig .tc _ _ _).emb y) 0).val = (0 : Fin 8).val :=
    (row_emb_val 0 y 0).trans (by have := (y 0).isLt; simp at this ⊢; omega)
  have h2 : ((((rM : Memref sig .tc .vmem S8x1x256 .f32).access r00 : View sig .tc _ _ _).emb y) 2).val = (y 2).val :=
    (row_emb_val 0 y 2).trans (by simp)
  rw [comm_at m ρ c _ 0 y h0 h2, src_zero]
  exact cast_eq _ _

/-- Device c's slot 0 landing in slot k of device c + k leaves that slot at ITS final contents: it is the row of the device
    k places before c + k. -/
theorem landed_eq (c : Dev nD) (k : Fin 8) (fd : Buf (Elt F) ((slotM k).view.loc (peer c k : Thread nD τ))) :
    (slotPts (F := F) (peer c k) k fullShare ((slotM k).view.write (Elt F) fd ((slotM 0).view.read (Elt F) (comm m ρ c)) Finset.univ) : sProp 𝕄)
      = slotPts (peer c k) k fullShare (comm m ρ (peer c k)) := by
  unfold slotPts
  refine pointsTo_congr fun i hi => ?_
  obtain ⟨x, -, rfl⟩ := Finset.mem_map.mp hi
  rw [View.write_emb_of_mem _ _ (Finset.mem_univ x), View.read_apply]
  -- the index x names one column z; in slot 0 of c it holds c's row there, in slot k of c + k the row of the device k before c + k, which is c
  obtain ⟨z, hz⟩ := slot_emb_val x
  have h00 : (((slotM 0).view.emb x) 0).val = (0 : Fin 8).val := (hz 0 0).trans (by have := (z 0).isLt; simp at this ⊢; omega)
  have h02 : (((slotM 0).view.emb x) 2).val = (z 2).val := (hz 0 2).trans (by simp)
  have hk0 : (((slotM k).view.emb x) 0).val = k.val := (hz k 0).trans (by have := (z 0).isLt; simp at this ⊢; omega)
  have hk2 : (((slotM k).view.emb x) 2).val = (z 2).val := (hz k 2).trans (by simp)
  rw [comm_at m ρ c _ 0 z h00 h02, comm_at m ρ (peer c k) _ k z hk0 hk2, src_zero, src_peer, cast_cast]
  exact cast_eq _ _

/-- The final load reads the whole buffer. -/
theorem read_all (f : (cc0_scratch0 : Ref sig .tc).ty.Contents (Elt F)) :
    (rM : Memref sig .tc .vmem S8x1x256 .f32).view.readAt (Elt F) rAll.toLoadRect f = f :=
  Memref.readAt_unit_zero (Elt F) cc0_scratch0 (by funext a; fin_cases a <;> rfl) _ f

end Cert.KernelIdealHand
end

/-- info: 'Cert.KernelIdealHand.scr_split' depends on axioms: [propext, Classical.choice, Quot.sound] -/
#guard_msgs in #print axioms Cert.KernelIdealHand.scr_split
/-- info: 'Cert.KernelIdealHand.share_split' depends on axioms: [propext, Classical.choice, Quot.sound] -/
#guard_msgs in #print axioms Cert.KernelIdealHand.share_split
/-- info: 'Cert.KernelIdealHand.store0_eq' depends on axioms: [propext, Classical.choice, Quot.sound] -/
#guard_msgs in #print axioms Cert.KernelIdealHand.store0_eq
/-- info: 'Cert.KernelIdealHand.landed_eq' depends on axioms: [propext, Classical.choice, Quot.sound] -/
#guard_msgs in #print axioms Cert.KernelIdealHand.landed_eq
/-- info: 'Cert.KernelIdealHand.read_all' depends on axioms: [propext, Classical.choice, Quot.sound] -/
#guard_msgs in #print axioms Cert.KernelIdealHand.read_all
-- ==== Proof.KernelIdealSteps.lean ====
/-
  The protocol's steps, one lemma each and generic in the slot: a unit sent to a peer's barrier handing over a slot, the wait
  for the seven units, a copy into a peer's slot, the wait for a copy's source to be read and for a landing.
-/
import proofs.«901093_g7700000000001094_dist_sum_ax0_shard0_i_m512_n256_v7x_i8_f32_1_alg».proof.Proof.KernelIdealProto
import proofs.«901093_g7700000000001094_dist_sum_ax0_shard0_i_m512_n256_v7x_i8_f32_1_alg».proof.Proof.KernelIdealLevels
import proofs.«901093_g7700000000001094_dist_sum_ax0_shard0_i_m512_n256_v7x_i8_f32_1_alg».proof.Proof.KernelIdealBodyLemmas

noncomputable section

namespace Cert.KernelIdealHand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 17 → ℕ)

theorem inv_at (ck : Dev nD × Fin 17) : records m ρ K ⊢ cellInv ER (Rd m ρ) (K ck) (kcell ck) := by
  unfold records
  exact sep_elim_left.trans
    (bigSep_elim (Finset.mem_univ ck) (Φ := fun ck : Dev nD × Fin 17 => cellInv ER (Rd m ρ) (K ck) (kcell ck)))
theorem reached_at (ck : Dev nD × Fin 17) : records m ρ K ⊢ reached ER (kcell ck) 0 := by
  unfold records
  exact sep_elim_right.trans
    (bigSep_elim (Finset.mem_univ ck) (Φ := fun ck : Dev nD × Fin 17 => reached ER (kcell ck) 0))

/-! The records at the three kinds of cell. -/

private theorem inv_bar (c : Dev nD) : records m ρ K ⊢ cellInv ER (Rd m ρ) (K (c, jBar)) (barCell c) := by
  have h := inv_at m ρ K (c, jBar); rwa [kcell_bar] at h
private theorem inv_send (c : Dev nD) (k : Fin 8) : records m ρ K ⊢ cellInv ER (Rd m ρ) (K (c, jSend k)) (sendCell c k) := by
  have h := inv_at m ρ K (c, jSend k); rwa [kcell_send] at h
private theorem inv_recv (c : Dev nD) (k : Fin 8) : records m ρ K ⊢ cellInv ER (Rd m ρ) (K (c, jRecv k)) (recvCell c k) := by
  have h := inv_at m ρ K (c, jRecv k); rwa [kcell_recv] at h
private theorem reached_bar (c : Dev nD) : records m ρ K ⊢ reached ER (barCell c) 0 := by
  have h := reached_at m ρ K (c, jBar); rwa [kcell_bar] at h
private theorem reached_send (c : Dev nD) (k : Fin 8) : records m ρ K ⊢ reached ER (sendCell c k) 0 := by
  have h := reached_at m ρ K (c, jSend k); rwa [kcell_send] at h
private theorem reached_recv (c : Dev nD) (k : Fin 8) : records m ρ K ⊢ reached ER (recvCell c k) 0 := by
  have h := reached_at m ρ K (c, jRecv k); rwa [kcell_recv] at h

/-! The payloads a wait for a whole round returns, nothing of the round taken before. -/

/-- The barrier's round: the seven units' payloads, in the order of the slots. -/
private theorem rest_bar (c : Dev nD) :
    bigSep ((Rd (F := F) m ρ).duties (barCell c) 0 \ ∅) (fun d => (Rd (F := F) m ρ).payload (barCell c) 0 d)
      = iprop(barPay c 1 ∗ barPay c 2 ∗ barPay c 3 ∗ barPay c 4 ∗ barPay c 5 ∗ barPay c 6 ∗ barPay c 7) := by
  rw [Finset.sdiff_empty, duties_bar, bigSep_eq_bigSepL_of_eq [1, 2, 3, 4, 5, 6, 7] (by decide) (by decide)]
  simp only [bigSepL_cons_cons, bigSepL_singleton, payload_bar]
  rfl
private theorem rest_send (c : Dev nD) {k : Fin 8} (hk : k ≠ 0) :
    bigSep ((Rd (F := F) m ρ).duties (sendCell c k) 0 \ ∅) (fun d => (Rd (F := F) m ρ).payload (sendCell c k) 0 d) = sendPay m ρ c k := by
  rw [Finset.sdiff_empty, duties_send m ρ c hk, bigSep_singleton, payload_send]
private theorem rest_recv (c : Dev nD) {k : Fin 8} (hk : k ≠ 0) :
    bigSep ((Rd (F := F) m ρ).duties (recvCell c k) 0 \ ∅) (fun d => (Rd (F := F) m ρ).payload (recvCell c k) 0 d) = recvPay m ρ c k := by
  rw [Finset.sdiff_empty, duties_recv m ρ c hk, bigSep_singleton, payload_recv]

/-- Once its fourteen payments are made a device owes nothing. -/
private theorem Oafter_14 (c : Dev nD) : Oafter c 14 = 0 := rfl

/-- The n-th payment is the j-th signal: one unit on device c + j's barrier, its duty the one named by the slot of c that goes
    with it, slot 8 - j, which c hands over together with the fact that its receive cell of that slot is at round 0. -/
theorem step_signal (c : Dev nD) (j : Fin 8) (hj : j ≠ 0) (n : ℕ) (k' : ℕ) (hk' : k' = 1)
    (hO : Oafter c n = Oafter c (n + 1) + tallyAt (barCell (peer c j)) () 1)
    {α : Type} {Q : α → sProp 𝕄} {k : PUnit → Prog (TpuEff nD τ sig (Elt F) Λ₀ .tc) α}
    (f : Buf (Elt F) ((c : Thread nD τ).loc cc0_scratch0)) (W : Waits sig Unit) :
    iprop(records m ρ K ∗ owes (c : Thread nD τ) (Oafter c n) W ∗ dutyTok ER (barCell (peer c j)) 0 (neg j) ∗ slotPts c (neg j) fullShare f)
      ⊢ iprop((owes (c : Thread nD τ) (Oafter c (n + 1)) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (peer c j : Thread nD τ) barS k') k) Q) := by
  subst hk'
  iintro ⟨#Hrec, HO, Htok, Hslot⟩
  iapply (Rounds.wp_signal 𝒱₀ ER (Rd m ρ) (c : Thread nD τ) none (dst := (peer c j : Thread nD τ)) (sem := barS) (κ := K (peer c j, jBar))
      (r := 0) (d := neg j) (by rw [duties_bar]; exact Finset.mem_erase.mpr ⟨neg_ne_zero hj, Finset.mem_univ _⟩)
      (amount_bar m ρ (peer c j) (neg j)) () (Oafter c (n + 1)) hO (W := W))
  isplitr; · iapply (inv_bar m ρ K (peer c j)); iexact Hrec
  isplitl [HO]; · iexact HO
  isplitl [Htok]; · iexact Htok
  isplitl [Hslot]
  · rw [payload_bar]; unfold barPay; rw [peer_peer_neg]
    isplitl [Hslot]; · iexists f; iexact Hslot
    iapply (reached_recv m ρ K c (neg j)); iexact Hrec
  · iapply (reached_bar m ρ K (peer c j)); iexact Hrec

/-- The wait for the seven units: owing only receive credit, device c comes back with slot k of device c + k for every k. -/
theorem step_wait_bar (c : Dev nD) (k' : ℕ) (hk' : k' = 7)
    {α : Type} {Q : α → sProp 𝕄} {k : PUnit → Prog (TpuEff nD τ sig (Elt F) Λ₀ .tc) α} (W : Waits sig Unit) :
    iprop(records m ρ K ∗ cred (tallyAt (barCell c) () 7) ∗ owes (c : Thread nD τ) (Oafter c 7) W ∗ levAts L lv ∗ atPos ER (barCell c) 0 ∅ 0)
      ⊢ iprop(((owes (c : Thread nD τ) (Oafter c 7) (insert (SemLoc.reg barS, ()) W)
              ∗ (∃ f, slotPts (peer c 1) 1 fullShare f) ∗ (∃ f, slotPts (peer c 2) 2 fullShare f) ∗ (∃ f, slotPts (peer c 3) 3 fullShare f)
              ∗ (∃ f, slotPts (peer c 4) 4 fullShare f) ∗ (∃ f, slotPts (peer c 5) 5 fullShare f) ∗ (∃ f, slotPts (peer c 6) 6 fullShare f)
              ∗ (∃ f, slotPts (peer c 7) 7 fullShare f))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk'
  iintro ⟨#Hrec, Hc, HO, #Hlev, Hat⟩ Hk
  iapply (Rounds.wp_wait_rest_token 𝒱₀ ER (Rd m ρ) (c : Thread nD τ) none (κ := K (c, jBar))
      (wpE_semWait_eq 𝒱₀ (c : Thread nD τ) none Set.univ) (Set.mem_univ _) () (O := Oafter c 7) (W := W) (R := 0) (m := 0) (T := ∅)
      (by rw [expect_bar])) $$ [Hc HO Hat]
  · isplitr; · iapply (inv_bar m ρ K c); iexact Hrec
    isplitl [Hc]; · iexact Hc
    isplitl [HO]; · iexact HO
    isplitr; · iapply (mayWait_bar c); iexact Hlev
    iexact Hat
  iintro ⟨HO, -, -, Hpay⟩
  ihave Hp := (Entails.of_eq (rest_bar m ρ c)) $$ Hpay
  unfold barPay
  icases Hp with ⟨⟨H1, -⟩, ⟨H2, -⟩, ⟨H3, -⟩, ⟨H4, -⟩, ⟨H5, -⟩, ⟨H6, -⟩, ⟨H7, -⟩⟩
  iapply Hk
  isplitl [HO]; · iexact HO
  isplitl [H1]; · iexact H1
  isplitl [H2]; · iexact H2
  isplitl [H3]; · iexact H3
  isplitl [H4]; · iexact H4
  isplitl [H5]; · iexact H5
  isplitl [H6]; · iexact H6
  iexact H7

/-- The n-th payment is the j-th copy: slot 0, read at its j-th share, into slot j of device c + j, which c holds. The copy's
    landing hands that slot, at its final contents, to its owner; c gets the credit to wait for the source to be read. -/
theorem step_send (c : Dev nD) (j : Fin 8) (hj : j ≠ 0) (n : ℕ)
    (hO : Oafter c n = Oafter c (n + 1) + tallyAt (recvCell (peer c j) j) () N)
    {sS sR : DmaSem sig} (hsS : sS = sendS j) (hsR : sR = recvS j)
    {srcM : Memref sig .tc .vmem S1x256 .f32} {dstM : Memref sig (Dev.tc (peer c j) : Thread nD τ).2.kind .vmem S1x256 .f32} (hsrcM : srcM = slotM 0) (hdstM : dstM = slotM j)
    {hsc : dstM.view.ref.isScScratch = false} {hsrc : srcM.view.WordExact} {hdst : dstM.view.WordExact}
    {hsem : DmaTarget.Typed .vmem (.dma sR) (.remote (Dev.tc (peer c j) : Thread nD τ) dstM (.dma sS) hsc)}
    {α : Type} {Q : α → sProp 𝕄} {k : PUnit → Prog (TpuEff nD τ sig (Elt F) Λ₀ .tc) α}
    (fd : Buf (Elt F) ((slotM j).view.loc (peer c j : Thread nD τ))) (W : Waits sig Unit) :
    iprop(records m ρ K ∗ slotPts c 0 (shr j) (comm m ρ c) ∗ slotPts (peer c j) j fullShare fd
        ∗ owes (c : Thread nD τ) (Oafter c n) W
        ∗ dutyTok ER (sendCell c j) 0 0 ∗ dutyTok ER (recvCell (peer c j) j) 0 0)
      ⊢ iprop(((cred (tallyAt (sendCell c j) () N) ∗ owes (c : Thread nD τ) (Oafter c (n + 1)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma srcM (.remote (Dev.tc (peer c j) : Thread nD τ) dstM (.dma sS) hsc) (.dma sR) hsrc hdst hsem) k) Q) := by
  subst hsS hsR hsrcM hdstM
  unfold slotPts
  iintro ⟨#Hrec, Hs, Hd, HO, Ht1, Ht2⟩
  iapply (Rounds.wp_send_pointsTo 𝒱₀ ER (Rd m ρ) (c : Thread nD τ) none (c' := (Dev.tc (peer c j) : Thread nD τ))
      (src := slotM 0) (dst := slotM j) (q := shr j) (fs := comm m ρ c) (fd := fd)
      (κ₁ := K (c, jSend j)) (κ₂ := K (peer c j, jRecv j)) (r₁ := 0) (r₂ := 0) (d₁ := 0) (d₂ := 0)
      (by rw [duties_send m ρ c hj]; exact Finset.mem_singleton_self _)
      (by rw [duties_recv m ρ (peer c j) hj]; exact Finset.mem_singleton_self _)
      () () N rfl (amount_send m ρ c j 0) (amount_recv m ρ (peer c j) j 0) (Oafter c (n + 1)) hO (W := W)
      (by rw [payload_send]; exact BI.Entails.refl _)
      (by rw [payload_recv]; unfold recvPay; rw [← landed_eq m ρ c j fd]; exact BI.Entails.refl _))
  isplitr; · iapply (inv_send m ρ K c j); iexact Hrec
  isplitr; · iapply (inv_recv m ρ K (peer c j) j); iexact Hrec
  isplitl [Hs]; · iexact Hs
  isplitl [Hd]; · iexact Hd
  isplitl [HO]; · iexact HO
  isplitl [Ht1]; · iexact Ht1
  isplitr; · iapply (reached_send m ρ K c j); iexact Hrec
  isplitl [Ht2]; · iexact Ht2
  iapply (reached_recv m ρ K (peer c j) j); iexact Hrec

/-- The wait on the j-th send semaphore, nothing owed any more: the share of slot 0 the copy read comes back, and the
    semaphore, never used again, is the core's own at zero. -/
theorem step_wait_send (c : Dev nD) (j : Fin 8) (hj : j ≠ 0) {sem : DmaSem sig} (hsem : sem = sendS j)
    {sp' : Space} {s' : Shape} {e' : EltTy} {srcM : Memref sig .tc sp' s' e'} {dstM : Memref sig .tc .vmem S1x256 .f32} (hcr : dstM.view.dmaCredit = N)
    {hsrc : srcM.view.WordExact} {hdst : dstM.view.WordExact}
    {α : Type} {Q : α → sProp 𝕄} {k : PUnit → Prog (TpuEff nD τ sig (Elt F) Λ₀ .tc) α} (W : Waits sig Unit) :
    iprop(records m ρ K ∗ cred (tallyAt (sendCell c j) () N) ∗ owes (c : Thread nD τ) (Oafter c 14) W ∗ atPos ER (sendCell c j) 0 ∅ 0)
      ⊢ iprop(((owes (c : Thread nD τ) (Oafter c 14) (insert (SemLoc.dma (sendS j), ()) W) ∗ semVal (sendCell c j) 0 ∗ slotPts c 0 (shr j) (comm m ρ c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem srcM dstM hsrc hdst) k) Q) := by
  subst hsem
  rw [← hcr]
  iintro ⟨#Hrec, Hc, HO, Hat⟩ Hk
  iapply (Rounds.wp_wait_rest_token 𝒱₀ ER (Rd m ρ) (c : Thread nD τ) none (κ := K (c, jSend j))
      (wpE_waitDma2_eq 𝒱₀ (c : Thread nD τ) none Set.univ) (Set.mem_univ _) () (O := Oafter c 14) (W := W) (R := 0) (m := 0) (T := ∅)
      (by rw [Nat.zero_add, expect_send m ρ c hj, hcr])) $$ [Hc HO Hat]
  · isplitr; · iapply (inv_send m ρ K c j); iexact Hrec
    isplitl [Hc]; · iexact Hc
    isplitl [HO]; · iexact HO
    isplitr; · rw [Oafter_14, MayWait_zero]; iempintro
    iexact Hat
  iintro ⟨HO, Hat, -, Hpay⟩
  ihave Hp := (Entails.of_eq (rest_send m ρ c hj)) $$ Hpay
  imod (Rounds.cell_close ER (Rd m ρ) (Set.mem_univ (K (c, jSend j))) (fun h => h) (R := 0 + 1) (duties_later m ρ (sendCell c j))) $$ [Hat] with Hz
  · isplitr; · iapply (inv_send m ρ K c j); iexact Hrec
    iexact Hat
  iapply Hk
  isplitl [HO]; · iexact HO
  isplitl [Hz]; · iexact Hz
  unfold sendPay
  iexact Hp

/-- The wait on the j-th receive semaphore: slot j comes back holding the row of the device j places before, and the
    semaphore is the core's own at zero. -/
theorem step_wait_recv (c : Dev nD) (j : Fin 8) (hj : j ≠ 0) {sem : DmaSem sig} (hsem : sem = recvS j)
    {sp' : Space} {s' : Shape} {e' : EltTy} {srcM : Memref sig .tc sp' s' e'} {dstM : Memref sig .tc .vmem S1x256 .f32} (hcr : dstM.view.dmaCredit = N)
    {hsrc : srcM.view.WordExact} {hdst : dstM.view.WordExact}
    {α : Type} {Q : α → sProp 𝕄} {k : PUnit → Prog (TpuEff nD τ sig (Elt F) Λ₀ .tc) α} (W : Waits sig Unit) :
    iprop(records m ρ K ∗ cred (tallyAt (recvCell c j) () N) ∗ owes (c : Thread nD τ) (Oafter c 14) W ∗ atPos ER (recvCell c j) 0 ∅ 0)
      ⊢ iprop(((owes (c : Thread nD τ) (Oafter c 14) (insert (SemLoc.dma (recvS j), ()) W) ∗ semVal (recvCell c j) 0 ∗ slotPts c j fullShare (comm m ρ c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem srcM dstM hsrc hdst) k) Q) := by
  subst hsem
  rw [← hcr]
  iintro ⟨#Hrec, Hc, HO, Hat⟩ Hk
  iapply (Rounds.wp_wait_rest_token 𝒱₀ ER (Rd m ρ) (c : Thread nD τ) none (κ := K (c, jRecv j))
      (wpE_waitDma2_eq 𝒱₀ (c : Thread nD τ) none Set.univ) (Set.mem_univ _) () (O := Oafter c 14) (W := W) (R := 0) (m := 0) (T := ∅)
      (by rw [Nat.zero_add, expect_recv m ρ c hj, hcr])) $$ [Hc HO Hat]
  · isplitr; · iapply (inv_recv m ρ K c j); iexact Hrec
    isplitl [Hc]; · iexact Hc
    isplitl [HO]; · iexact HO
    isplitr; · rw [Oafter_14, MayWait_zero]; iempintro
    iexact Hat
  iintro ⟨HO, Hat, -, Hpay⟩
  ihave Hp := (Entails.of_eq (rest_recv m ρ c hj)) $$ Hpay
  imod (Rounds.cell_close ER (Rd m ρ) (Set.mem_univ (K (c, jRecv j))) (fun h => h) (R := 0 + 1) (duties_later m ρ (recvCell c j))) $$ [Hat] with Hz
  · isplitr; · iapply (inv_recv m ρ K c j); iexact Hrec
    iexact Hat
  iapply Hk
  isplitl [HO]; · iexact HO
  isplitl [Hz]; · iexact Hz
  unfold recvPay
  iexact Hp

/-- The two semaphores of slot 0 take no part: their cells close at round 0 and the counters are the core's own at zero. -/
theorem close_zero (c : Dev nD) :
    iprop(records m ρ K ∗ atPos ER (sendCell c 0) 0 ∅ 0 ∗ atPos ER (recvCell c 0) 0 ∅ 0)
      ⊢ |={Set.univ}=> iprop(semVal (sendCell c 0) 0 ∗ semVal (recvCell c 0) 0) := by
  iintro ⟨#Hrec, HatS, HatR⟩
  imod (Rounds.cell_close ER (Rd m ρ) (Set.mem_univ (K (c, jSend 0))) (fun h => h) (R := 0) (fun r _ => duties_send0 m ρ c r)) $$ [HatS] with HzS
  · isplitr; · iapply (inv_send m ρ K c 0); iexact Hrec
    iexact HatS
  imod (Rounds.cell_close ER (Rd m ρ) (Set.mem_univ (K (c, jRecv 0))) (fun h => h) (R := 0) (fun r _ => duties_recv0 m ρ c r)) $$ [HatR] with HzR
  · isplitr; · iapply (inv_recv m ρ K c 0); iexact Hrec
    iexact HatR
  imodintro
  isplitl [HzS]; · iexact HzS
  iexact HzR

end Cert.KernelIdealHand
end
-- ==== Proof.KernelIdealBody.lean ====
/-
  One device's kernel body, stepped from the protocol's ghost state to its end.
-/
import proofs.«901093_g7700000000001094_dist_sum_ax0_shard0_i_m512_n256_v7x_i8_f32_1_alg».proof.Proof.KernelIdealProto
import proofs.«901093_g7700000000001094_dist_sum_ax0_shard0_i_m512_n256_v7x_i8_f32_1_alg».proof.Proof.KernelIdealLevels
import proofs.«901093_g7700000000001094_dist_sum_ax0_shard0_i_m512_n256_v7x_i8_f32_1_alg».proof.Proof.KernelIdealBodyLemmas
import proofs.«901093_g7700000000001094_dist_sum_ax0_shard0_i_m512_n256_v7x_i8_f32_1_alg».proof.Proof.KernelIdealSteps

noncomputable section

namespace Cert.KernelIdealHand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 17 → ℕ)

/-- The slots other than 0, one by one. -/
private theorem bigSep_K7 {M : Type} [URA M] (Φ : Fin 8 → sProp M) :
    bigSep K7 Φ = iprop(Φ 1 ∗ Φ 2 ∗ Φ 3 ∗ Φ 4 ∗ Φ 5 ∗ Φ 6 ∗ Φ 7) :=
  bigSep_eq_bigSepL_of_eq [(1 : Fin 8), 2, 3, 4, 5, 6, 7] (by decide) (by decide) Φ

/-- All eight slots, one by one. -/
private theorem bigSep_F8 {M : Type} [URA M] (Φ : Fin 8 → sProp M) :
    bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

private theorem hz2 : (![0, 0] : Fin 2 → Nat) = fun _ => 0 := funext fun a => by fin_cases a <;> rfl

/-- The rectangle of the store into the result: the whole row. -/
private abbrev rOut : Rect S1x256 := Rect.unit (s := S1x256) ![0, 0] S1x256.size inb_S1x256_S1x256_0_0

omit [FloatOps F] in
/-- The load of x's staging buffer reads all of it. -/
private theorem read_x (f : (cc0_stg0_0 : Ref sig .tc).ty.Contents (Elt F)) :
    (xM : Memref sig .tc .vmem S512x256 .f32).view.readAt (Elt F)
      (Rect.unit (s := S512x256) ![0, 0] S512x256.size inb_S512x256_S512x256_0_0).toLoadRect f = f :=
  Memref.readAt_unit_zero (Elt F) cc0_stg0_0 hz2 _ f

omit [FloatOps F] in
/-- The store into the result's staging buffer overwrites all of it. -/
private theorem write_out (f w : (cc0_stg1_0 : Ref sig .tc).ty.Contents (Elt F)) :
    ((oM : Memref sig .tc .vmem S1x256 .f32).access rOut : View sig .tc _ _ _).write (Elt F) f w Finset.univ = w :=
  Memref.write_access_unit_zero_univ (Elt F) cc0_stg1_0 hz2 _ f w

/-- A copy addressed to a device named otherwise than c + j: the device is replaced by what it equals. -/
private theorem step_send_at (c : Dev nD) (j : Fin 8) (hj : j ≠ 0) (n : ℕ)
    (hO : Oafter c n = Oafter c (n + 1) + tallyAt (recvCell (peer c j) j) () N)
    (d : Dev nD) (hd : d = peer c j)
    {sS sR : DmaSem sig} (hsS : sS = sendS j) (hsR : sR = recvS j)
    {srcM : Memref sig .tc .vmem S1x256 .f32} {dstM : Memref sig (Dev.tc d : Thread nD τ).2.kind .vmem S1x256 .f32} (hsrcM : srcM = slotM 0) (hdstM : dstM = slotM j)
    {hsc : dstM.view.ref.isScScratch = false} {hsrc : srcM.view.WordExact} {hdst : dstM.view.WordExact}
    {hsem : DmaTarget.Typed .vmem (.dma sR) (.remote (Dev.tc d : Thread nD τ) dstM (.dma sS) hsc)}
    {α : Type} {Q : α → sProp 𝕄} {k : PUnit → Prog (TpuEff nD τ sig (Elt F) Λ₀ .tc) α}
    (fd : Buf (Elt F) ((slotM j).view.loc (peer c j : Thread nD τ))) (W : Waits sig Unit) :
    iprop(records m ρ K ∗ slotPts c 0 (shr j) (comm m ρ c) ∗ slotPts (peer c j) j fullShare fd
        ∗ owes (c : Thread nD τ) (Oafter c n) W
        ∗ dutyTok ER (sendCell c j) 0 0 ∗ dutyTok ER (recvCell (peer c j) j) 0 0)
      ⊢ iprop(((cred (tallyAt (sendCell c j) () N) ∗ owes (c : Thread nD τ) (Oafter c (n + 1)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma srcM (.remote (Dev.tc d : Thread nD τ) dstM (.dma sS) hsc) (.dma sR) hsrc hdst hsem) k) Q) := by
  subst hd
  exact step_send m ρ K c j hj n hO hsS hsR hsrcM hdstM fd W

omit [FloatOps F] in
/-- The same store, stated as a list of one write. -/
private theorem writes_out (f w : (cc0_stg1_0 : Ref sig .tc).ty.Contents (Elt F)) :
    (oM : Memref sig .tc .vmem S1x256 .f32).view.writes (Elt F) f [⟨rOut, w⟩] = w := write_out f w

/-- The body on device c: seven signals, the row sum into slot 0, the wait for seven, seven copies, fourteen waits, the sum
    of the eight slots into the result. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton]
  unfold k0_part1_skel k0_part2_skel k0_part3_skel k0_part4_skel k0_part5_skel k0_part6_skel k0_part7_skel k0_part8_skel
    k0_part9_skel k0_part10_skel k0_part11_skel k0_part12_skel
  simp only [semSignalWord, semWaitWord, Prog.lift, Prog.bind_op, Prog.bind_ret, Prog.pure_eq_ret, wp_deviceId]
  -- the seven signals address c + 1 … c + 7
  simp only [dev1_eq c, dev2_eq c, dev3_eq c, dev4_eq c, dev5_eq c, dev6_eq c, dev7_eq c]
  unfold bodyPre ghost positions payToks startCred
  simp only [bigSep_K7, bigSep_F8]
  iintro ⟨⟨⟨⟨#Hrec, ⟨HatB, ⟨HaS0, HaS1, HaS2, HaS3, HaS4, HaS5, HaS6, HaS7⟩, HaR0, HaR1, HaR2, HaR3, HaR4, HaR5, HaR6, HaR7⟩,
        ⟨HtB1, HtB2, HtB3, HtB4, HtB5, HtB6, HtB7⟩, ⟨HtR1, HtR2, HtR3, HtR4, HtR5, HtR6, HtR7⟩, HtS1, HtS2, HtS3, HtS4, HtS5, HtS6, HtS7⟩,
      ⟨HcB, HcR1, HcR2, HcR3, HcR4, HcR5, HcR6, HcR7⟩, #Hlev, ⟨%f0, Hscr⟩⟩,
    Ho, ⟨%d0, %g0, %hg0, Hx⟩, ⟨%d1, %g1, %hg1, Hout⟩⟩, Hk⟩
  have hx : g0 = xstg m ρ c := by rw [hg0]; unfold Dat.before; rw [if_pos (by decide +kernel : (cfg0.win 0).fetch t₀ = true)]; rfl
  subst hx
  unfold Dat.owesAt Pipeline.owesWithin
  icases Ho with ⟨%W, %hW, HO⟩
  rw [show (dats m ρ 0 c).owed t₀.castSucc = Oafter c 0 from rfl]
  -- the scratch buffer by slots
  icases (scr_split c f0).1 $$ Hscr with ⟨Hs0, Hs1, Hs2, Hs3, Hs4, Hs5, Hs6, Hs7⟩
  -- signal 1: slot 7 goes to device c + 1
  iapply (step_signal m ρ K c 1 (by decide) 0 ((1#32).toNat) rfl rfl f0 W) $$ [HO HtB1 Hs7]
  · isplitr; · iexact Hrec
    isplitl [HO]; · iexact HO
    isplitl [HtB1]; · iexact HtB1
    iexact Hs7
  iintro HO
  -- signal 2: slot 6 goes to device c + 2
  iapply (step_signal m ρ K c 2 (by decide) 1 ((1#32).toNat) rfl rfl f0 W) $$ [HO HtB2 Hs6]
  · isplitr; · iexact Hrec
    isplitl [HO]; · iexact HO
    isplitl [HtB2]; · iexact HtB2
    iexact Hs6
  iintro HO
  -- signal 3: slot 5 goes to device c + 3
  iapply (step_signal m ρ K c 3 (by decide) 2 ((1#32).toNat) rfl rfl f0 W) $$ [HO HtB3 Hs5]
  · isplitr; · iexact Hrec
    isplitl [HO]; · iexact HO
    isplitl [HtB3]; · iexact HtB3
    iexact Hs5
  iintro HO
  -- signal 4: slot 4 goes to device c + 4
  iapply (step_signal m ρ K c 4 (by decide) 3 ((1#32).toNat) rfl rfl f0 W) $$ [HO HtB4 Hs4]
  · isplitr; · iexact Hrec
    isplitl [HO]; · iexact HO
    isplitl [HtB4]; · iexact HtB4
    iexact Hs4
  iintro HO
  -- signal 5: slot 3 goes to device c + 5
  iapply (step_signal m ρ K c 5 (by decide) 4 ((1#32).toNat) rfl rfl f0 W) $$ [HO HtB5 Hs3]
  · isplitr; · iexact Hrec
    isplitl [HO]; · iexact HO
    isplitl [HtB5]; · iexact HtB5
    iexact Hs3
  iintro HO
  -- signal 6: slot 2 goes to device c + 6
  iapply (step_signal m ρ K c 6 (by decide) 5 ((1#32).toNat) rfl rfl f0 W) $$ [HO HtB6 Hs2]
  · isplitr; · iexact Hrec
    isplitl [HO]; · iexact HO
    isplitl [HtB6]; · iexact HtB6
    iexact Hs2
  iintro HO
  -- signal 7: slot 1 goes to device c + 7
  iapply (step_signal m ρ K c 7 (by decide) 6 ((1#32).toNat) rfl rfl f0 W) $$ [HO HtB7 Hs1]
  · isplitr; · iexact Hrec
    isplitl [HO]; · iexact HO
    isplitl [HtB7]; · iexact HtB7
    iexact Hs1
  iintro HO
  -- the block of x is read whole, and its row of column sums stored into slot 0: x's staging buffer and slot 0 are
  -- stated through their memrefs, and the three local steps are run
  ihave Hx : ((xM : Memref sig .tc .vmem S512x256 .f32).view.loc (c : Thread nD τ) ↦[Finset.univ]{fullShare} xstg m ρ c) $$ [Hx]
  · iexact Hx
  unfold slotPts
  set_option sl_exec.maxSteps 3 in sl_exec
  unfold sound_body.sl.Hs0_w1
  rw [read_x]
  ihave Hs0' : slotPts c 0 fullShare (comm m ρ c) $$ [Hs0]
  · rw [← store0_eq m ρ c f0]; unfold slotPts part; iexact Hs0
  -- the wait for the seven units: slot k of device c + k comes with the unit of device c + k
  iapply (step_wait_bar m ρ K c ((7#32).toNat) rfl W) $$ [HcB HO HatB]
  · isplitr; · iexact Hrec
    isplitl [HcB]; · iexact HcB
    isplitl [HO]; · iexact HO
    isplitr; · iexact Hlev
    iexact HatB
  iintro ⟨HO, ⟨%p1, Hp1⟩, ⟨%p2, Hp2⟩, ⟨%p3, Hp3⟩, ⟨%p4, Hp4⟩, ⟨%p5, Hp5⟩, ⟨%p6, Hp6⟩, ⟨%p7, Hp7⟩⟩
  -- slot 0 by the seven shares the copies read it at
  icases (share_split c (comm m ρ c)).1 $$ Hs0' with ⟨Hq1, Hq2, Hq3, Hq4, Hq5, Hq6, Hq7⟩
  -- copy 1: slot 0 into slot 1 of device c + 1
  iapply (step_send_at m ρ K c 1 (by decide) 7 rfl ⟨k0_dev8 c, k0_dev8_lt c⟩ (dev8_eq c) rfl rfl rfl rfl p1 (insert (SemLoc.reg barS, ()) W)) $$ [Hq1 Hp1 HO HtS1 HtR1]
  · isplitr; · iexact Hrec
    isplitl [Hq1]; · iexact Hq1
    isplitl [Hp1]; · iexact Hp1
    isplitl [HO]; · iexact HO
    isplitl [HtS1]; · iexact HtS1
    iexact HtR1
  iintro ⟨HcS1, HO⟩
  -- copy 2: slot 0 into slot 2 of device c + 2
  iapply (step_send_at m ρ K c 2 (by decide) 8 rfl ⟨k0_dev9 c, k0_dev9_lt c⟩ (dev9_eq c) rfl rfl rfl rfl p2 (insert (SemLoc.reg barS, ()) W)) $$ [Hq2 Hp2 HO HtS2 HtR2]
  · isplitr; · iexact Hrec
    isplitl [Hq2]; · iexact Hq2
    isplitl [Hp2]; · iexact Hp2
    isplitl [HO]; · iexact HO
    isplitl [HtS2]; · iexact HtS2
    iexact HtR2
  iintro ⟨HcS2, HO⟩
  -- copy 3: slot 0 into slot 3 of device c + 3
  iapply (step_send_at m ρ K c 3 (by decide) 9 rfl ⟨k0_dev10 c, k0_dev10_lt c⟩ (dev10_eq c) rfl rfl rfl rfl p3 (insert (SemLoc.reg barS, ()) W)) $$ [Hq3 Hp3 HO HtS3 HtR3]
  · isplitr; · iexact Hrec
    isplitl [Hq3]; · iexact Hq3
    isplitl [Hp3]; · iexact Hp3
    isplitl [HO]; · iexact HO
    isplitl [HtS3]; · iexact HtS3
    iexact HtR3
  iintro ⟨HcS3, HO⟩
  -- copy 4: slot 0 into slot 4 of device c + 4
  iapply (step_send_at m ρ K c 4 (by decide) 10 rfl ⟨k0_dev11 c, k0_dev11_lt c⟩ (dev11_eq c) rfl rfl rfl rfl p4 (insert (SemLoc.reg barS, ()) W)) $$ [Hq4 Hp4 HO HtS4 HtR4]
  · isplitr; · iexact Hrec
    isplitl [Hq4]; · iexact Hq4
    isplitl [Hp4]; · iexact Hp4
    isplitl [HO]; · iexact HO
    isplitl [HtS4]; · iexact HtS4
    iexact HtR4
  iintro ⟨HcS4, HO⟩
  -- copy 5: slot 0 into slot 5 of device c + 5
  iapply (step_send_at m ρ K c 5 (by decide) 11 rfl ⟨k0_dev12 c, k0_dev12_lt c⟩ (dev12_eq c) rfl rfl rfl rfl p5 (insert (SemLoc.reg barS, ()) W)) $$ [Hq5 Hp5 HO HtS5 HtR5]
  · isplitr; · iexact Hrec
    isplitl [Hq5]; · iexact Hq5
    isplitl [Hp5]; · iexact Hp5
    isplitl [HO]; · iexact HO
    isplitl [HtS5]; · iexact HtS5
    iexact HtR5
  iintro ⟨HcS5, HO⟩
  -- copy 6: slot 0 into slot 6 of device c + 6
  iapply (step_send_at m ρ K c 6 (by decide) 12 rfl ⟨k0_dev13 c, k0_dev13_lt c⟩ (dev13_eq c) rfl rfl rfl rfl p6 (insert (SemLoc.reg barS, ()) W)) $$ [Hq6 Hp6 HO HtS6 HtR6]
  · isplitr; · iexact Hrec
    isplitl [Hq6]; · iexact Hq6
    isplitl [Hp6]; · iexact Hp6
    isplitl [HO]; · iexact HO
    isplitl [HtS6]; · iexact HtS6
    iexact HtR6
  iintro ⟨HcS6, HO⟩
  -- copy 7: slot 0 into slot 7 of device c + 7
  iapply (step_send_at m ρ K c 7 (by decide) 13 rfl ⟨k0_dev14 c, k0_dev14_lt c⟩ (dev14_eq c) rfl rfl rfl rfl p7 (insert (SemLoc.reg barS, ()) W)) $$ [Hq7 Hp7 HO HtS7 HtR7]
  · isplitr; · iexact Hrec
    isplitl [Hq7]; · iexact Hq7
    isplitl [Hp7]; · iexact Hp7
    isplitl [HO]; · iexact HO
    isplitl [HtS7]; · iexact HtS7
    iexact HtR7
  iintro ⟨HcS7, HO⟩
  -- the wait for copy 1's source: its share of slot 0 is back
  iapply (step_wait_send m ρ K c 1 (by decide) rfl (srcM := slotM 1) (dstM := slotM 0) rfl (insert (SemLoc.reg barS, ()) W)) $$ [HcS1 HO HaS1]
  · isplitr; · iexact Hrec
    isplitl [HcS1]; · iexact HcS1
    isplitl [HO]; · iexact HO
    iexact HaS1
  iintro ⟨HO, HzS1, Hq1⟩
  -- the wait for the landing in slot 1: the row of the device 1 places before
  iapply (step_wait_recv m ρ K c 1 (by decide) rfl (srcM := slotM 0) (dstM := slotM 1) rfl (insert (SemLoc.dma (sendS 1), ()) (insert (SemLoc.reg barS, ()) W))) $$ [HcR1 HO HaR1]
  · isplitr; · iexact Hrec
    isplitl [HcR1]; · iexact HcR1
    isplitl [HO]; · iexact HO
    iexact HaR1
  iintro ⟨HO, HzR1, Hr1⟩
  -- the wait for copy 2's source: its share of slot 0 is back
  iapply (step_wait_send m ρ K c 2 (by decide) rfl (srcM := slotM 2) (dstM := slotM 0) rfl (insert (SemLoc.dma (recvS 1), ()) (insert (SemLoc.dma (sendS 1), ()) (insert (SemLoc.reg barS, ()) W)))) $$ [HcS2 HO HaS2]
  · isplitr; · iexact Hrec
    isplitl [HcS2]; · iexact HcS2
    isplitl [HO]; · iexact HO
    iexact HaS2
  iintro ⟨HO, HzS2, Hq2⟩
  -- the wait for the landing in slot 2: the row of the device 2 places before
  iapply (step_wait_recv m ρ K c 2 (by decide) rfl (srcM := slotM 0) (dstM := slotM 2) rfl (insert (SemLoc.dma (sendS 2), ()) (insert (SemLoc.dma (recvS 1), ()) (insert (SemLoc.dma (sendS 1), ()) (insert (SemLoc.reg barS, ()) W))))) $$ [HcR2 HO HaR2]
  · isplitr; · iexact Hrec
    isplitl [HcR2]; · iexact HcR2
    isplitl [HO]; · iexact HO
    iexact HaR2
  iintro ⟨HO, HzR2, Hr2⟩
  -- the wait for copy 3's source: its share of slot 0 is back
  iapply (step_wait_send m ρ K c 3 (by decide) rfl (srcM := slotM 3) (dstM := slotM 0) rfl (insert (SemLoc.dma (recvS 2), ()) (insert (SemLoc.dma (sendS 2), ()) (insert (SemLoc.dma (recvS 1), ()) (insert (SemLoc.dma (sendS 1), ()) (insert (SemLoc.reg barS, ()) W)))))) $$ [HcS3 HO HaS3]
  · isplitr; · iexact Hrec
    isplitl [HcS3]; · iexact HcS3
    isplitl [HO]; · iexact HO
    iexact HaS3
  iintro ⟨HO, HzS3, Hq3⟩
  -- the wait for the landing in slot 3: the row of the device 3 places before
  iapply (step_wait_recv m ρ K c 3 (by decide) rfl (srcM := slotM 0) (dstM := slotM 3) rfl (insert (SemLoc.dma (sendS 3), ()) (insert (SemLoc.dma (recvS 2), ()) (insert (SemLoc.dma (sendS 2), ()) (insert (SemLoc.dma (recvS 1), ()) (insert (SemLoc.dma (sendS 1), ()) (insert (SemLoc.reg barS, ()) W))))))) $$ [HcR3 HO HaR3]
  · isplitr; · iexact Hrec
    isplitl [HcR3]; · iexact HcR3
    isplitl [HO]; · iexact HO
    iexact HaR3
  iintro ⟨HO, HzR3, Hr3⟩
  -- the wait for copy 4's source: its share of slot 0 is back
  iapply (step_wait_send m ρ K c 4 (by decide) rfl (srcM := slotM 4) (dstM := slotM 0) rfl (insert (SemLoc.dma (recvS 3), ()) (insert (SemLoc.dma (sendS 3), ()) (insert (SemLoc.dma (recvS 2), ()) (insert (SemLoc.dma (sendS 2), ()) (insert (SemLoc.dma (recvS 1), ()) (insert (SemLoc.dma (sendS 1), ()) (insert (SemLoc.reg barS, ()) W)))))))) $$ [HcS4 HO HaS4]
  · isplitr; · iexact Hrec
    isplitl [HcS4]; · iexact HcS4
    isplitl [HO]; · iexact HO
    iexact HaS4
  iintro ⟨HO, HzS4, Hq4⟩
  -- the wait for the landing in slot 4: the row of the device 4 places before
  iapply (step_wait_recv m ρ K c 4 (by decide) rfl (srcM := slotM 0) (dstM := slotM 4) rfl (insert (SemLoc.dma (sendS 4), ()) (insert (SemLoc.dma (recvS 3), ()) (insert (SemLoc.dma (sendS 3), ()) (insert (SemLoc.dma (recvS 2), ()) (insert (SemLoc.dma (sendS 2), ()) (insert (SemLoc.dma (recvS 1), ()) (insert (SemLoc.dma (sendS 1), ()) (insert (SemLoc.reg barS, ()) W))))))))) $$ [HcR4 HO HaR4]
  · isplitr; · iexact Hrec
    isplitl [HcR4]; · iexact HcR4
    isplitl [HO]; · iexact HO
    iexact HaR4
  iintro ⟨HO, HzR4, Hr4⟩
  -- the wait for copy 5's source: its share of slot 0 is back
  iapply (step_wait_send m ρ K c 5 (by decide) rfl (srcM := slotM 5) (dstM := slotM 0) rfl (insert (SemLoc.dma (recvS 4), ()) (insert (SemLoc.dma (sendS 4), ()) (insert (SemLoc.dma (recvS 3), ()) (insert (SemLoc.dma (sendS 3), ()) (insert (SemLoc.dma (recvS 2), ()) (insert (SemLoc.dma (sendS 2), ()) (insert (SemLoc.dma (recvS 1), ()) (insert (SemLoc.dma (sendS 1), ()) (insert (SemLoc.reg barS, ()) W)))))))))) $$ [HcS5 HO HaS5]
  · isplitr; · iexact Hrec
    isplitl [HcS5]; · iexact HcS5
    isplitl [HO]; · iexact HO
    iexact HaS5
  iintro ⟨HO, HzS5, Hq5⟩
  -- the wait for the landing in slot 5: the row of the device 5 places before
  iapply (step_wait_recv m ρ K c 5 (by decide) rfl (srcM := slotM 0) (dstM := slotM 5) rfl (insert (SemLoc.dma (sendS 5), ()) (insert (SemLoc.dma (recvS 4), ()) (insert (SemLoc.dma (sendS 4), ()) (insert (SemLoc.dma (recvS 3), ()) (insert (SemLoc.dma (sendS 3), ()) (insert (SemLoc.dma (recvS 2), ()) (insert (SemLoc.dma (sendS 2), ()) (insert (SemLoc.dma (recvS 1), ()) (insert (SemLoc.dma (sendS 1), ()) (insert (SemLoc.reg barS, ()) W))))))))))) $$ [HcR5 HO HaR5]
  · isplitr; · iexact Hrec
    isplitl [HcR5]; · iexact HcR5
    isplitl [HO]; · iexact HO
    iexact HaR5
  iintro ⟨HO, HzR5, Hr5⟩
  -- the wait for copy 6's source: its share of slot 0 is back
  iapply (step_wait_send m ρ K c 6 (by decide) rfl (srcM := slotM 6) (dstM := slotM 0) rfl (insert (SemLoc.dma (recvS 5), ()) (insert (SemLoc.dma (sendS 5), ()) (insert (SemLoc.dma (recvS 4), ()) (insert (SemLoc.dma (sendS 4), ()) (insert (SemLoc.dma (recvS 3), ()) (insert (SemLoc.dma (sendS 3), ()) (insert (SemLoc.dma (recvS 2), ()) (insert (SemLoc.dma (sendS 2), ()) (insert (SemLoc.dma (recvS 1), ()) (insert (SemLoc.dma (sendS 1), ()) (insert (SemLoc.reg barS, ()) W)))))))))))) $$ [HcS6 HO HaS6]
  · isplitr; · iexact Hrec
    isplitl [HcS6]; · iexact HcS6
    isplitl [HO]; · iexact HO
    iexact HaS6
  iintro ⟨HO, HzS6, Hq6⟩
  -- the wait for the landing in slot 6: the row of the device 6 places before
  iapply (step_wait_recv m ρ K c 6 (by decide) rfl (srcM := slotM 0) (dstM := slotM 6) rfl (insert (SemLoc.dma (sendS 6), ()) (insert (SemLoc.dma (recvS 5), ()) (insert (SemLoc.dma (sendS 5), ()) (insert (SemLoc.dma (recvS 4), ()) (insert (SemLoc.dma (sendS 4), ()) (insert (SemLoc.dma (recvS 3), ()) (insert (SemLoc.dma (sendS 3), ()) (insert (SemLoc.dma (recvS 2), ()) (insert (SemLoc.dma (sendS 2), ()) (insert (SemLoc.dma (recvS 1), ()) (insert (SemLoc.dma (sendS 1), ()) (insert (SemLoc.reg barS, ()) W))))))))))))) $$ [HcR6 HO HaR6]
  · isplitr; · iexact Hrec
    isplitl [HcR6]; · iexact HcR6
    isplitl [HO]; · iexact HO
    iexact HaR6
  iintro ⟨HO, HzR6, Hr6⟩
  -- the wait for copy 7's source: its share of slot 0 is back
  iapply (step_wait_send m ρ K c 7 (by decide) rfl (srcM := slotM 7) (dstM := slotM 0) rfl (insert (SemLoc.dma (recvS 6), ()) (insert (SemLoc.dma (sendS 6), ()) (insert (SemLoc.dma (recvS 5), ()) (insert (SemLoc.dma (sendS 5), ()) (insert (SemLoc.dma (recvS 4), ()) (insert (SemLoc.dma (sendS 4), ()) (insert (SemLoc.dma (recvS 3), ()) (insert (SemLoc.dma (sendS 3), ()) (insert (SemLoc.dma (recvS 2), ()) (insert (SemLoc.dma (sendS 2), ()) (insert (SemLoc.dma (recvS 1), ()) (insert (SemLoc.dma (sendS 1), ()) (insert (SemLoc.reg barS, ()) W)))))))))))))) $$ [HcS7 HO HaS7]
  · isplitr; · iexact Hrec
    isplitl [HcS7]; · iexact HcS7
    isplitl [HO]; · iexact HO
    iexact HaS7
  iintro ⟨HO, HzS7, Hq7⟩
  -- the wait for the landing in slot 7: the row of the device 7 places before
  iapply (step_wait_recv m ρ K c 7 (by decide) rfl (srcM := slotM 0) (dstM := slotM 7) rfl (insert (SemLoc.dma (sendS 7), ()) (insert (SemLoc.dma (recvS 6), ()) (insert (SemLoc.dma (sendS 6), ()) (insert (SemLoc.dma (recvS 5), ()) (insert (SemLoc.dma (sendS 5), ()) (insert (SemLoc.dma (recvS 4), ()) (insert (SemLoc.dma (sendS 4), ()) (insert (SemLoc.dma (recvS 3), ()) (insert (SemLoc.dma (sendS 3), ()) (insert (SemLoc.dma (recvS 2), ()) (insert (SemLoc.dma (sendS 2), ()) (insert (SemLoc.dma (recvS 1), ()) (insert (SemLoc.dma (sendS 1), ()) (insert (SemLoc.reg barS, ()) W))))))))))))))) $$ [HcR7 HO HaR7]
  · isplitr; · iexact Hrec
    isplitl [HcR7]; · iexact HcR7
    isplitl [HO]; · iexact HO
    iexact HaR7
  iintro ⟨HO, HzR7, Hr7⟩
  -- the shares of slot 0 together again, then the eight slots
  ihave Hs0 : slotPts c 0 fullShare (comm m ρ c) $$ [Hq1 Hq2 Hq3 Hq4 Hq5 Hq6 Hq7]
  · iapply (share_split c (comm m ρ c)).2
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    iexact Hq7
  ihave Hscr : scrPts c (comm m ρ c) $$ [Hs0 Hr1 Hr2 Hr3 Hr4 Hr5 Hr6 Hr7]
  · iapply (scr_split c (comm m ρ c)).2
    isplitl [Hs0]; · iexact Hs0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    iexact Hr7
  -- the two semaphores of slot 0 were never used
  imod (close_zero m ρ K c) $$ [HaS0 HaR0] with ⟨HzS0, HzR0⟩
  · isplitr; · iexact Hrec
    isplitl [HaS0]; · iexact HaS0
    iexact HaR0
  -- the eight slots are read whole and their sum stored into the result: again three local steps
  unfold scrPts
  ihave Hout : ((oM : Memref sig .tc .vmem S1x256 .f32).view.loc (c : Thread nD τ) ↦[Finset.univ]{fullShare} g1) $$ [Hout]
  · iexact Hout
  set_option sl_exec.maxSteps 3 in sl_exec
  rw [read_all, writes_out, wp_ret]; imodintro
  iapply Hk
  unfold bodyPost Φ₁ Dat.owesAt Pipeline.owesWithin
  rw [show (dats m ρ 0 c).owed t₀.succ = 0 from rfl]
  simp only [bigSep_F8]
  isplitl [Hscr HzS0 HzR0 HzS1 HzR1 HzS2 HzR2 HzS3 HzR3 HzS4 HzR4 HzS5 HzR5 HzS6 HzR6 HzS7 HzR7]
  · isplitl [Hscr]; · unfold scrPts; iexact Hscr
    isplitl [HzS0 HzR0]
    · isplitl [HzS0]; · iexact HzS0
      iexact HzR0
    isplitl [HzS1 HzR1]
    · isplitl [HzS1]; · iexact HzS1
      iexact HzR1
    isplitl [HzS2 HzR2]
    · isplitl [HzS2]; · iexact HzS2
      iexact HzR2
    isplitl [HzS3 HzR3]
    · isplitl [HzS3]; · iexact HzS3
      iexact HzR3
    isplitl [HzS4 HzR4]
    · isplitl [HzS4]; · iexact HzS4
      iexact HzR4
    isplitl [HzS5 HzR5]
    · isplitl [HzS5]; · iexact HzS5
      iexact HzR5
    isplitl [HzS6 HzR6]
    · isplitl [HzS6]; · iexact HzS6
      iexact HzR6
    isplitl [HzS7]; · iexact HzS7
    iexact HzR7
  isplitl [HO]
  · iexists (insert (SemLoc.dma (recvS 7), ()) (insert (SemLoc.dma (sendS 7), ()) (insert (SemLoc.dma (recvS 6), ()) (insert (SemLoc.dma (sendS 6), ()) (insert (SemLoc.dma (recvS 5), ()) (insert (SemLoc.dma (sendS 5), ()) (insert (SemLoc.dma (recvS 4), ()) (insert (SemLoc.dma (sendS 4), ()) (insert (SemLoc.dma (recvS 3), ()) (insert (SemLoc.dma (sendS 3), ()) (insert (SemLoc.dma (recvS 2), ()) (insert (SemLoc.dma (sendS 2), ()) (insert (SemLoc.dma (recvS 1), ()) (insert (SemLoc.dma (sendS 1), ()) (insert (SemLoc.reg barS, ()) W)))))))))))))))
    isplitr; · ipureintro; exact Set.subset_union_of_subset_left (Set.subset_univ _) _
    iexact HO
  isplitl [Hx]
  · iexists _; isplitr; · (ipureintro; rfl)
    iexact Hx
  iexists _; isplitr; · (ipureintro; rfl)
  iexact Hout

/-- info: 'Cert.KernelIdealHand.sound_body' depends on axioms: [propext, Classical.choice, Quot.sound] -/
#guard_msgs in #print axioms sound_body

end Cert.KernelIdealHand
end
-- ==== Proof.KernelIdealLaunchGhost.lean ====
/-
  The protocol's ghost state at launch: minted for every cell of every device at once, the cells' invariants allocated, and
  each duty's token dealt to the device that pays it.
-/
import proofs.«901093_g7700000000001094_dist_sum_ax0_shard0_i_m512_n256_v7x_i8_f32_1_alg».proof.Proof.KernelIdealProto

noncomputable section

namespace Cert.KernelIdealHand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the minted tokens, indexed -/

theorem csem_injective : Function.Injective (csem : Fin 17 → SemLoc sig) := by decide

theorem kcell_injective : Function.Injective (kcell : Dev nD × Fin 17 → GSem nD τ sig) := by
  rintro ⟨c, j⟩ ⟨c', j'⟩ h
  have h1 : c = c' := by have := congrArg (fun g : GSem nD τ sig => g.1.1) h; exact this
  subst h1
  have h2 : csem j = csem j' := congrArg Prod.snd h
  rw [csem_injective h2]
def ringCells : Finset (GSem nD τ sig) := Finset.univ.map ⟨kcell, kcell_injective⟩

/-- The semaphore and the duty of a minted token: kind 0 is a barrier's duty k, kind 1 the k-th send cell's one duty,
    kind 2 the k-th receive cell's. -/
def tokKey (tk : Fin 3 × Fin 8) : SemLoc sig × Fin 8 :=
  match tk.1 with
  | 0 => (.reg barS, tk.2)
  | 1 => (.dma (sendS tk.2), 0)
  | 2 => (.dma (recvS tk.2), 0)

theorem tokKey_injective : Function.Injective tokKey := by decide

/-- A device's own cells' duty tokens as minted: its barrier's seven, its seven send cells' and its seven receive cells',
    named by the kind and a slot other than 0. -/
def tokOf (cj : Dev nD × Fin 3 × {k : Fin 8 // k ≠ 0}) : GSem nD τ sig × ℕ × Fin 8 :=
  (((cj.1 : Thread nD τ), (tokKey (cj.2.1, cj.2.2.1)).1), 0, (tokKey (cj.2.1, cj.2.2.1)).2)
theorem tokOf_injective : Function.Injective (tokOf : Dev nD × Fin 3 × {k : Fin 8 // k ≠ 0} → GSem nD τ sig × ℕ × Fin 8) := by
  rintro ⟨c, t, k⟩ ⟨c', t', k'⟩ h
  have h1 : c = c' := congrArg (fun x : GSem nD τ sig × ℕ × Fin 8 => x.1.1.1) h
  subst h1
  have h2 : tokKey (t, k.1) = tokKey (t', k'.1) :=
    Prod.ext (congrArg (fun x : GSem nD τ sig × ℕ × Fin 8 => x.1.2) h) (congrArg (fun x : GSem nD τ sig × ℕ × Fin 8 => x.2.2) h)
  have h3 := tokKey_injective h2
  have ht : t = t' := congrArg Prod.fst h3
  have hk : k = k' := Subtype.ext (congrArg Prod.snd h3)
  subst ht; subst hk; rfl
def ringToks : Finset (GSem nD τ sig × ℕ × Fin 8) := Finset.univ.map ⟨tokOf, tokOf_injective⟩

def u₀ : UU :=
  (initOf (Pipeline.cells cfgs cellOf_inj) (Pipeline.launchToks cfgs cellOf_inj), initOf ringCells ringToks)

/-- The duty tokens of device c's own cells. -/
def toks (c : Dev nD) : sProp 𝕄 :=
  iprop((bigSep K7 fun k => dutyTok ER (barCell c) 0 k) ∗ (bigSep K7 fun k => dutyTok ER (sendCell c k) 0 0)
    ∗ (bigSep K7 fun k => dutyTok ER (recvCell c k) 0 0))

/-- What the launch element deals device c. -/
def G (c : Dev nD) : sProp 𝕄 :=
  iprop((bigSep Finset.univ fun j : Fin 17 => roundState ER (Rd m ρ) (kcell (c, j)) 0)
    ∗ (bigSep Finset.univ fun j : Fin 17 => iprop(atPos ER (kcell (c, j)) 0 ∅ 0 ∗ reached ER (kcell (c, j)) 0)) ∗ toks c)

/-- What the global step makes of it. -/
def G' (c : Dev nD) : sProp 𝕄 := iprop(∃ K, ghost m ρ K c)

/-! ## Minting -/

theorem bigSep_fin3 (Φ : Fin 3 → sProp 𝕄) : bigSep Finset.univ Φ = iprop(Φ 0 ∗ Φ 1 ∗ Φ 2) :=
  bigSep_univ_eq_bigSepL [0, 1, 2] (by decide) (by decide) Φ

/-- One update mints every cell's round state, position and reached-mark and every duty's token, grouped by device. -/
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun j : Fin 17 => Φ (kcell (c, j)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks
    rw [← bigSep_subtype_ne 0 (fun k : Fin 8 => (dutyTok ER (barCell c) 0 k : sProp 𝕄)),
      ← bigSep_subtype_ne 0 (fun k : Fin 8 => (dutyTok ER (sendCell c k) 0 0 : sProp 𝕄)),
      ← bigSep_subtype_ne 0 (fun k : Fin 8 => (dutyTok ER (recvCell c k) 0 0 : sProp 𝕄)),
      bigSep_univ_prod, bigSep_fin3]
    rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The launch element funds the pipeline's cells and deals every device its part. -/
theorem hu₀ : (ownU (u₀ : UU) : sProp 𝕄)
    ⊢ |={Set.univ}=> iprop(BI.own (EP (initOf (Pipeline.cells cfgs cellOf_inj) (Pipeline.launchToks cfgs cellOf_inj))) ∗ bigSep Finset.univ (G m ρ)) := by
  unfold u₀
  iintro Hu
  ihave H := (ownU_pair _ _) $$ Hu
  icases H with ⟨HP, HX⟩
  imod (fund_ring m ρ) $$ HX with HG
  imodintro
  isplitl [HP] <;> iassumption

/-! ## The global step -/

/-- The mesh turned by j places. -/
def turn (j : Fin 8) : Dev nD ≃ Dev nD := ⟨fun c => peer c j, fun c => src c j, fun c => src_peer c j, fun c => peer_src c j⟩

/-- A device's seventeen cells are its barrier cell, its eight send cells and its eight receive cells. -/
theorem bigSep_cells (c : Dev nD) (Φ : GSem nD τ sig → sProp 𝕄) :
    (bigSep Finset.univ fun j : Fin 17 => Φ (kcell (c, j)))
      = iprop(Φ (barCell c) ∗ (bigSep Finset.univ fun k : Fin 8 => Φ (sendCell c k)) ∗ bigSep Finset.univ fun k : Fin 8 => Φ (recvCell c k)) := by
  rw [show (Finset.univ : Finset (Fin 17)) = insert jBar (Finset.univ.image jSend ∪ Finset.univ.image jRecv) from by decide,
    bigSep_insert (by decide), bigSep_union (by decide),
    bigSep_image_of_injOn (fun a _ b _ h => by revert a b; decide),
    bigSep_image_of_injOn (fun a _ b _ h => by revert a b; decide),
    bigSep_congr (s := Finset.univ) (fun (k : Fin 8) _ => congrArg Φ (kcell_send c k)),
    bigSep_congr (s := Finset.univ) (fun (k : Fin 8) _ => congrArg Φ (kcell_recv c k))]
  rfl

/-- The cells after the barrier's are the kernel's own sixteen semaphores, in the launch's order. -/
theorem csem_succ (k : Fin 16) : csem k.succ = osem k := by revert k; decide

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : Fin 17 => semVal (kcell (c, j)) 0 : sProp 𝕄) := by
  have e : (bigSep Finset.univ fun j : Fin 17 => semVal (kcell (c, j)) 0 : sProp 𝕄)
      = iprop(semVal (barCell c) 0 ∗ Pipeline.ownSems0 (Ix := Unit) (Name := ℕ) (U := UU) (Lvl := ℕ) (Val := Elt F) (τ := τ) osem c) := by
    rw [bigSep_univ_at _ (0 : Fin 17), show (Finset.univ.erase (0 : Fin 17)) = Finset.univ.map (Fin.succEmb 16) from by decide, bigSep_map]
    unfold Pipeline.ownSems0
    rw [bigSep_congr (s := Finset.univ) (fun (k : Fin 16) _ =>
      show (semVal (kcell (c, (Fin.succEmb 16) k)) 0 : sProp 𝕄) = semVal ((c : Thread nD τ), osem k) 0 from by
        show semVal ((c : Thread nD τ), csem k.succ) 0 = _; rw [csem_succ])]
    rfl
  rw [e, unscopedSems0_eq]
  iintro ⟨HS, HB⟩
  isplitl [HB] <;> iassumption

/-- On one device: every cell's counter at zero beside its round state becomes the cell's invariant at some name. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun j => iprop(∃ κ : ℕ, cellInv ER (Rd m ρ) κ (kcell (c, j))))
          ∗ (bigSep Finset.univ fun j => iprop(atPos ER (kcell (c, j)) 0 ∅ 0 ∗ reached ER (kcell (c, j)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun j : Fin 17 => semVal (kcell (c, j)) 0) ∗ bigSep Finset.univ fun j : Fin 17 => roundState ER (Rd m ρ) (kcell (c, j)) 0)
      ⊢ (|={Set.univ}=> bigSep Finset.univ fun j => iprop(∃ κ : ℕ, cellInv ER (Rd m ρ) κ (kcell (c, j))) : sProp 𝕄) from by
        rw [← bigSep_sep']
        exact (bigSep_mono fun j _ => (Rounds.body_intro ER (Rd m ρ) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

/-- Iterated sums over two finite sets commute. -/
theorem bigSep_finset_comm {I J : Type} [DecidableEq I] (s : Finset I) (t : Finset J) (Φ : I → J → sProp 𝕄) :
    (bigSep s fun i => bigSep t fun j => Φ i j) = bigSep t fun j => bigSep s fun i => Φ i j := by
  induction s using Finset.induction_on with
  | empty => simp only [bigSep_empty, bigSep_emp_const]
  | insert a s ha ih =>
    rw [bigSep_insert ha, ih, ← bigSep_sep]
    exact bigSep_congr fun j _ => (bigSep_insert (Φ := fun i => Φ i j) ha).symm

/-- A family over the devices and the slots other than 0, read at the device k places on instead: the same family. -/
theorem bigSep_turn (Φ : Dev nD → Fin 8 → sProp 𝕄) :
    (bigSep Finset.univ fun c : Dev nD => bigSep K7 fun k => Φ c k) = bigSep Finset.univ fun c : Dev nD => bigSep K7 fun k => Φ (peer c k) k := by
  rw [bigSep_finset_comm, bigSep_finset_comm Finset.univ K7 (fun c k => Φ (peer c k) k)]
  exact bigSep_congr fun k _ => bigSep_univ_equiv (turn k) (fun c => Φ c k)

/-- A family over the slots other than 0, read at the opposite slot: the same family. -/
theorem bigSep_neg (Ψ : Fin 8 → sProp 𝕄) : bigSep K7 Ψ = bigSep K7 fun j => Ψ (neg j) := by
  rw [← bigSep_image_of_injOn (f := neg) (s := K7) (fun a _ b _ h => by revert a b; decide) Ψ]
  exact congrArg (fun s => bigSep s Ψ) (by decide)

/-- The tokens dealt round the mesh: a barrier's token of duty k to the device k places on, which pays it as its opposite
    slot's; a receive cell's token to the device whose copy lands there; a send cell's stays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_turn (fun c k => (dutyTok ER (recvCell c k) 0 0 : sProp 𝕄)),
    bigSep_congr (s := Finset.univ) (fun (c : Dev nD) _ => bigSep_neg (fun k => (dutyTok ER (barCell c) 0 k : sProp 𝕄))),
    bigSep_turn (fun c j => (dutyTok ER (barCell c) 0 (neg j) : sProp 𝕄))]
  iintro ⟨H1, H2, H3⟩
  isplitl [H1]; · iexact H1
  isplitl [H3] <;> iassumption

theorem positions_intro (c : Dev nD) : (bigSep Finset.univ fun j : Fin 17 => (atPos ER (kcell (c, j)) 0 ∅ 0 : sProp 𝕄)) ⊢ positions c :=
  Entails.of_eq (by unfold positions; exact bigSep_cells c (fun g => (atPos ER g 0 ∅ 0 : sProp 𝕄)))

theorem ghost_intro (K : Dev nD × Fin 17 → ℕ) (c : Dev nD) : iprop(records m ρ K ∗ positions c ∗ payToks c) ⊢ G' m ρ c := by
  unfold G' ghost
  iintro H
  iexists K
  iexact H

/-- Every device's invariants, positions and own cells' tokens together: the names gathered into one function, the
    invariants and reached-marks (persistent) given to every device, the tokens dealt round. -/
theorem regroup :
    (bigSep Finset.univ fun c : Dev nD => iprop((bigSep Finset.univ fun j => iprop(∃ κ : ℕ, cellInv ER (Rd m ρ) κ (kcell (c, j))))
          ∗ (bigSep Finset.univ fun j => iprop(atPos ER (kcell (c, j)) 0 ∅ 0 ∗ reached ER (kcell (c, j)) 0)) ∗ toks c) : sProp 𝕄)
      ⊢ bigSep Finset.univ (G' m ρ) := by
  rw [bigSep_sep', bigSep_sep', ← bigSep_univ_prod (fun ck : Dev nD × Fin 17 => iprop(∃ κ : ℕ, cellInv ER (Rd m ρ) κ (kcell ck))),
    bigSep_congr (s := Finset.univ) (fun (c : Dev nD) _ => bigSep_sep' Finset.univ (fun j : Fin 17 => (atPos ER (kcell (c, j)) 0 ∅ 0 : sProp 𝕄)) (fun j => reached ER (kcell (c, j)) 0)),
    bigSep_sep', ← bigSep_univ_prod (fun ck : Dev nD × Fin 17 => (reached ER (kcell ck) 0 : sProp 𝕄))]
  iintro ⟨HI, ⟨Hat, #HR⟩, Htok⟩
  ihave HK := (BI.bigSep_exists_pi Finset.univ (fun (ck : Dev nD × Fin 17) (κ : ℕ) => (cellInv ER (Rd m ρ) κ (kcell ck) : sProp 𝕄))) $$ HI
  icases HK with ⟨%K, #HI⟩
  ihave Htk := (toks_around (F := F)) $$ Htok
  iapply (BI.bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun j : Fin 17 => (atPos ER (kcell (c, j)) 0 ∅ 0 : sProp 𝕄)) payToks).symm).trans
      (bigSep_mono fun c _ => sep_mono_left (positions_intro (F := F) c)))
    isplitl [Hat]; · iexact Hat
    iexact Htk

/-- The global step: the own and the unscoped semaphores of every device at once become the cells' invariants, and the
    tokens go to their payers. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-- info: 'Cert.KernelIdealHand.hu₀' depends on axioms: [propext, Classical.choice, Quot.sound] -/
#guard_msgs in #print axioms hu₀

/-- info: 'Cert.KernelIdealHand.glob' depends on axioms: [propext, Classical.choice, Quot.sound] -/
#guard_msgs in #print axioms glob

end Cert.KernelIdealHand
end
-- ==== Proof.KernelIdealLaunchCred.lean ====
/-
  The credit a device is launched with: what all devices together owe its cells — seven units on its barrier, one copy's
  credit on each of its seven receive cells.
-/
import proofs.«901093_g7700000000001094_dist_sum_ax0_shard0_i_m512_n256_v7x_i8_f32_1_alg».proof.Proof.KernelIdealProto

noncomputable section

namespace Cert.KernelIdealHand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a list of dues is at one cell -/

omit [FloatOps F] in
/-- The tally of a list of dues, read at a cell: the amounts of the entries on that cell, added up. -/
private theorem tallyOf_apply (l : List (GSem nD τ sig × ℕ)) (g : GSem nD τ sig) :
    tallyOf l g () = (l.map fun p => if g = p.1 then p.2 else 0).sum := by
  induction l with
  | nil => rfl
  | cons p l ih =>
    obtain ⟨g', a⟩ := p
    show (tallyOf l + tallyAt g' () a) g () = _
    rw [Pi.add_apply, Finsupp.add_apply, tallyAt_apply, ih, List.map_cons, List.sum_cons, Nat.add_comm]
    congr 1
    by_cases h : g = g'
    · rw [if_pos ⟨h, rfl⟩, if_pos h]
    · rw [if_neg (fun h' => h h'.1), if_neg h]

/-! ## When two of the mesh's cells are the same cell -/

omit [FloatOps F] in
private theorem bar_eq_iff {a b : Dev nD} : Iff (barCell a = barCell b) (a = b) :=
  ⟨fun h => Fin.ext (congrArg (fun g : GSem nD τ sig => g.1.1.val) h), fun h => h ▸ rfl⟩

omit [FloatOps F] in
private theorem recvS_inj {k j : Fin 8} : Iff (recvS k = recvS j) (k = j) := by revert k j; decide

omit [FloatOps F] in
private theorem recv_eq_iff {a b : Dev nD} {k j : Fin 8} : Iff (recvCell a k = recvCell b j) (a = b ∧ k = j) :=
  ⟨fun h => ⟨Fin.ext (congrArg (fun g : GSem nD τ sig => g.1.1.val) h),
      recvS_inj.mp (SemLoc.dma.inj (congrArg Prod.snd h))⟩, fun h => by rw [h.1, h.2]⟩

omit [FloatOps F] in
private theorem bar_ne_recv (a b : Dev nD) (k : Fin 8) : barCell a ≠ recvCell b k := fun h => recv_ne_bar k (congrArg Prod.snd h).symm
omit [FloatOps F] in
private theorem recv_ne_bar' (a b : Dev nD) (k : Fin 8) : recvCell a k ≠ barCell b := fun h => recv_ne_bar k (congrArg Prod.snd h)

/-! ## What one device owes another's cells -/

omit [FloatOps F] in
/-- What device d owes device c's barrier cell: one unit for each of its seven signals that addresses c. -/
private theorem owed_bar (d c : Dev nD) :
    O₀ d (barCell c) () = (if c = peer d 1 then 1 else 0) + ((if c = peer d 2 then 1 else 0) + ((if c = peer d 3 then 1 else 0)
      + ((if c = peer d 4 then 1 else 0) + ((if c = peer d 5 then 1 else 0) + ((if c = peer d 6 then 1 else 0) + (if c = peer d 7 then 1 else 0)))))) := by
  unfold O₀ Oafter owedList
  rw [List.drop_zero, tallyOf_apply]
  simp only [List.map_cons, List.map_nil, List.sum_cons, List.sum_nil, bar_eq_iff, bar_ne_recv, if_false, Nat.add_zero]

/-- An amount under a condition is the condition's unit, that many times. -/
private theorem ite_amount (p : Prop) [Decidable p] (n : ℕ) : (if p then n else 0) = (if p then 1 else 0) * n := by
  split
  · rw [Nat.one_mul]
  · rw [Nat.zero_mul]

omit [FloatOps F] in
/-- What device d owes device c's k-th receive cell: one copy's credit for each of its seven copies that lands in slot k of c. -/
private theorem owed_recv (d c : Dev nD) (k : Fin 8) :
    O₀ d (recvCell c k) () = ((if c = peer d 1 ∧ k = 1 then 1 else 0) + ((if c = peer d 2 ∧ k = 2 then 1 else 0) + ((if c = peer d 3 ∧ k = 3 then 1 else 0)
      + ((if c = peer d 4 ∧ k = 4 then 1 else 0) + ((if c = peer d 5 ∧ k = 5 then 1 else 0) + ((if c = peer d 6 ∧ k = 6 then 1 else 0) + (if c = peer d 7 ∧ k = 7 then 1 else 0))))))) * N := by
  unfold O₀ Oafter owedList
  rw [List.drop_zero, tallyOf_apply]
  simp only [List.map_cons, List.map_nil, List.sum_cons, List.sum_nil, recv_eq_iff, recv_ne_bar', if_false, Nat.add_zero, Nat.zero_add]
  simp only [ite_amount _ N, ← Nat.add_mul]

/-! ## What the whole mesh owes one device's cells -/

omit [FloatOps F] in
/-- Each of the seven other devices signals c's barrier once. -/
private theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

omit [FloatOps F] in
/-- Exactly one device, the one k places before c, copies into slot k of c. -/
private theorem launch_recv (c : Dev nD) {k : Fin 8} (hk : k ≠ 0) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k, ← Finset.sum_mul]
  refine (congrArg (· * N) ?_).trans (Nat.one_mul N)
  revert c k; decide

/-! ## The credit tokens -/

/-- The receive semaphores among a device's semaphore locations. -/
private def recvLoc : Fin 8 ↪ SemLoc sig := ⟨fun k => .dma (recvS k), fun k j h => recvS_inj.mp (SemLoc.dma.inj h)⟩

theorem creds (c : Dev nD) : (Pipeline.launchCred O₀ c : sProp 𝕄) ⊢ startCred c := by
  unfold Pipeline.launchCred startCred
  rw [bigSep_univ_at _ (SemLoc.reg barS), launch_bar]
  refine sep_mono_right ?_
  have hsub : K7.map recvLoc ⊆ Finset.univ.erase (SemLoc.reg barS) := fun sm h => by
    obtain ⟨k, _, rfl⟩ := Finset.mem_map.mp h
    exact Finset.mem_erase.mpr ⟨recv_ne_bar k, Finset.mem_univ _⟩
  refine (bigSep_subset hsub).trans ?_
  rw [bigSep_map]
  refine Entails.of_eq (bigSep_congr fun k hk => ?_)
  show cred (tallyOn (recvCell c k) (launchCredit (Pipeline.owing O₀) 0 (recvCell c k))) = _
  rw [launch_recv c (Finset.mem_erase.mp hk).1]

/-- info: 'Cert.KernelIdealHand.creds' depends on axioms: [propext, Classical.choice, Quot.sound] -/
#guard_msgs in #print axioms creds

end Cert.KernelIdealHand
end
-- ==== Proof.KernelIdealLaunchRun.lean ====
/-
  The launch: every device's body proved, the eight kernels run to the end, and what the arrays hold then.
-/
import proofs.«901093_g7700000000001094_dist_sum_ax0_shard0_i_m512_n256_v7x_i8_f32_1_alg».proof.Proof.KernelIdealBody
import proofs.«901093_g7700000000001094_dist_sum_ax0_shard0_i_m512_n256_v7x_i8_f32_1_alg».proof.Proof.KernelIdealLaunchGhost
import proofs.«901093_g7700000000001094_dist_sum_ax0_shard0_i_m512_n256_v7x_i8_f32_1_alg».proof.Proof.KernelIdealLaunchCred

noncomputable section

namespace Cert.KernelIdealHand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem bigSep_W (Φ : Fin cfg0.W → sProp 𝕄) : bigSep Finset.univ Φ = iprop(Φ (0 : Fin 2) ∗ Φ (1 : Fin 2)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body obligation -/

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device c: the body's precondition under the names the launch chose. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hc, Hlev⟩, Hscr⟩, Ho, Hx, Hout⟩
  iapply (sound_body m ρ K c fun _ => bodyPost m ρ c)
  unfold bodyPre
  isplitr []
  · isplitl [Hg Hc Hlev Hscr]
    · isplitl [Hg]; · iexact Hg
      isplitl [Hc]; · iexact Hc
      isplitl [Hlev]; · iexact Hlev
      iexact Hscr
    isplitl [Ho]; · iexact Ho
    isplitl [Hx] <;> iassumption
  · iintro H; iexact H

/-! ## The launch theorem's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

omit [FloatOps F] in
theorem scr_set : (rM : Memref sig .tc .vmem S8x1x256 .f32).view.set = Finset.univ := View.set_whole _
omit [FloatOps F] in
theorem scrPts_eq (c : Dev nD) (f : Buf (Elt F) ((c : Thread nD τ).loc cc0_scratch0)) :
    scrPts c f = (((c : Thread nD τ).loc cc0_scratch0) ↦{fullShare} f : sProp 𝕄) := by unfold scrPts; rw [scr_set]

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; rw [scrPts_eq]; iexact Hr

omit [FloatOps F] in
/-- The sixteen own semaphores, in the launch theorem's order, are the eight send and the eight receive semaphores. -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0 ∗ semVal (sendCell c 3) 0
        ∗ semVal (sendCell c 4) 0 ∗ semVal (sendCell c 5) 0 ∗ semVal (sendCell c 6) 0 ∗ semVal (sendCell c 7) 0
        ∗ semVal (recvCell c 0) 0 ∗ semVal (recvCell c 1) 0 ∗ semVal (recvCell c 2) 0 ∗ semVal (recvCell c 3) 0
        ∗ semVal (recvCell c 4) 0 ∗ semVal (recvCell c 5) 0 ∗ semVal (recvCell c 6) 0 ∗ semVal (recvCell c 7) 0) := by
  rw [Pipeline.ownSems0_eq_of_list c osem [0, 1, 2, 3, 4, 5, 6, 7, 8, 9, 10, 11, 12, 13, 14, 15] (by decide) (by decide)]; rfl

omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁
  rw [bigSep_fin8]
  iintro ⟨Hr, ⟨S0, R0⟩, ⟨S1, R1⟩, ⟨S2, R2⟩, ⟨S3, R3⟩, ⟨S4, R4⟩, ⟨S5, R5⟩, ⟨S6, R6⟩, ⟨S7, R7⟩⟩
  isplitr; · iempintro
  isplitr [Hr]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [R0]; · iexact R0
    isplitl [R1]; · iexact R1
    isplitl [R2]; · iexact R2
    isplitl [R3]; · iexact R3
    isplitl [R4]; · iexact R4
    isplitl [R5]; · iexact R5
    isplitl [R6]; · iexact R6
    iexact R7
  iexists (comm m ρ c); rw [← scrPts_eq]; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, for any float values, from any memory with zero counters: every weakly fair
    execution of the eight kernels terminates, and every final state has each device's two arrays at the computed contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := hu₀ m ρ)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-! ## What the arrays hold in the end -/

/-- x is an input: it holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array's one block, the whole array, read back is what the body left in its staging buffer. -/
theorem finalA_o (c : Dev nD) :
    (win0_1.blk (0 : Fin 1)).view.read (Elt F) (finalA m ρ c (1 : Fin 2)) = outAt m ρ c := by
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  exact View.read_write_univ _ _

/-- From any memory with zero counters every weakly fair execution of the eight kernels terminates, each device's result
    holding the sum of its eight slots and its block of x unchanged. -/
theorem run : θ_run defs (onTc (τ := τ) (main (F := F))) ⟨m, fun _ => 0, ρ⟩ (fun r => ∀ c : Dev nD,
    r.2.mem ((c.tc : Thread nD τ).loc main_v1) = outAt m ρ c
    ∧ r.2.mem ((c.tc : Thread nD τ).loc main_arg0) = m ((c.tc : Thread nD τ).loc main_arg0)) := by
  refine (θ_run defs _ _).mono (fun _ h c => ⟨(h c (1 : Fin 2)).trans ?_, (h c (0 : Fin 2)).trans (finalA_x m ρ c)⟩) (run_main m ρ)
  -- the result window's one block is the whole buffer at block index 0: reading it reads the buffer
  have hz : (fun a => (win0_1.index (0 : Fin 1)) a * main_v1.ty.shape.size a) = fun _ => 0 :=
    funext fun a => by fin_cases a <;> decide
  have hr := fun f => Memref.read_access_unit_zero (Elt F) main_v1 hz (fun a => by fin_cases a <;> decide) f
  have ho := finalA_o m ρ c
  rw [hr] at ho
  exact ho

end Cert.KernelIdealHand
end
-- ==== Proof.RefSide.lean ====
/-
  The reference's side: its one-device program sums all 4096 rows of the whole array, column by column.
-/
import proofs.«901093_g7700000000001094_dist_sum_ax0_shard0_i_m512_n256_v7x_i8_f32_1_alg».proof.Proof.Gen.ReferenceIdeal.Run
import proofs.«901093_g7700000000001094_dist_sum_ax0_shard0_i_m512_n256_v7x_i8_f32_1_alg».proof.Proof.Gen.ReferenceIdeal.Read
import Idealize.ShloMosaic.Lib.ValueIdx
import Idealize.ShloMosaic.Lib.Layout
import Idealize.ShloMosaic.PureOps.Ideal.Laws

noncomputable section

namespace Cert.RefSide

open Idealize.ShloMosaic

end Cert.RefSide
end
-- ==== Proof.KernelIdealValue.lean ====
/-
  The value: over the extended reals the sum of a device's eight slots is the sum of all 4096 rows of the whole array. Slot k
  of device c holds the column sums of the block of device c - k, the eight blocks are the whole array cut along its rows, and
  a sum of extended reals does not depend on how it is grouped or ordered.
-/
import proofs.«901093_g7700000000001094_dist_sum_ax0_shard0_i_m512_n256_v7x_i8_f32_1_alg».proof.Proof.KernelIdealProto
import proofs.«901093_g7700000000001094_dist_sum_ax0_shard0_i_m512_n256_v7x_i8_f32_1_alg».proof.Proof.RefSide
import Idealize.ShloMosaic.Lib.ValueLayout

noncomputable section

namespace Cert.KernelIdealHand

open Cert.KernelIdeal Cert.KernelIdeal.Gen
open Idealize.ShloMosaic Idealize.ShloMosaic.TcCoe Idealize.SL.Sem
open Idealize.ShloMosaic.ValueIdx

/-! ## The algebra: a sum over 4096 rows, taken block by block -/

/-- The sum of g over the 4096 rows is the sum, over the eight blocks of 512 rows taken in any order σ, of the sums over
    each block: row 512 d + r is row r of block d, and (d, r) ↦ 512 d + r is a bijection of pairs with rows. -/
private theorem sum_blocks {M : Type*} [AddCommMonoid M] (g : Fin 4096 → M) (σ : Fin 8 → Fin 8) (hσ : Function.Bijective σ) :
    ∑ k : Fin 8, ∑ r : Fin 512, g ⟨(σ k).val * 512 + r.val, by have := (σ k).isLt; have := r.isLt; omega⟩ = ∑ t : Fin 4096, g t := by
  rw [Fintype.sum_bijective σ hσ (fun k => ∑ r : Fin 512, g ⟨(σ k).val * 512 + r.val, by have := (σ k).isLt; have := r.isLt; omega⟩)
    (fun d => ∑ r : Fin 512, g ⟨d.val * 512 + r.val, by have := d.isLt; have := r.isLt; omega⟩) (fun _ => rfl)]
  rw [← Fintype.sum_prod_type' (f := fun (d : Fin 8) (r : Fin 512) => g ⟨d.val * 512 + r.val, by have := d.isLt; have := r.isLt; omega⟩)]
  refine Fintype.sum_equiv (finProdFinEquiv (m := 8) (n := 512)) _ _ fun p => ?_
  refine congrArg g (Fin.ext ?_)
  show p.1.val * 512 + p.2.val = p.2.val + 512 * p.1.val
  omega

/-- k ↦ c - k is a permutation of the eight devices. -/
private theorem src_bijective (c : Dev nD) : Function.Bijective (src c) := by
  revert c; decide

/-! ## The kernel's two reductions at an index -/

/-- Over a [R, 256] array reduced along its rows, the source index over lane l with row r inserted is (r, l). -/
private theorem lift_rows {R : Nat} (h : (⟨2, ![R, 256]⟩ : Shape).Reduces [0] ⟨1, ![256]⟩) (l : Fin 256) (r : Fin R) :
    h.lift (ix1 l) r = ix2 r l := by
  funext a; refine Fin.ext ?_
  match a with
  | ⟨0, _⟩ => rfl
  | ⟨1, _⟩ => rfl

/-- An [a, 1, b] array cast to [a, b] reads, at (i, j), the operand at (i, 0, j). -/
private theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- A device's row of column sums, at lane l: the sum of its block's column l over the 512 rows. -/
private theorem pay2_apply (v : FVec Ideal S512x256 .f32) (l : Fin 256) :
    k0_pay2 (F := Ideal) v (ix3 (0 : Fin 1) (0 : Fin 1) l) = ∑ r : Fin 512, v (ix2 r l) := by
  unfold k0_pay2
  refine (shapeCast_ab_1ab_apply _ _ (0 : Fin 1) (0 : Fin 1) l).trans ?_
  refine (shapeCast_a_1a_apply _ _ (0 : Fin 1) l).trans ?_
  refine (Ideal.multiReduction_add_single _ _ _ _ _ (ix1 l)).trans ?_
  exact Finset.sum_congr rfl fun r _ => congrArg v (lift_rows _ l r)

/-- The result at lane l: the sum of the eight slots' lane l. -/
private theorem pay3_apply (v : Vec Ideal S8x1x256 .f32) (u : Fin 1) (l : Fin 256) :
    k0_pay3 (F := Ideal) v (ix2 u l) = ∑ k : Fin 8, v (ix3 k (0 : Fin 1) l) := by
  unfold k0_pay3
  refine (shapeCast_a_1a_apply _ _ u l).trans ?_
  refine (Ideal.multiReduction_add_single _ _ _ _ _ (ix1 l)).trans ?_
  refine Finset.sum_congr rfl fun k _ => ?_
  exact (congrArg (shapeCast S8x256 v shapeCasts_S8x1x256_S8x256) (lift_rows _ l k)).trans (shapeCast_a1b_ab_apply _ _ k l)

/-! ## The staged block, the slots, the result -/

/-- What device d's staging buffer holds of x is device d's buffer of x itself: the window is the whole array. -/
private theorem xstg_eq (m : (ℓ : Loc nD τ sig) → Buf (Elt Ideal) ℓ) (ρ : Dev nD → PrngReg) (d : Dev nD) :
    xstg (F := Ideal) m ρ d = m ((d.tc : Thread nD τ).loc main_arg0) := by
  unfold xstg
  show View.read (Elt Ideal) (win0_0.blk (0 : Fin 1)).view (m ((d.tc : Thread nD τ).loc main_arg0)) = _
  exact Memref.read_access_unit_zero (Elt Ideal) main_arg0 (funext fun a => by fin_cases a <;> rfl) _ _

/-- Device d's row of column sums at lane l, when its buffer of x is block d of the whole array X: the sum of X's column l
    over the rows 512 d … 512 d + 511. -/
private theorem part_apply (m : (ℓ : Loc nD τ sig) → Buf (Elt Ideal) ℓ) (ρ : Dev nD → PrngReg)
    (X : (⟨Cert.ReferenceIdeal.S4096x256, .f32⟩ : BufTy).Contents (Elt Ideal))
    (hblk : ∀ c : Dev nD, m ((c.tc : Thread nD τ).loc main_arg0) = Layout.block ⟨2, ![512, 256]⟩ ⟨2, ![4096, 256]⟩ 0 8 c X)
    (d : Dev nD) (l : Fin 256) :
    part (F := Ideal) m ρ d (ix3 (0 : Fin 1) (0 : Fin 1) l)
      = ∑ r : Fin 512, X (ix2 (⟨d.val * 512 + r.val, by have : d.val < 8 := d.isLt; have := r.isLt; omega⟩ : Fin 4096) l) := by
  unfold part
  refine (pay2_apply _ l).trans (Finset.sum_congr rfl fun r _ => ?_)
  unfold k0_pay1
  rw [shapeCast_self, xstg_eq, hblk d, Layout.block_apply]
  refine congrArg X (funext fun a => Fin.ext ?_)
  match a with
  | ⟨0, _⟩ => rfl
  | ⟨1, _⟩ => rfl

/-- Device c's result is the reference's, when every device's block of x is its part of the reference's whole array. -/
theorem out_eq (m : (ℓ : Loc nD τ sig) → Buf (Elt Ideal) ℓ) (ρ : Dev nD → PrngReg)
    (X : (⟨Cert.ReferenceIdeal.S4096x256, .f32⟩ : BufTy).Contents (Elt Ideal))
    (hblk : ∀ c : Dev nD, m ((c.tc : Thread nD τ).loc main_arg0) = Layout.block ⟨2, ![512, 256]⟩ ⟨2, ![4096, 256]⟩ 0 8 c X) (c : Dev nD) :
    outAt (F := Ideal) m ρ c = Cert.ReferenceIdeal.Read.val_main_v1 (F := Ideal) X := by
  have key : ∀ (u : Fin 1) (l : Fin 256),
      outAt (F := Ideal) m ρ c (ix2 u l) = Cert.ReferenceIdeal.Read.val_main_v1 (F := Ideal) X (ix2 u l) := fun u l => by
    -- the reference at lane l: zero plus the sum of X's column l over all 4096 rows
    rw [Cert.ReferenceIdeal.Read.val_main_v1_apply, Cert.ReferenceIdeal.Read.val_main_v0_apply,
      Cert.ReferenceIdeal.Read.val_main_cst_apply]
    show _ = Ideal.ofBits .f32 0x00000000#32 + _
    rw [Ideal.ofBits_zero_f32, zero_add]
    -- the kernel at lane l: the sum over the slots k of the sum of X's column l over block c - k
    unfold outAt
    refine (pay3_apply _ u l).trans ?_
    refine Eq.trans
      (b := ∑ k : Fin 8, ∑ r : Fin 512,
        X (ix2 (⟨(src c k).val * 512 + r.val, by have : (src c k).val < 8 := (src c k).isLt; have := r.isLt; omega⟩ : Fin 4096) l))
      (Finset.sum_congr rfl fun k _ => part_apply m ρ X hblk (src c k) l) ?_
    refine (sum_blocks (fun t : Fin 4096 => X (ix2 t l)) (src c) (src_bijective c)).trans ?_
    refine Finset.sum_congr rfl fun t _ => congrArg X (funext fun a => Fin.ext ?_)
    match a with
    | ⟨0, _⟩ => rfl
    | ⟨1, _⟩ => rfl
  funext j
  exact (congrArg _ (eq_ix2 j)).trans ((key (j 0) (j 1)).trans (congrArg _ (eq_ix2 j).symm))

/-- info: 'Cert.KernelIdealHand.out_eq' depends on axioms: [propext, Classical.choice, Quot.sound] -/
#guard_msgs in #print axioms out_eq

end Cert.KernelIdealHand
end
-- ==== Proof.lean ====
/-
  The claim: the eight-device column sum against its one-device reference.

  Each device's kernel ends with its result holding the sum of its eight slots and its block of x unchanged (the launch, at
  either float instance); that is the frame of the kernel as printed and of its idealization. Over the extended reals the sum
  of the eight slots is the sum of all 4096 rows of the whole array, which is what the reference computes on one device.
  The idealization rewrote nothing, so it preserves the kernel trivially.
-/
import proofs.«901093_g7700000000001094_dist_sum_ax0_shard0_i_m512_n256_v7x_i8_f32_1_alg».proof.Defs
import proofs.«901093_g7700000000001094_dist_sum_ax0_shard0_i_m512_n256_v7x_i8_f32_1_alg».proof.Proof.Gen.Kernel
import proofs.«901093_g7700000000001094_dist_sum_ax0_shard0_i_m512_n256_v7x_i8_f32_1_alg».proof.Proof.Gen.KernelIdeal
import proofs.«901093_g7700000000001094_dist_sum_ax0_shard0_i_m512_n256_v7x_i8_f32_1_alg».proof.Proof.Gen.ReferenceIdeal
import proofs.«901093_g7700000000001094_dist_sum_ax0_shard0_i_m512_n256_v7x_i8_f32_1_alg».proof.Proof.Gen.Pre_finite_inputs_Kernel
import proofs.«901093_g7700000000001094_dist_sum_ax0_shard0_i_m512_n256_v7x_i8_f32_1_alg».proof.Proof.Gen.Pre_finite_inputs_ReferenceIdeal
import proofs.«901093_g7700000000001094_dist_sum_ax0_shard0_i_m512_n256_v7x_i8_f32_1_alg».proof.Proof.Gen.ReferenceIdeal.Run
import proofs.«901093_g7700000000001094_dist_sum_ax0_shard0_i_m512_n256_v7x_i8_f32_1_alg».proof.Proof.Gen.ReferenceIdeal.Read
import proofs.«901093_g7700000000001094_dist_sum_ax0_shard0_i_m512_n256_v7x_i8_f32_1_alg».proof.Proof.KernelLaunchRun
import proofs.«901093_g7700000000001094_dist_sum_ax0_shard0_i_m512_n256_v7x_i8_f32_1_alg».proof.Proof.KernelIdealLaunchRun
import proofs.«901093_g7700000000001094_dist_sum_ax0_shard0_i_m512_n256_v7x_i8_f32_1_alg».proof.Proof.KernelIdealValue
import Idealize.ShloMosaic.Adequacy
import Idealize.ShloMosaic.Init

noncomputable section

namespace Cert.Proof

open Idealize.ShloMosaic Idealize.SL.Sem

/-- The kernel as printed runs to the end and leaves x as it was. -/
theorem frame_k : Cert.frame_Kernel := fun m ρ _ =>
  (θ_run Cert.Kernel.defs _ _).mono (fun _ h c => (h c).2) (Cert.KernelHand.run (F := Bits) m ρ)

/-- So does its idealization. -/
theorem frame_ki : Cert.frame_KernelIdeal := fun m ρ _ =>
  (θ_run Cert.KernelIdeal.defs _ _).mono (fun _ h c => (h c).2) (Cert.KernelIdealHand.run (F := Ideal) m ρ)

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Every device's result is the reference's: the sum of the eight slots is the sum of the 4096 rows. -/
theorem algebraic : Cert.algebraic_KernelIdeal_ReferenceIdeal := by
  intro m ρ m' ρ' _ hagree
  refine ⟨Cert.ReferenceIdeal.Read.val_main_v1 (F := Ideal) (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono
      (fun _ h c => ⟨(h c).1.trans (Cert.KernelIdealHand.out_eq m ρ _ hagree c), (h c).2⟩) (Cert.KernelIdealHand.run (F := Ideal) m ρ)
  · exact (θ_run Cert.ReferenceIdeal.defs _ _).mono
      (fun _ h => ⟨(h 0).1.trans (Cert.ReferenceIdeal.Read.val_main_v1_eq _), (h 0).2⟩) (Cert.ReferenceIdeal.Value.run (F := Ideal) m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, preserves, algebraic⟩

end Cert.Proof

end
